-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v184)) (v1 : (c : Dev Cert.KernelIdeal.nD) → Buf (Elt Ideal) ((c.tc : Thread Cert.KernelIdeal.nD Cert.KernelIdeal.τ).loc Cert.KernelIdeal.main_v207)) (v2 : (c : Dev Cert.KernelIdeal.nD) → Buf (Elt Ideal) ((c.tc : Thread Cert.KernelIdeal.nD Cert.KernelIdeal.τ).loc Cert.KernelIdeal.main_v230)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v184) = v0 c
          ∧ r.2.mem ((c.tc : Thread Cert.KernelIdeal.nD Cert.KernelIdeal.τ).loc Cert.KernelIdeal.main_v207) = v1 c
          ∧ r.2.mem ((c.tc : Thread Cert.KernelIdeal.nD Cert.KernelIdeal.τ).loc Cert.KernelIdeal.main_v230) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v226) = v0 c
          ∧ r.2.mem ((c.tc : Thread Cert.ReferenceIdeal.nD Cert.ReferenceIdeal.τ).loc Cert.ReferenceIdeal.main_v237) = v1 c
          ∧ r.2.mem ((c.tc : Thread Cert.ReferenceIdeal.nD Cert.ReferenceIdeal.τ).loc Cert.ReferenceIdeal.main_v248) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S1024x256 : Shape := ⟨2, ![1024, 256]⟩
abbrev S50000x256 : Shape := ⟨2, ![50000, 256]⟩
abbrev S65536x2 : Shape := ⟨2, ![65536, 2]⟩
abbrev S65536 : Shape := ⟨1, ![65536]⟩
abbrev S32768x2 : Shape := ⟨2, ![32768, 2]⟩
abbrev S32768 : Shape := ⟨1, ![32768]⟩
abbrev S1600000x2 : Shape := ⟨2, ![1600000, 2]⟩
abbrev S1600000 : Shape := ⟨1, ![1600000]⟩
abbrev S500000x2 : Shape := ⟨2, ![500000, 2]⟩
abbrev S250000x2 : Shape := ⟨2, ![250000, 2]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S50000x256 : S_.BroadcastsInDim S50000x256 (![] : Fin 0 → Fin S50000x256.rank)
  reducesTo_S50000x256_S_d0_1 : S50000x256.ReducesTo [0, 1] S_
  bcast_S_S65536 : S_.BroadcastsInDim S65536 (![] : Fin 0 → Fin S65536.rank)
  reducesTo_S65536_S_d0 : S65536.ReducesTo [0] S_
  bcast_S_S32768 : S_.BroadcastsInDim S32768 (![] : Fin 0 → Fin S32768.rank)
  reducesTo_S32768_S_d0 : S32768.ReducesTo [0] S_
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S500000x2 : S_.BroadcastsInDim S500000x2 (![] : Fin 0 → Fin S500000x2.rank)
  reducesTo_S500000x2_S_d0_1 : S500000x2.ReducesTo [0, 1] S_
  bcast_S_S250000x2 : S_.BroadcastsInDim S250000x2 (![] : Fin 0 → Fin S250000x2.rank)
  reducesTo_S250000x2_S_d0_1 : S250000x2.ReducesTo [0, 1] S_

variable [Facts]

def fn_part5 {F : FTy → Type} [FloatOps F] (main_arg9 : IVec S500000x2 32) (main_arg10 : IVec S500000x2 32) (main_arg11 : IVec S250000x2 32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_c_34 : IVec S_ 32 := constantI S_ 32 0#32
  let main_v89 : IVec S500000x2 32 := broadcastInDim S500000x2 ![] bcast_S_S500000x2 main_c_34
  let main_v90 : IVec S500000x2 1 := cmpi .sge main_arg9 main_v89
  let main_c_35 : IVec S_ 1 := constantI S_ 1 1#1
  let main_v91 : IVec S_ 1 := (fun x v => Host.reduce IntOp.andi x v reducesTo_S500000x2_S_d0_1 h_S_) main_v90 main_c_35
  let main_v92 : IVec S_ 1 := andi main_v88 main_v91
  let main_c_36 : IVec S_ 32 := constantI S_ 32 0#32
  let main_v93 : IVec S500000x2 32 := broadcastInDim S500000x2 ![] bcast_S_S500000x2 main_c_36
  let main_v94 : IVec S500000x2 1 := cmpi .sge main_arg10 main_v93
  let main_c_37 : IVec S_ 1 := constantI S_ 1 1#1
  let main_v95 : IVec S_ 1 := (fun x v => Host.reduce IntOp.andi x v reducesTo_S500000x2_S_d0_1 h_S_) main_v94 main_c_37
  let main_v96 : IVec S_ 1 := andi main_v92 main_v95
  let main_c_38 : IVec S_ 32 := constantI S_ 32 0#32
  let main_v97 : IVec S250000x2 32 := broadcastInDim S250000x2 ![] bcast_S_S250000x2 main_c_38
  let main_v98 : IVec S250000x2 1 := cmpi .sge main_arg11 main_v97
  let main_c_39 : IVec S_ 1 := constantI S_ 1 1#1
  let main_v99 : IVec S_ 1 := (fun x v => Host.reduce IntOp.andi x v reducesTo_S250000x2_S_d0_1 h_S_) main_v98 main_c_39
  let main_v100 : IVec S_ 1 := andi main_v96 main_v99
  main_v100

def fn_part4 {F : FTy → Type} [FloatOps F] (main_arg9 : IVec S500000x2 32) (main_arg10 : IVec S500000x2 32) (main_arg11 : IVec S250000x2 32) (main_arg20 : FVec F S128x1 .f32) (main_arg21 : FVec F S1 .f32) (main_arg22 : FVec F S128x1 .f32) (main_arg23 : FVec F S1 .f32) (main_v63 : IVec S_ 1) (main_v67 : IVec S_ 1) : IVec S_ 1 :=
  let main_v68 : IVec S_ 1 := andi main_v63 main_v67
  let main_v69 : FVec F S128x1 .f32 := Host.absf main_arg20
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg21
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S128x1 .f32 := Host.absf main_arg22
  let main_cst_30 : FVec F S_ .f32 := constant S_ .f32 0x7F800000#32
  let main_v80 : FVec F S128x1 .f32 := broadcastInDim S128x1 ![] bcast_S_S128x1 main_cst_30
  let main_v81 : IVec S128x1 1 := cmpf .olt main_v79 main_v80
  let main_c_31 : IVec S_ 1 := constantI S_ 1 1#1
  let main_v82 : IVec S_ 1 := (fun x v => Host.reduce IntOp.andi x v reducesTo_S128x1_S_d0_1 h_S_) main_v81 main_c_31
  let main_v83 : IVec S_ 1 := andi main_v78 main_v82
  let main_v84 : FVec F S1 .f32 := Host.absf main_arg23
  let main_cst_32 : FVec F S_ .f32 := constant S_ .f32 0x7F800000#32
  fn_part5 (F := F) main_arg9 main_arg10 main_arg11 main_v83 main_v84 main_cst_32

def fn_part3 {F : FTy → Type} [FloatOps F] (main_arg9 : IVec S500000x2 32) (main_arg10 : IVec S500000x2 32) (main_arg11 : IVec S250000x2 32) (main_arg17 : FVec F S128 .f32) (main_arg18 : FVec F S128x1 .f32) (main_arg19 : FVec F S1 .f32) (main_arg20 : FVec F S128x1 .f32) (main_arg21 : FVec F S1 .f32) (main_arg22 : FVec F S128x1 .f32) (main_arg23 : FVec F S1 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg17
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg18
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg19
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg9 main_arg10 main_arg11 main_arg20 main_arg21 main_arg22 main_arg23 main_v63 main_v67

def fn_part2 {F : FTy → Type} [FloatOps F] (main_arg9 : IVec S500000x2 32) (main_arg10 : IVec S500000x2 32) (main_arg11 : IVec S250000x2 32) (main_arg13 : FVec F S128 .f32) (main_arg14 : FVec F S256x128 .f32) (main_arg15 : FVec F S128 .f32) (main_arg16 : FVec F S256x128 .f32) (main_arg17 : FVec F S128 .f32) (main_arg18 : FVec F S128x1 .f32) (main_arg19 : FVec F S1 .f32) (main_arg20 : FVec F S128x1 .f32) (main_arg21 : FVec F S1 .f32) (main_arg22 : FVec F S128x1 .f32) (main_arg23 : FVec F S1 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg14
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg15
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg16
  let main_cst_18 : FVec F S_ .f32 := constant S_ .f32 0x7F800000#32
  let main_v50 : FVec F S256x128 .f32 := broadcastInDim S256x128 ![] bcast_S_S256x128 main_cst_18
  fn_part3 (F := F) main_arg9 main_arg10 main_arg11 main_arg17 main_arg18 main_arg19 main_arg20 main_arg21 main_arg22 main_arg23 main_v48 main_v49 main_v50

def fn_part1 {F : FTy → Type} [FloatOps F] (main_arg6 : FVec F S32768 .f32) (main_arg8 : FVec F S1600000 .f32) (main_arg9 : IVec S500000x2 32) (main_arg10 : IVec S500000x2 32) (main_arg11 : IVec S250000x2 32) (main_arg12 : FVec F S256x128 .f32) (main_arg13 : FVec F S128 .f32) (main_arg14 : FVec F S256x128 .f32) (main_arg15 : FVec F S128 .f32) (main_arg16 : FVec F S256x128 .f32) (main_arg17 : FVec F S128 .f32) (main_arg18 : FVec F S128x1 .f32) (main_arg19 : FVec F S1 .f32) (main_arg20 : FVec F S128x1 .f32) (main_arg21 : FVec F S1 .f32) (main_arg22 : FVec F S128x1 .f32) (main_arg23 : FVec F S1 .f32) (main_v13 : IVec S_ 1) (main_v16 : IVec S65536 1) : IVec S_ 1 :=
  let main_c_5 : IVec S_ 1 := constantI S_ 1 1#1
  let main_v17 : IVec S_ 1 := (fun x v => Host.reduce IntOp.andi x v reducesTo_S65536_S_d0 h_S_) main_v16 main_c_5
  let main_v18 : IVec S_ 1 := andi main_v13 main_v17
  let main_v19 : FVec F S32768 .f32 := Host.absf main_arg6
  let main_cst_6 : FVec F S_ .f32 := constant S_ .f32 0x7F800000#32
  let main_v20 : FVec F S32768 .f32 := broadcastInDim S32768 ![] bcast_S_S32768 main_cst_6
  let main_v21 : IVec S32768 1 := cmpf .olt main_v19 main_v20
  let main_c_7 : IVec S_ 1 := constantI S_ 1 1#1
  let main_v22 : IVec S_ 1 := (fun x v => Host.reduce IntOp.andi x v reducesTo_S32768_S_d0 h_S_) main_v21 main_c_7
  let main_v23 : IVec S_ 1 := andi main_v18 main_v22
  let main_v24 : FVec F S1600000 .f32 := Host.absf main_arg8
  let main_cst_8 : FVec F S_ .f32 := constant S_ .f32 0x7F800000#32
  let main_v25 : FVec F S1600000 .f32 := broadcastInDim S1600000 ![] bcast_S_S1600000 main_cst_8
  let main_v26 : IVec S1600000 1 := cmpf .olt main_v24 main_v25
  let main_c_9 : IVec S_ 1 := constantI S_ 1 1#1
  let main_v27 : IVec S_ 1 := (fun x v => Host.reduce IntOp.andi x v reducesTo_S1600000_S_d0 h_S_) main_v26 main_c_9
  let main_v28 : IVec S_ 1 := andi main_v23 main_v27
  let main_v29 : FVec F S256x128 .f32 := Host.absf main_arg12
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg13 main_arg14 main_arg15 main_arg16 main_arg17 main_arg18 main_arg19 main_arg20 main_arg21 main_arg22 main_arg23 main_v33

def fn {F : FTy → Type} [FloatOps F] (main_arg0 : FVec F S2048x256 .f32) (main_arg1 : FVec F S1024x256 .f32) (main_arg2 : FVec F S50000x256 .f32) (main_arg3 : IVec S65536x2 32) (main_arg4 : FVec F S65536 .f32) (main_arg5 : IVec S32768x2 32) (main_arg6 : FVec F S32768 .f32) (main_arg7 : IVec S1600000x2 32) (main_arg8 : FVec F S1600000 .f32) (main_arg9 : IVec S500000x2 32) (main_arg10 : IVec S500000x2 32) (main_arg11 : IVec S250000x2 32) (main_arg12 : FVec F S256x128 .f32) (main_arg13 : FVec F S128 .f32) (main_arg14 : FVec F S256x128 .f32) (main_arg15 : FVec F S128 .f32) (main_arg16 : FVec F S256x128 .f32) (main_arg17 : FVec F S128 .f32) (main_arg18 : FVec F S128x1 .f32) (main_arg19 : FVec F S1 .f32) (main_arg20 : FVec F S128x1 .f32) (main_arg21 : FVec F S1 .f32) (main_arg22 : FVec F S128x1 .f32) (main_arg23 : FVec F S1 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S50000x256 .f32 := Host.absf main_arg2
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S65536 .f32 := Host.absf main_arg4
  let main_cst_4 : FVec F S_ .f32 := constant S_ .f32 0x7F800000#32
  let main_v15 : FVec F S65536 .f32 := broadcastInDim S65536 ![] bcast_S_S65536 main_cst_4
  let main_v16 : IVec S65536 1 := cmpf .olt main_v14 main_v15
  fn_part1 (F := F) main_arg6 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S2048x256 : Shape := ⟨2, ![2048, 256]⟩
abbrev S1024x256 : Shape := ⟨2, ![1024, 256]⟩
abbrev S50000x256 : Shape := ⟨2, ![50000, 256]⟩
abbrev S65536x2 : Shape := ⟨2, ![65536, 2]⟩
abbrev S65536 : Shape := ⟨1, ![65536]⟩
abbrev S32768x2 : Shape := ⟨2, ![32768, 2]⟩
abbrev S32768 : Shape := ⟨1, ![32768]⟩
abbrev S1600000x2 : Shape := ⟨2, ![1600000, 2]⟩
abbrev S1600000 : Shape := ⟨1, ![1600000]⟩
abbrev S500000x2 : Shape := ⟨2, ![500000, 2]⟩
abbrev S250000x2 : Shape := ⟨2, ![250000, 2]⟩
abbrev S256x128 : Shape := ⟨2, ![256, 128]⟩
abbrev S128 : Shape := ⟨1, ![128]⟩
abbrev S128x1 : Shape := ⟨2, ![128, 1]⟩
abbrev S1 : Shape := ⟨1, ![1]⟩
abbrev S2048x128 : Shape := ⟨2, ![2048, 128]⟩
abbrev S1024x128 : Shape := ⟨2, ![1024, 128]⟩
abbrev S50000x128 : Shape := ⟨2, ![50000, 128]⟩
abbrev S5000x256 : Shape := ⟨2, ![5000, 256]⟩
abbrev S5000x128 : Shape := ⟨2, ![5000, 128]⟩
abbrev S65536x1 : Shape := ⟨2, ![65536, 1]⟩
abbrev S2048 : Shape := ⟨1, ![2048]⟩
abbrev S67584 : Shape := ⟨1, ![67584]⟩
abbrev S_ : Shape := ⟨0, ![]⟩
abbrev S67584x1 : Shape := ⟨2, ![67584, 1]⟩
abbrev S67584x128 : Shape := ⟨2, ![67584, 128]⟩
abbrev S1x128 : Shape := ⟨2, ![1, 128]⟩
abbrev S32768x1 : Shape := ⟨2, ![32768, 1]⟩
abbrev S1024 : Shape := ⟨1, ![1024]⟩
abbrev S33792 : Shape := ⟨1, ![33792]⟩
abbrev S33792x1 : Shape := ⟨2, ![33792, 1]⟩
abbrev S33792x128 : Shape := ⟨2, ![33792, 128]⟩
abbrev S1600000x1 : Shape := ⟨2, ![1600000, 1]⟩
abbrev S50000 : Shape := ⟨1, ![50000]⟩
abbrev S1650000 : Shape := ⟨1, ![1650000]⟩
abbrev S1650000x1 : Shape := ⟨2, ![1650000, 1]⟩
abbrev S1650000x128 : Shape := ⟨2, ![1650000, 128]⟩
abbrev S250000x1 : Shape := ⟨2, ![250000, 1]⟩
abbrev S250000 : Shape := ⟨1, ![250000]⟩
abbrev S250000x128 : Shape := ⟨2, ![250000, 128]⟩
abbrev S500000x1 : Shape := ⟨2, ![500000, 1]⟩
abbrev S500000 : Shape := ⟨1, ![500000]⟩
abbrev S500000x128 : Shape := ⟨2, ![500000, 128]⟩

abbrev nBuf : Space → Nat
  | .hbm => 318
  | .vmem => 11
  | .smem => 0
  | _ => 0

abbrev hbmTy0_0 (i : Nat) : BufTy := match i % 128 with
  | 0 => ⟨S2048x256, .f32⟩
  | 1 => ⟨S1024x256, .f32⟩
  | 2 => ⟨S50000x256, .f32⟩
  | 3 => ⟨S65536x2, .i32⟩
  | 4 => ⟨S65536, .f32⟩
  | 5 => ⟨S32768x2, .i32⟩
  | 6 => ⟨S32768, .f32⟩
  | 7 => ⟨S1600000x2, .i32⟩
  | 8 => ⟨S1600000, .f32⟩
  | 9 => ⟨S500000x2, .i32⟩
  | 10 => ⟨S500000x2, .i32⟩
  | 11 => ⟨S250000x2, .i32⟩
  | 12 => ⟨S256x128, .f32⟩
  | 13 => ⟨S128, .f32⟩
  | 14 => ⟨S256x128, .f32⟩
  | 15 => ⟨S128, .f32⟩
  | 16 => ⟨S256x128, .f32⟩
  | 17 => ⟨S128, .f32⟩
  | 18 => ⟨S128x1, .f32⟩
  | 19 => ⟨S1, .f32⟩
  | 20 => ⟨S128x1, .f32⟩
  | 21 => ⟨S1, .f32⟩
  | 22 => ⟨S128x1, .f32⟩
  | 23 => ⟨S1, .f32⟩
  | 24 => ⟨S2048x128, .f32⟩
  | 25 => ⟨S1024x128, .f32⟩
  | 26 => ⟨S50000x128, .f32⟩
  | 27 => ⟨S65536x1, .i32⟩
  | 28 => ⟨S65536, .i32⟩
  | 29 => ⟨S2048, .i32⟩
  | 30 => ⟨S67584, .i32⟩
  | 31 => ⟨S65536x1, .i32⟩
  | 32 => ⟨S65536, .i32⟩
  | 33 => ⟨S2048, .i32⟩
  | 34 => ⟨S67584, .i32⟩
  | 35 => ⟨S_, .f32⟩
  | 36 => ⟨S2048, .f32⟩
  | 37 => ⟨S67584, .f32⟩
  | 38 => ⟨S_, .f32⟩
  | 39 => ⟨S2048, .f32⟩
  | 40 => ⟨S67584x1, .i32⟩
  | 41 => ⟨S2048, .f32⟩
  | 42 => ⟨S_, .f32⟩
  | 43 => ⟨S2048, .f32⟩
  | 44 => ⟨S2048, .i1⟩
  | 45 => ⟨S_, .f32⟩
  | 46 => ⟨S2048, .f32⟩
  | 47 => ⟨S2048, .f32⟩
  | 48 => ⟨S2048, .f32⟩
  | 49 => ⟨S_, .f32⟩
  | 50 => ⟨S_, .f32⟩
  | 51 => ⟨S2048, .f32⟩
  | 52 => ⟨S2048, .f32⟩
  | 53 => ⟨S_, .i32⟩
  | 54 => ⟨S67584, .i32⟩
  | 55 => ⟨S67584, .i1⟩
  | 56 => ⟨S_, .i32⟩
  | 57 => ⟨S67584, .i32⟩
  | 58 => ⟨S67584, .i32⟩
  | 59 => ⟨S67584, .i32⟩
  | 60 => ⟨S67584x1, .i32⟩
  | 61 => ⟨S67584, .f32⟩
  | 62 => ⟨S67584, .f32⟩
  | 63 => ⟨S_, .i32⟩
  | 64 => ⟨S67584, .i32⟩
  | 65 => ⟨S67584, .i1⟩
  | 66 => ⟨S_, .i32⟩
  | 67 => ⟨S67584, .i32⟩
  | 68 => ⟨S67584, .i32⟩
  | 69 => ⟨S67584, .i32⟩
  | 70 => ⟨S67584x1, .i32⟩
  | 71 => ⟨S67584, .f32⟩
  | 72 => ⟨S67584, .f32⟩
  | 73 => ⟨S_, .i32⟩
  | 74 => ⟨S67584, .i32⟩
  | 75 => ⟨S67584, .i1⟩
  | 76 => ⟨S_, .i32⟩
  | 77 => ⟨S67584, .i32⟩
  | 78 => ⟨S67584, .i32⟩
  | 79 => ⟨S67584, .i32⟩
  | 80 => ⟨S67584x1, .i32⟩
  | 81 => ⟨S67584x128, .f32⟩
  | 82 => ⟨S67584x1, .f32⟩
  | 83 => ⟨S67584x128, .f32⟩
  | 84 => ⟨S67584x128, .f32⟩
  | 85 => ⟨S_, .f32⟩
  | 86 => ⟨S2048x128, .f32⟩
  | 87 => ⟨S67584x1, .i32⟩
  | 88 => ⟨S2048x128, .f32⟩
  | 89 => ⟨S1x128, .f32⟩
  | 90 => ⟨S2048x128, .f32⟩
  | 91 => ⟨S2048x128, .f32⟩
  | 92 => ⟨S_, .f32⟩
  | 93 => ⟨S2048x128, .f32⟩
  | 94 => ⟨S2048x128, .f32⟩
  | 95 => ⟨S32768x1, .i32⟩
  | 96 => ⟨S32768, .i32⟩
  | 97 => ⟨S1024, .i32⟩
  | 98 => ⟨S33792, .i32⟩
  | 99 => ⟨S32768x1, .i32⟩
  | 100 => ⟨S32768, .i32⟩
  | 101 => ⟨S1024, .i32⟩
  | 102 => ⟨S33792, .i32⟩
  | 103 => ⟨S_, .f32⟩
  | 104 => ⟨S1024, .f32⟩
  | 105 => ⟨S33792, .f32⟩
  | 106 => ⟨S_, .f32⟩
  | 107 => ⟨S1024, .f32⟩
  | 108 => ⟨S33792x1, .i32⟩
  | 109 => ⟨S1024, .f32⟩
  | 110 => ⟨S_, .f32⟩
  | 111 => ⟨S1024, .f32⟩
  | 112 => ⟨S1024, .i1⟩
  | 113 => ⟨S_, .f32⟩
  | 114 => ⟨S1024, .f32⟩
  | 115 => ⟨S1024, .f32⟩
  | 116 => ⟨S1024, .f32⟩
  | 117 => ⟨S_, .f32⟩
  | 118 => ⟨S_, .f32⟩
  | 119 => ⟨S1024, .f32⟩
  | 120 => ⟨S1024, .f32⟩
  | 121 => ⟨S_, .i32⟩
  | 122 => ⟨S33792, .i32⟩
  | 123 => ⟨S33792, .i1⟩
  | 124 => ⟨S_, .i32⟩
  | 125 => ⟨S33792, .i32⟩
  | 126 => ⟨S33792, .i32⟩
  | 127 => ⟨S33792, .i32⟩
  | _ => ⟨S2048x256, .f32⟩

abbrev hbmTy0_1 (i : Nat) : BufTy := match i % 128 with
  | 0 => ⟨S33792x1, .i32⟩
  | 1 => ⟨S33792, .f32⟩
  | 2 => ⟨S33792, .f32⟩
  | 3 => ⟨S_, .i32⟩
  | 4 => ⟨S33792, .i32⟩
  | 5 => ⟨S33792, .i1⟩
  | 6 => ⟨S_, .i32⟩
  | 7 => ⟨S33792, .i32⟩
  | 8 => ⟨S33792, .i32⟩
  | 9 => ⟨S33792, .i32⟩
  | 10 => ⟨S33792x1, .i32⟩
  | 11 => ⟨S33792, .f32⟩
  | 12 => ⟨S33792, .f32⟩
  | 13 => ⟨S_, .i32⟩
  | 14 => ⟨S33792, .i32⟩
  | 15 => ⟨S33792, .i1⟩
  | 16 => ⟨S_, .i32⟩
  | 17 => ⟨S33792, .i32⟩
  | 18 => ⟨S33792, .i32⟩
  | 19 => ⟨S33792, .i32⟩
  | 20 => ⟨S33792x1, .i32⟩
  | 21 => ⟨S33792x128, .f32⟩
  | 22 => ⟨S33792x1, .f32⟩
  | 23 => ⟨S33792x128, .f32⟩
  | 24 => ⟨S33792x128, .f32⟩
  | 25 => ⟨S_, .f32⟩
  | 26 => ⟨S1024x128, .f32⟩
  | 27 => ⟨S33792x1, .i32⟩
  | 28 => ⟨S1024x128, .f32⟩
  | 29 => ⟨S1x128, .f32⟩
  | 30 => ⟨S1024x128, .f32⟩
  | 31 => ⟨S1024x128, .f32⟩
  | 32 => ⟨S_, .f32⟩
  | 33 => ⟨S1024x128, .f32⟩
  | 34 => ⟨S1024x128, .f32⟩
  | 35 => ⟨S1600000x1, .i32⟩
  | 36 => ⟨S1600000, .i32⟩
  | 37 => ⟨S50000, .i32⟩
  | 38 => ⟨S1650000, .i32⟩
  | 39 => ⟨S1600000x1, .i32⟩
  | 40 => ⟨S1600000, .i32⟩
  | 41 => ⟨S50000, .i32⟩
  | 42 => ⟨S1650000, .i32⟩
  | 43 => ⟨S_, .f32⟩
  | 44 => ⟨S50000, .f32⟩
  | 45 => ⟨S1650000, .f32⟩
  | 46 => ⟨S_, .f32⟩
  | 47 => ⟨S50000, .f32⟩
  | 48 => ⟨S1650000x1, .i32⟩
  | 49 => ⟨S50000, .f32⟩
  | 50 => ⟨S_, .f32⟩
  | 51 => ⟨S50000, .f32⟩
  | 52 => ⟨S50000, .i1⟩
  | 53 => ⟨S_, .f32⟩
  | 54 => ⟨S50000, .f32⟩
  | 55 => ⟨S50000, .f32⟩
  | 56 => ⟨S50000, .f32⟩
  | 57 => ⟨S_, .f32⟩
  | 58 => ⟨S_, .f32⟩
  | 59 => ⟨S50000, .f32⟩
  | 60 => ⟨S50000, .f32⟩
  | 61 => ⟨S_, .i32⟩
  | 62 => ⟨S1650000, .i32⟩
  | 63 => ⟨S1650000, .i1⟩
  | 64 => ⟨S_, .i32⟩
  | 65 => ⟨S1650000, .i32⟩
  | 66 => ⟨S1650000, .i32⟩
  | 67 => ⟨S1650000, .i32⟩
  | 68 => ⟨S1650000x1, .i32⟩
  | 69 => ⟨S1650000, .f32⟩
  | 70 => ⟨S1650000, .f32⟩
  | 71 => ⟨S_, .i32⟩
  | 72 => ⟨S1650000, .i32⟩
  | 73 => ⟨S1650000, .i1⟩
  | 74 => ⟨S_, .i32⟩
  | 75 => ⟨S1650000, .i32⟩
  | 76 => ⟨S1650000, .i32⟩
  | 77 => ⟨S1650000, .i32⟩
  | 78 => ⟨S1650000x1, .i32⟩
  | 79 => ⟨S1650000, .f32⟩
  | 80 => ⟨S1650000, .f32⟩
  | 81 => ⟨S_, .i32⟩
  | 82 => ⟨S1650000, .i32⟩
  | 83 => ⟨S1650000, .i1⟩
  | 84 => ⟨S_, .i32⟩
  | 85 => ⟨S1650000, .i32⟩
  | 86 => ⟨S1650000, .i32⟩
  | 87 => ⟨S1650000, .i32⟩
  | 88 => ⟨S1650000x1, .i32⟩
  | 89 => ⟨S1650000x128, .f32⟩
  | 90 => ⟨S1650000x1, .f32⟩
  | 91 => ⟨S1650000x128, .f32⟩
  | 92 => ⟨S1650000x128, .f32⟩
  | 93 => ⟨S_, .f32⟩
  | 94 => ⟨S50000x128, .f32⟩
  | 95 => ⟨S1650000x1, .i32⟩
  | 96 => ⟨S50000x128, .f32⟩
  | 97 => ⟨S1x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S2048x128, .bf16⟩
  | 104 => ⟨S1024x128, .bf16⟩
  | 105 => ⟨S50000x128, .bf16⟩
  | 106 => ⟨S250000x1, .i32⟩
  | 107 => ⟨S250000, .i32⟩
  | 108 => ⟨S250000x1, .i32⟩
  | 109 => ⟨S250000, .i32⟩
  | 110 => ⟨S250000x1, .i32⟩
  | 111 => ⟨S250000x128, .bf16⟩
  | 112 => ⟨S250000x128, .f32⟩
  | 113 => ⟨S250000x1, .i32⟩
  | 114 => ⟨S250000x128, .bf16⟩
  | 115 => ⟨S250000x128, .f32⟩
  | 116 => ⟨S250000x128, .f32⟩
  | 117 => ⟨S128, .f32⟩
  | 118 => ⟨S1x128, .f32⟩
  | 119 => ⟨S250000x128, .f32⟩
  | 120 => ⟨S250000x128, .f32⟩
  | 121 => ⟨S_, .f32⟩
  | 122 => ⟨S250000, .f32⟩
  | 123 => ⟨S_, .f32⟩
  | 124 => ⟨S250000, .f32⟩
  | 125 => ⟨S250000, .f32⟩
  | 126 => ⟨S250000, .f32⟩
  | 127 => ⟨S250000, .f32⟩
  | _ => ⟨S2048x256, .f32⟩

abbrev hbmTy0_2 (i : Nat) : BufTy := match i % 128 with
  | 0 => ⟨S_, .f32⟩
  | 1 => ⟨S250000, .f32⟩
  | 2 => ⟨S250000, .f32⟩
  | 3 => ⟨S_, .f32⟩
  | 4 => ⟨S250000, .f32⟩
  | 5 => ⟨S250000, .f32⟩
  | 6 => ⟨S500000x1, .i32⟩
  | 7 => ⟨S500000, .i32⟩
  | 8 => ⟨S500000x1, .i32⟩
  | 9 => ⟨S500000, .i32⟩
  | 10 => ⟨S500000x1, .i32⟩
  | 11 => ⟨S500000x128, .bf16⟩
  | 12 => ⟨S500000x128, .f32⟩
  | 13 => ⟨S500000x1, .i32⟩
  | 14 => ⟨S500000x128, .bf16⟩
  | 15 => ⟨S500000x128, .f32⟩
  | 16 => ⟨S500000x128, .f32⟩
  | 17 => ⟨S128, .f32⟩
  | 18 => ⟨S1x128, .f32⟩
  | 19 => ⟨S500000x128, .f32⟩
  | 20 => ⟨S500000x128, .f32⟩
  | 21 => ⟨S_, .f32⟩
  | 22 => ⟨S500000, .f32⟩
  | 23 => ⟨S_, .f32⟩
  | 24 => ⟨S500000, .f32⟩
  | 25 => ⟨S500000, .f32⟩
  | 26 => ⟨S500000, .f32⟩
  | 27 => ⟨S500000, .f32⟩
  | 28 => ⟨S_, .f32⟩
  | 29 => ⟨S500000, .f32⟩
  | 30 => ⟨S500000, .f32⟩
  | 31 => ⟨S_, .f32⟩
  | 32 => ⟨S500000, .f32⟩
  | 33 => ⟨S500000, .f32⟩
  | 34 => ⟨S500000x1, .i32⟩
  | 35 => ⟨S500000, .i32⟩
  | 36 => ⟨S500000x1, .i32⟩
  | 37 => ⟨S500000, .i32⟩
  | 38 => ⟨S500000x1, .i32⟩
  | 39 => ⟨S500000x128, .bf16⟩
  | 40 => ⟨S500000x128, .f32⟩
  | 41 => ⟨S500000x1, .i32⟩
  | 42 => ⟨S500000x128, .bf16⟩
  | 43 => ⟨S500000x128, .f32⟩
  | 44 => ⟨S500000x128, .f32⟩
  | 45 => ⟨S128, .f32⟩
  | 46 => ⟨S1x128, .f32⟩
  | 47 => ⟨S500000x128, .f32⟩
  | 48 => ⟨S500000x128, .f32⟩
  | 49 => ⟨S_, .f32⟩
  | 50 => ⟨S500000, .f32⟩
  | 51 => ⟨S_, .f32⟩
  | 52 => ⟨S500000, .f32⟩
  | 53 => ⟨S500000, .f32⟩
  | 54 => ⟨S500000, .f32⟩
  | 55 => ⟨S500000, .f32⟩
  | 56 => ⟨S_, .f32⟩
  | 57 => ⟨S500000, .f32⟩
  | 58 => ⟨S500000, .f32⟩
  | 59 => ⟨S_, .f32⟩
  | 60 => ⟨S500000, .f32⟩
  | 61 => ⟨S500000, .f32⟩
  | _ => ⟨S2048x256, .f32⟩

abbrev hbmTy (i : Nat) : BufTy := match i / 128 with
  | 0 => hbmTy0_0 i
  | 1 => hbmTy0_1 i
  | 2 => hbmTy0_2 i
  | _ => ⟨S2048x256, .f32⟩

abbrev bufTy : (tb : Table) → Fin (tcTables nBuf tb) → BufTy
  | .hbm, ⟨i, _⟩ => hbmTy i
  | .local _ .vmem, ⟨0, _⟩ => ⟨S2048x256, .f32⟩
  | .local _ .vmem, ⟨1, _⟩ => ⟨S256x128, .f32⟩
  | .local _ .vmem, ⟨2, _⟩ => ⟨S2048x128, .f32⟩
  | .local _ .vmem, ⟨3, _⟩ => ⟨S1024x256, .f32⟩
  | .local _ .vmem, ⟨4, _⟩ => ⟨S256x128, .f32⟩
  | .local _ .vmem, ⟨5, _⟩ => ⟨S1024x128, .f32⟩
  | .local _ .vmem, ⟨6, _⟩ => ⟨S5000x256, .f32⟩
  | .local _ .vmem, ⟨7, _⟩ => ⟨S5000x256, .f32⟩
  | .local _ .vmem, ⟨8, _⟩ => ⟨S256x128, .f32⟩
  | .local _ .vmem, ⟨9, _⟩ => ⟨S5000x128, .f32⟩
  | .local _ .vmem, ⟨10, _⟩ => ⟨S5000x128, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_cst_0 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_1 : Ref sig .tc := ⟨.hbm, 42, rfl⟩
abbrev main_v16 : Ref sig .tc := ⟨.hbm, 43, rfl⟩
abbrev main_v17 : Ref sig .tc := ⟨.hbm, 44, rfl⟩
abbrev main_cst_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_3 : Ref sig .tc := ⟨.hbm, 49, rfl⟩
abbrev main_call0_v0 : Ref sig .tc := ⟨.hbm, 50, rfl⟩
abbrev main_call0_v1 : Ref sig .tc := ⟨.hbm, 51, rfl⟩
abbrev main_v21 : Ref sig .tc := ⟨.hbm, 52, rfl⟩
abbrev main_c : Ref sig .tc := ⟨.hbm, 53, rfl⟩
abbrev main_v22 : Ref sig .tc := ⟨.hbm, 54, rfl⟩
abbrev main_v23 : Ref sig .tc := ⟨.hbm, 55, rfl⟩
abbrev main_c_4 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_c_5 : Ref sig .tc := ⟨.hbm, 63, rfl⟩
abbrev main_v30 : Ref sig .tc := ⟨.hbm, 64, rfl⟩
abbrev main_v31 : Ref sig .tc := ⟨.hbm, 65, rfl⟩
abbrev main_c_6 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_c_7 : Ref sig .tc := ⟨.hbm, 73, rfl⟩
abbrev main_v38 : Ref sig .tc := ⟨.hbm, 74, rfl⟩
abbrev main_v39 : Ref sig .tc := ⟨.hbm, 75, rfl⟩
abbrev main_c_8 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_9 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_call1_cst : Ref sig .tc := ⟨.hbm, 92, rfl⟩
abbrev main_call1_v0 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_10 : Ref sig .tc := ⟨.hbm, 103, rfl⟩
abbrev main_v63 : Ref sig .tc := ⟨.hbm, 104, rfl⟩
abbrev main_v64 : Ref sig .tc := ⟨.hbm, 105, rfl⟩
abbrev main_cst_11 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_cst_12 : Ref sig .tc := ⟨.hbm, 110, rfl⟩
abbrev main_v68 : Ref sig .tc := ⟨.hbm, 111, rfl⟩
abbrev main_v69 : Ref sig .tc := ⟨.hbm, 112, rfl⟩
abbrev main_cst_13 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_14 : Ref sig .tc := ⟨.hbm, 117, rfl⟩
abbrev main_call2_v0 : Ref sig .tc := ⟨.hbm, 118, rfl⟩
abbrev main_call2_v1 : Ref sig .tc := ⟨.hbm, 119, rfl⟩
abbrev main_v73 : Ref sig .tc := ⟨.hbm, 120, rfl⟩
abbrev main_c_15 : Ref sig .tc := ⟨.hbm, 121, rfl⟩
abbrev main_v74 : Ref sig .tc := ⟨.hbm, 122, rfl⟩
abbrev main_v75 : Ref sig .tc := ⟨.hbm, 123, rfl⟩
abbrev main_c_16 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_c_17 : Ref sig .tc := ⟨.hbm, 131, rfl⟩
abbrev main_v82 : Ref sig .tc := ⟨.hbm, 132, rfl⟩
abbrev main_v83 : Ref sig .tc := ⟨.hbm, 133, rfl⟩
abbrev main_c_18 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_c_19 : Ref sig .tc := ⟨.hbm, 141, rfl⟩
abbrev main_v90 : Ref sig .tc := ⟨.hbm, 142, rfl⟩
abbrev main_v91 : Ref sig .tc := ⟨.hbm, 143, rfl⟩
abbrev main_c_20 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_cst_21 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_call3_cst : Ref sig .tc := ⟨.hbm, 160, rfl⟩
abbrev main_call3_v0 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_22 : Ref sig .tc := ⟨.hbm, 171, rfl⟩
abbrev main_v115 : Ref sig .tc := ⟨.hbm, 172, rfl⟩
abbrev main_v116 : Ref sig .tc := ⟨.hbm, 173, rfl⟩
abbrev main_cst_23 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_cst_24 : Ref sig .tc := ⟨.hbm, 178, rfl⟩
abbrev main_v120 : Ref sig .tc := ⟨.hbm, 179, rfl⟩
abbrev main_v121 : Ref sig .tc := ⟨.hbm, 180, rfl⟩
abbrev main_cst_25 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_cst_26 : Ref sig .tc := ⟨.hbm, 185, rfl⟩
abbrev main_call4_v0 : Ref sig .tc := ⟨.hbm, 186, rfl⟩
abbrev main_call4_v1 : Ref sig .tc := ⟨.hbm, 187, rfl⟩
abbrev main_v125 : Ref sig .tc := ⟨.hbm, 188, rfl⟩
abbrev main_c_27 : Ref sig .tc := ⟨.hbm, 189, rfl⟩
abbrev main_v126 : Ref sig .tc := ⟨.hbm, 190, rfl⟩
abbrev main_v127 : Ref sig .tc := ⟨.hbm, 191, rfl⟩
abbrev main_c_28 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_c_29 : Ref sig .tc := ⟨.hbm, 199, rfl⟩
abbrev main_v134 : Ref sig .tc := ⟨.hbm, 200, rfl⟩
abbrev main_v135 : Ref sig .tc := ⟨.hbm, 201, rfl⟩
abbrev main_c_30 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_c_31 : Ref sig .tc := ⟨.hbm, 209, rfl⟩
abbrev main_v142 : Ref sig .tc := ⟨.hbm, 210, rfl⟩
abbrev main_v143 : Ref sig .tc := ⟨.hbm, 211, rfl⟩
abbrev main_c_32 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_cst_33 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_call5_cst : Ref sig .tc := ⟨.hbm, 228, rfl⟩
abbrev main_call5_v0 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_call6_v0 : Ref sig .tc := ⟨.hbm, 238, rfl⟩
abbrev main_v166 : Ref sig .tc := ⟨.hbm, 239, rfl⟩
abbrev main_v167 : Ref sig .tc := ⟨.hbm, 240, rfl⟩
abbrev main_call7_v0 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_cst_34 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_cst_35 : Ref sig .tc := ⟨.hbm, 256, rfl⟩
abbrev main_v181 : Ref sig .tc := ⟨.hbm, 257, rfl⟩
abbrev main_v182 : Ref sig .tc := ⟨.hbm, 258, rfl⟩
abbrev main_cst_36 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_call8_v0 : Ref sig .tc := ⟨.hbm, 266, rfl⟩
abbrev main_v189 : Ref sig .tc := ⟨.hbm, 267, rfl⟩
abbrev main_v190 : Ref sig .tc := ⟨.hbm, 268, rfl⟩
abbrev main_call9_v0 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_cst_37 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_v202 : Ref sig .tc := ⟨.hbm, 282, rfl⟩
abbrev main_v203 : Ref sig .tc := ⟨.hbm, 283, rfl⟩
abbrev main_cst_38 : Ref sig .tc := ⟨.hbm, 284, rfl⟩
abbrev main_v204 : Ref sig .tc := ⟨.hbm, 285, rfl⟩
abbrev main_v205 : Ref sig .tc := ⟨.hbm, 286, rfl⟩
abbrev main_cst_39 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_call10_v0 : Ref sig .tc := ⟨.hbm, 294, rfl⟩
abbrev main_v212 : Ref sig .tc := ⟨.hbm, 295, rfl⟩
abbrev main_v213 : Ref sig .tc := ⟨.hbm, 296, rfl⟩
abbrev main_call11_v0 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_cst_40 : Ref sig .tc := ⟨.hbm, 305, rfl⟩
abbrev main_v221 : Ref sig .tc := ⟨.hbm, 306, rfl⟩
abbrev main_v222 : Ref sig .tc := ⟨.hbm, 307, rfl⟩
abbrev main_v223 : Ref sig .tc := ⟨.hbm, 308, rfl⟩
abbrev main_v224 : Ref sig .tc := ⟨.hbm, 309, rfl⟩
abbrev main_v225 : Ref sig .tc := ⟨.hbm, 310, rfl⟩
abbrev main_v226 : Ref sig .tc := ⟨.hbm, 311, rfl⟩
abbrev main_cst_41 : Ref sig .tc := ⟨.hbm, 312, rfl⟩
abbrev main_v227 : Ref sig .tc := ⟨.hbm, 313, rfl⟩
abbrev main_v228 : Ref sig .tc := ⟨.hbm, 314, rfl⟩
abbrev main_cst_42 : Ref sig .tc := ⟨.hbm, 315, rfl⟩
abbrev main_v229 : Ref sig .tc := ⟨.hbm, 316, rfl⟩
abbrev main_v230 : Ref sig .tc := ⟨.hbm, 317, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg2_1 : Ref sig .tc := ⟨.vmem, 10, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem0_1 : DmaSem sig := 7
abbrev cc2_sem1_0 : DmaSem sig := 8
abbrev cc2_sem2_0 : DmaSem sig := 9
abbrev cc2_sem2_1 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1024x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2048x128_S2048x128_0_0 : ∀ a, (![0, 0] : Fin 2 → Nat) a + S2048x128.size a ≤ S2048x128.size a
  h_S2048x128 : 0 < S2048x128.numel
  inb_S1024x256_S1024x256_0_0 : ∀ a, (![0, 0] : Fin 2 → Nat) a + S1024x256.size a ≤ S1024x256.size a
  h_S1024x256 : 0 < S1024x256.numel
  inb_S1024x128_S1024x128_0_0 : ∀ a, (![0, 0] : Fin 2 → Nat) a + S1024x128.size a ≤ S1024x128.size a
  h_S1024x128 : 0 < S1024x128.numel
  inb_S5000x256_S5000x256_0_0 : ∀ a, (![0, 0] : Fin 2 → Nat) a + S5000x256.size a ≤ S5000x256.size a
  h_S5000x256 : 0 < S5000x256.numel
  inb_S5000x128_S5000x128_0_0 : ∀ a, (![0, 0] : Fin 2 → Nat) a + S5000x128.size a ≤ S5000x128.size a
  h_S5000x128 : 0 < S5000x128.numel
  slices_S65536x2_S65536x1_0_0 : S65536x2.Slices ![0, 0] S65536x1
  shapeCasts_S65536x1_S65536 : S65536x1.ShapeCasts S65536
  concatenates_S65536_S2048_S67584_d0 : Shape.Concatenates [S65536, S2048] S67584 0
  slices_S65536x2_S65536x1_0_1 : S65536x2.Slices ![0, 1] S65536x1
  bcast_S_S2048 : S_.BroadcastsInDim S2048 (![] : Fin 0 → Fin S2048.rank)
  bcast_S67584_S67584x1_0 : S67584.BroadcastsInDim S67584x1 (![0] : Fin 1 → Fin S67584x1.rank)
  bcast_S_S67584 : S_.BroadcastsInDim S67584 (![] : Fin 0 → Fin S67584.rank)
  bcast_S67584x1_S67584x128_0_1 : S67584x1.BroadcastsInDim S67584x128 (![0, 1] : Fin 2 → Fin S67584x128.rank)
  bcast_S_S2048x128 : S_.BroadcastsInDim S2048x128 (![] : Fin 0 → Fin S2048x128.rank)
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  slices_S32768x2_S32768x1_0_0 : S32768x2.Slices ![0, 0] S32768x1
  shapeCasts_S32768x1_S32768 : S32768x1.ShapeCasts S32768
  concatenates_S32768_S1024_S33792_d0 : Shape.Concatenates [S32768, S1024] S33792 0
  slices_S32768x2_S32768x1_0_1 : S32768x2.Slices ![0, 1] S32768x1
  bcast_S_S1024 : S_.BroadcastsInDim S1024 (![] : Fin 0 → Fin S1024.rank)
  bcast_S33792_S33792x1_0 : S33792.BroadcastsInDim S33792x1 (![0] : Fin 1 → Fin S33792x1.rank)
  bcast_S_S33792 : S_.BroadcastsInDim S33792 (![] : Fin 0 → Fin S33792.rank)
  bcast_S33792x1_S33792x128_0_1 : S33792x1.BroadcastsInDim S33792x128 (![0, 1] : Fin 2 → Fin S33792x128.rank)
  bcast_S_S1024x128 : S_.BroadcastsInDim S1024x128 (![] : Fin 0 → Fin S1024x128.rank)
  bcast_S1x128_S1024x128_0_1 : S1x128.BroadcastsInDim S1024x128 (![0, 1] : Fin 2 → Fin S1024x128.rank)
  slices_S1600000x2_S1600000x1_0_0 : S1600000x2.Slices ![0, 0] S1600000x1
  shapeCasts_S1600000x1_S1600000 : S1600000x1.ShapeCasts S1600000
  concatenates_S1600000_S50000_S1650000_d0 : Shape.Concatenates [S1600000, S50000] S1650000 0
  slices_S1600000x2_S1600000x1_0_1 : S1600000x2.Slices ![0, 1] S1600000x1
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  slices_S250000x2_S250000x1_0_0 : S250000x2.Slices ![0, 0] S250000x1
  shapeCasts_S250000x1_S250000 : S250000x1.ShapeCasts S250000
  slices_S250000x2_S250000x1_0_1 : S250000x2.Slices ![0, 1] S250000x1
  bcast_S250000_S250000x1_0 : S250000.BroadcastsInDim S250000x1 (![0] : Fin 1 → Fin S250000x1.rank)
  shapeCasts_S128x1_S128 : S128x1.ShapeCasts S128
  bcast_S1x128_S250000x128_0_1 : S1x128.BroadcastsInDim S250000x128 (![0, 1] : Fin 2 → Fin S250000x128.rank)
  reducesTo_S250000x128_S250000_d1 : S250000x128.ReducesTo [1] S250000
  h_S_ : 0 < S_.numel
  shapeCasts_S1_S_ : S1.ShapeCasts S_
  bcast_S_S250000 : S_.BroadcastsInDim S250000 (![] : Fin 0 → Fin S250000.rank)
  slices_S500000x2_S500000x1_0_0 : S500000x2.Slices ![0, 0] S500000x1
  shapeCasts_S500000x1_S500000 : S500000x1.ShapeCasts S500000
  slices_S500000x2_S500000x1_0_1 : S500000x2.Slices ![0, 1] S500000x1
  bcast_S500000_S500000x1_0 : S500000.BroadcastsInDim S500000x1 (![0] : Fin 1 → Fin S500000x1.rank)
  bcast_S1x128_S500000x128_0_1 : S1x128.BroadcastsInDim S500000x128 (![0, 1] : Fin 2 → Fin S500000x128.rank)
  reducesTo_S500000x128_S500000_d1 : S500000x128.ReducesTo [1] S500000
  bcast_S_S500000 : S_.BroadcastsInDim S500000 (![] : Fin 0 → Fin S500000.rank)
  dot_S2048x256_S256x128_S2048x128_1_0_0_1_n_n_wf : DotDims.WF S2048x256 S256x128 S2048x128 [1] [0] [0] [1] [] []
  dot_S1024x256_S256x128_S1024x128_1_0_0_1_n_n_wf : DotDims.WF S1024x256 S256x128 S1024x128 [1] [0] [0] [1] [] []
  dot_S5000x256_S256x128_S5000x128_1_0_0_1_n_n_wf : DotDims.WF S5000x256 S256x128 S5000x128 [1] [0] [0] [1] [] []
  scatter_S2048_S67584x1_S67584_n_0_0_1_wf : ScatterDims.WF S2048 S67584x1 S67584 [] [0] [0] 1
  gather_S2048_S67584x1_S67584_n_0_n_n_0_1_1_wf : GatherDims.WF S2048 S67584x1 S67584 [] [0] [] [0] [] 1 ![1]
  gather_S2048x128_S67584x1_S67584x128_1_0_n_n_0_1_1128_wf : GatherDims.WF S2048x128 S67584x1 S67584x128 [1] [0] [] [0] [] 1 ![1, 128]
  scatter_S2048x128_S67584x1_S67584x128_1_0_0_1_wf : ScatterDims.WF S2048x128 S67584x1 S67584x128 [1] [0] [0] 1
  scatter_S1024_S33792x1_S33792_n_0_0_1_wf : ScatterDims.WF S1024 S33792x1 S33792 [] [0] [0] 1
  gather_S1024_S33792x1_S33792_n_0_n_n_0_1_1_wf : GatherDims.WF S1024 S33792x1 S33792 [] [0] [] [0] [] 1 ![1]
  gather_S1024x128_S33792x1_S33792x128_1_0_n_n_0_1_1128_wf : GatherDims.WF S1024x128 S33792x1 S33792x128 [1] [0] [] [0] [] 1 ![1, 128]
  scatter_S1024x128_S33792x1_S33792x128_1_0_0_1_wf : ScatterDims.WF S1024x128 S33792x1 S33792x128 [1] [0] [0] 1
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  gather_S2048x128_S250000x1_S250000x128_1_0_n_n_0_1_1128_wf : GatherDims.WF S2048x128 S250000x1 S250000x128 [1] [0] [] [0] [] 1 ![1, 128]
  gather_S1024x128_S250000x1_S250000x128_1_0_n_n_0_1_1128_wf : GatherDims.WF S1024x128 S250000x1 S250000x128 [1] [0] [] [0] [] 1 ![1, 128]
  gather_S2048x128_S500000x1_S500000x128_1_0_n_n_0_1_1128_wf : GatherDims.WF S2048x128 S500000x1 S500000x128 [1] [0] [] [0] [] 1 ![1, 128]
  gather_S50000x128_S500000x1_S500000x128_1_0_n_n_0_1_1128_wf : GatherDims.WF S50000x128 S500000x1 S500000x128 [1] [0] [] [0] [] 1 ![1, 128]
  gather_S1024x128_S500000x1_S500000x128_1_0_n_n_0_1_1128_wf : GatherDims.WF S1024x128 S500000x1 S500000x128 [1] [0] [] [0] [] 1 ![1, 128]
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S2048x256.size a
  hwx0_0 : ∀ i : grid0.Coords, EltTy.bits .f32 = 32 ∨ (Rect.block (s := S2048x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S2048x128.size a
  hwx0_2 : ∀ i : grid0.Coords, EltTy.bits .f32 = 32 ∨ (Rect.block (s := S2048x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S1024x256.size a
  hwx1_0 : ∀ i : grid1.Coords, EltTy.bits .f32 = 32 ∨ (Rect.block (s := S1024x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S1024x128.size a
  hwx1_2 : ∀ i : grid1.Coords, EltTy.bits .f32 = 32 ∨ (Rect.block (s := S1024x128) S1024x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S2048_S67584x1_S67584_n_0_0_1 : ScatterDims S2048 S67584x1 S67584 where
  updateWindowDims := []
  insertedWindowDims := [0]
  scatterDimsToOperandDims := [0]
  indexVectorDim := 1
  wf := scatter_S2048_S67584x1_S67584_n_0_0_1_wf
def gather_S2048_S67584x1_S67584_n_0_n_n_0_1_1 : GatherDims S2048 S67584x1 S67584 where
  offsetDims := []
  collapsedSliceDims := [0]
  operandBatchingDims := []
  startIndicesBatchingDims := []
  startIndexMap := [0]
  indexVectorDim := 1
  sliceSizes := ![1]
  wf := gather_S2048_S67584x1_S67584_n_0_n_n_0_1_1_wf
def gather_S2048x128_S67584x1_S67584x128_1_0_n_n_0_1_1128 : GatherDims S2048x128 S67584x1 S67584x128 where
  offsetDims := [1]
  collapsedSliceDims := [0]
  operandBatchingDims := []
  startIndicesBatchingDims := []
  startIndexMap := [0]
  indexVectorDim := 1
  sliceSizes := ![1, 128]
  wf := gather_S2048x128_S67584x1_S67584x128_1_0_n_n_0_1_1128_wf
def scatter_S2048x128_S67584x1_S67584x128_1_0_0_1 : ScatterDims S2048x128 S67584x1 S67584x128 where
  updateWindowDims := [1]
  insertedWindowDims := [0]
  scatterDimsToOperandDims := [0]
  indexVectorDim := 1
  wf := scatter_S2048x128_S67584x1_S67584x128_1_0_0_1_wf
def scatter_S1024_S33792x1_S33792_n_0_0_1 : ScatterDims S1024 S33792x1 S33792 where
  updateWindowDims := []
  insertedWindowDims := [0]
  scatterDimsToOperandDims := [0]
  indexVectorDim := 1
  wf := scatter_S1024_S33792x1_S33792_n_0_0_1_wf
def gather_S1024_S33792x1_S33792_n_0_n_n_0_1_1 : GatherDims S1024 S33792x1 S33792 where
  offsetDims := []
  collapsedSliceDims := [0]
  operandBatchingDims := []
  startIndicesBatchingDims := []
  startIndexMap := [0]
  indexVectorDim := 1
  sliceSizes := ![1]
  wf := gather_S1024_S33792x1_S33792_n_0_n_n_0_1_1_wf
def gather_S1024x128_S33792x1_S33792x128_1_0_n_n_0_1_1128 : GatherDims S1024x128 S33792x1 S33792x128 where
  offsetDims := [1]
  collapsedSliceDims := [0]
  operandBatchingDims := []
  startIndicesBatchingDims := []
  startIndexMap := [0]
  indexVectorDim := 1
  sliceSizes := ![1, 128]
  wf := gather_S1024x128_S33792x1_S33792x128_1_0_n_n_0_1_1128_wf
def scatter_S1024x128_S33792x1_S33792x128_1_0_0_1 : ScatterDims S1024x128 S33792x1 S33792x128 where
  updateWindowDims := [1]
  insertedWindowDims := [0]
  scatterDimsToOperandDims := [0]
  indexVectorDim := 1
  wf := scatter_S1024x128_S33792x1_S33792x128_1_0_0_1_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def gather_S2048x128_S250000x1_S250000x128_1_0_n_n_0_1_1128 : GatherDims S2048x128 S250000x1 S250000x128 where
  offsetDims := [1]
  collapsedSliceDims := [0]
  operandBatchingDims := []
  startIndicesBatchingDims := []
  startIndexMap := [0]
  indexVectorDim := 1
  sliceSizes := ![1, 128]
  wf := gather_S2048x128_S250000x1_S250000x128_1_0_n_n_0_1_1128_wf
def gather_S1024x128_S250000x1_S250000x128_1_0_n_n_0_1_1128 : GatherDims S1024x128 S250000x1 S250000x128 where
  offsetDims := [1]
  collapsedSliceDims := [0]
  operandBatchingDims := []
  startIndicesBatchingDims := []
  startIndexMap := [0]
  indexVectorDim := 1
  sliceSizes := ![1, 128]
  wf := gather_S1024x128_S250000x1_S250000x128_1_0_n_n_0_1_1128_wf
def gather_S2048x128_S500000x1_S500000x128_1_0_n_n_0_1_1128 : GatherDims S2048x128 S500000x1 S500000x128 where
  offsetDims := [1]
  collapsedSliceDims := [0]
  operandBatchingDims := []
  startIndicesBatchingDims := []
  startIndexMap := [0]
  indexVectorDim := 1
  sliceSizes := ![1, 128]
  wf := gather_S2048x128_S500000x1_S500000x128_1_0_n_n_0_1_1128_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def gather_S1024x128_S500000x1_S500000x128_1_0_n_n_0_1_1128 : GatherDims S1024x128 S500000x1 S500000x128 where
  offsetDims := [1]
  collapsedSliceDims := [0]
  operandBatchingDims := []
  startIndicesBatchingDims := []
  startIndexMap := [0]
  indexVectorDim := 1
  sliceSizes := ![1, 128]
  wf := gather_S1024x128_S500000x1_S500000x128_1_0_n_n_0_1_1128_wf

abbrev win0_0 : Pipeline.Window sig grid0 :=
  Pipeline.Window.ofSpec (Memref.whole main_arg0) S2048x256.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg12) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x128.size cc0_transform_2 reads0_2 true false 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x256.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_arg14) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x128.size cc1_transform_2 reads1_2 true false 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg16) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2048x256 : Shape := ⟨2, ![2048, 256]⟩
abbrev S1024x256 : Shape := ⟨2, ![1024, 256]⟩
abbrev S50000x256 : Shape := ⟨2, ![50000, 256]⟩
abbrev S65536x2 : Shape := ⟨2, ![65536, 2]⟩
abbrev S65536 : Shape := ⟨1, ![65536]⟩
abbrev S32768x2 : Shape := ⟨2, ![32768, 2]⟩
abbrev S32768 : Shape := ⟨1, ![32768]⟩
abbrev S1600000x2 : Shape := ⟨2, ![1600000, 2]⟩
abbrev S1600000 : Shape := ⟨1, ![1600000]⟩
abbrev S500000x2 : Shape := ⟨2, ![500000, 2]⟩
abbrev S250000x2 : Shape := ⟨2, ![250000, 2]⟩
abbrev S256x128 : Shape := ⟨2, ![256, 128]⟩
abbrev S128 : Shape := ⟨1, ![128]⟩
abbrev S128x1 : Shape := ⟨2, ![128, 1]⟩
abbrev S1 : Shape := ⟨1, ![1]⟩
abbrev S2048x128 : Shape := ⟨2, ![2048, 128]⟩
abbrev S65536x1 : Shape := ⟨2, ![65536, 1]⟩
abbrev S2048 : Shape := ⟨1, ![2048]⟩
abbrev S67584 : Shape := ⟨1, ![67584]⟩
abbrev S_ : Shape := ⟨0, ![]⟩
abbrev S67584x1 : Shape := ⟨2, ![67584, 1]⟩
abbrev S67584x128 : Shape := ⟨2, ![67584, 128]⟩
abbrev S1x128 : Shape := ⟨2, ![1, 128]⟩
abbrev S1024x128 : Shape := ⟨2, ![1024, 128]⟩
abbrev S32768x1 : Shape := ⟨2, ![32768, 1]⟩
abbrev S1024 : Shape := ⟨1, ![1024]⟩
abbrev S33792 : Shape := ⟨1, ![33792]⟩
abbrev S33792x1 : Shape := ⟨2, ![33792, 1]⟩
abbrev S33792x128 : Shape := ⟨2, ![33792, 128]⟩
abbrev S50000x128 : Shape := ⟨2, ![50000, 128]⟩
abbrev S1600000x1 : Shape := ⟨2, ![1600000, 1]⟩
abbrev S50000 : Shape := ⟨1, ![50000]⟩
abbrev S1650000 : Shape := ⟨1, ![1650000]⟩
abbrev S1650000x1 : Shape := ⟨2, ![1650000, 1]⟩
abbrev S1650000x128 : Shape := ⟨2, ![1650000, 128]⟩
abbrev S250000x1 : Shape := ⟨2, ![250000, 1]⟩
abbrev S250000 : Shape := ⟨1, ![250000]⟩
abbrev S250000x128 : Shape := ⟨2, ![250000, 128]⟩
abbrev S500000x1 : Shape := ⟨2, ![500000, 1]⟩
abbrev S500000 : Shape := ⟨1, ![500000]⟩
abbrev S500000x128 : Shape := ⟨2, ![500000, 128]⟩
abbrev S1x1 : Shape := ⟨2, ![1, 1]⟩

abbrev nBuf : Space → Nat
  | .hbm => 339
  | .vmem => 0
  | .smem => 0
  | _ => 0

abbrev hbmTy0_0 (i : Nat) : BufTy := match i % 128 with
  | 0 => ⟨S2048x256, .f32⟩
  | 1 => ⟨S1024x256, .f32⟩
  | 2 => ⟨S50000x256, .f32⟩
  | 3 => ⟨S65536x2, .i32⟩
  | 4 => ⟨S65536, .f32⟩
  | 5 => ⟨S32768x2, .i32⟩
  | 6 => ⟨S32768, .f32⟩
  | 7 => ⟨S1600000x2, .i32⟩
  | 8 => ⟨S1600000, .f32⟩
  | 9 => ⟨S500000x2, .i32⟩
  | 10 => ⟨S500000x2, .i32⟩
  | 11 => ⟨S250000x2, .i32⟩
  | 12 => ⟨S256x128, .f32⟩
  | 13 => ⟨S128, .f32⟩
  | 14 => ⟨S256x128, .f32⟩
  | 15 => ⟨S128, .f32⟩
  | 16 => ⟨S256x128, .f32⟩
  | 17 => ⟨S128, .f32⟩
  | 18 => ⟨S128x1, .f32⟩
  | 19 => ⟨S1, .f32⟩
  | 20 => ⟨S128x1, .f32⟩
  | 21 => ⟨S1, .f32⟩
  | 22 => ⟨S128x1, .f32⟩
  | 23 => ⟨S1, .f32⟩
  | 24 => ⟨S2048x128, .f32⟩
  | 25 => ⟨S65536x1, .i32⟩
  | 26 => ⟨S65536, .i32⟩
  | 27 => ⟨S2048, .i32⟩
  | 28 => ⟨S67584, .i32⟩
  | 29 => ⟨S65536x1, .i32⟩
  | 30 => ⟨S65536, .i32⟩
  | 31 => ⟨S2048, .i32⟩
  | 32 => ⟨S67584, .i32⟩
  | 33 => ⟨S_, .f32⟩
  | 34 => ⟨S2048, .f32⟩
  | 35 => ⟨S67584, .f32⟩
  | 36 => ⟨S_, .f32⟩
  | 37 => ⟨S2048, .f32⟩
  | 38 => ⟨S67584x1, .i32⟩
  | 39 => ⟨S2048, .f32⟩
  | 40 => ⟨S_, .f32⟩
  | 41 => ⟨S2048, .f32⟩
  | 42 => ⟨S2048, .i1⟩
  | 43 => ⟨S_, .f32⟩
  | 44 => ⟨S2048, .f32⟩
  | 45 => ⟨S2048, .f32⟩
  | 46 => ⟨S2048, .f32⟩
  | 47 => ⟨S_, .f32⟩
  | 48 => ⟨S_, .f32⟩
  | 49 => ⟨S2048, .f32⟩
  | 50 => ⟨S2048, .f32⟩
  | 51 => ⟨S_, .i32⟩
  | 52 => ⟨S67584, .i32⟩
  | 53 => ⟨S67584, .i1⟩
  | 54 => ⟨S_, .i32⟩
  | 55 => ⟨S67584, .i32⟩
  | 56 => ⟨S67584, .i32⟩
  | 57 => ⟨S67584, .i32⟩
  | 58 => ⟨S67584x1, .i32⟩
  | 59 => ⟨S67584, .f32⟩
  | 60 => ⟨S67584, .f32⟩
  | 61 => ⟨S_, .i32⟩
  | 62 => ⟨S67584, .i32⟩
  | 63 => ⟨S67584, .i1⟩
  | 64 => ⟨S_, .i32⟩
  | 65 => ⟨S67584, .i32⟩
  | 66 => ⟨S67584, .i32⟩
  | 67 => ⟨S67584, .i32⟩
  | 68 => ⟨S67584x1, .i32⟩
  | 69 => ⟨S67584, .f32⟩
  | 70 => ⟨S67584, .f32⟩
  | 71 => ⟨S67584x1, .f32⟩
  | 72 => ⟨S_, .i32⟩
  | 73 => ⟨S67584, .i32⟩
  | 74 => ⟨S67584, .i1⟩
  | 75 => ⟨S_, .i32⟩
  | 76 => ⟨S67584, .i32⟩
  | 77 => ⟨S67584, .i32⟩
  | 78 => ⟨S67584, .i32⟩
  | 79 => ⟨S67584x1, .i32⟩
  | 80 => ⟨S67584x128, .f32⟩
  | 81 => ⟨S67584x128, .f32⟩
  | 82 => ⟨S67584x128, .f32⟩
  | 83 => ⟨S_, .f32⟩
  | 84 => ⟨S2048x128, .f32⟩
  | 85 => ⟨S67584x1, .i32⟩
  | 86 => ⟨S2048x128, .f32⟩
  | 87 => ⟨S1x128, .f32⟩
  | 88 => ⟨S2048x128, .f32⟩
  | 89 => ⟨S2048x128, .f32⟩
  | 90 => ⟨S_, .f32⟩
  | 91 => ⟨S2048x128, .f32⟩
  | 92 => ⟨S2048x128, .f32⟩
  | 93 => ⟨S1024x128, .f32⟩
  | 94 => ⟨S32768x1, .i32⟩
  | 95 => ⟨S32768, .i32⟩
  | 96 => ⟨S1024, .i32⟩
  | 97 => ⟨S33792, .i32⟩
  | 98 => ⟨S32768x1, .i32⟩
  | 99 => ⟨S32768, .i32⟩
  | 100 => ⟨S1024, .i32⟩
  | 101 => ⟨S33792, .i32⟩
  | 102 => ⟨S_, .f32⟩
  | 103 => ⟨S1024, .f32⟩
  | 104 => ⟨S33792, .f32⟩
  | 105 => ⟨S_, .f32⟩
  | 106 => ⟨S1024, .f32⟩
  | 107 => ⟨S33792x1, .i32⟩
  | 108 => ⟨S1024, .f32⟩
  | 109 => ⟨S_, .f32⟩
  | 110 => ⟨S1024, .f32⟩
  | 111 => ⟨S1024, .i1⟩
  | 112 => ⟨S_, .f32⟩
  | 113 => ⟨S1024, .f32⟩
  | 114 => ⟨S1024, .f32⟩
  | 115 => ⟨S1024, .f32⟩
  | 116 => ⟨S_, .f32⟩
  | 117 => ⟨S_, .f32⟩
  | 118 => ⟨S1024, .f32⟩
  | 119 => ⟨S1024, .f32⟩
  | 120 => ⟨S_, .i32⟩
  | 121 => ⟨S33792, .i32⟩
  | 122 => ⟨S33792, .i1⟩
  | 123 => ⟨S_, .i32⟩
  | 124 => ⟨S33792, .i32⟩
  | 125 => ⟨S33792, .i32⟩
  | 126 => ⟨S33792, .i32⟩
  | 127 => ⟨S33792x1, .i32⟩
  | _ => ⟨S2048x256, .f32⟩

abbrev hbmTy0_1 (i : Nat) : BufTy := match i % 128 with
  | 0 => ⟨S33792, .f32⟩
  | 1 => ⟨S33792, .f32⟩
  | 2 => ⟨S_, .i32⟩
  | 3 => ⟨S33792, .i32⟩
  | 4 => ⟨S33792, .i1⟩
  | 5 => ⟨S_, .i32⟩
  | 6 => ⟨S33792, .i32⟩
  | 7 => ⟨S33792, .i32⟩
  | 8 => ⟨S33792, .i32⟩
  | 9 => ⟨S33792x1, .i32⟩
  | 10 => ⟨S33792, .f32⟩
  | 11 => ⟨S33792, .f32⟩
  | 12 => ⟨S33792x1, .f32⟩
  | 13 => ⟨S_, .i32⟩
  | 14 => ⟨S33792, .i32⟩
  | 15 => ⟨S33792, .i1⟩
  | 16 => ⟨S_, .i32⟩
  | 17 => ⟨S33792, .i32⟩
  | 18 => ⟨S33792, .i32⟩
  | 19 => ⟨S33792, .i32⟩
  | 20 => ⟨S33792x1, .i32⟩
  | 21 => ⟨S33792x128, .f32⟩
  | 22 => ⟨S33792x128, .f32⟩
  | 23 => ⟨S33792x128, .f32⟩
  | 24 => ⟨S_, .f32⟩
  | 25 => ⟨S1024x128, .f32⟩
  | 26 => ⟨S33792x1, .i32⟩
  | 27 => ⟨S1024x128, .f32⟩
  | 28 => ⟨S1x128, .f32⟩
  | 29 => ⟨S1024x128, .f32⟩
  | 30 => ⟨S1024x128, .f32⟩
  | 31 => ⟨S_, .f32⟩
  | 32 => ⟨S1024x128, .f32⟩
  | 33 => ⟨S1024x128, .f32⟩
  | 34 => ⟨S50000x128, .f32⟩
  | 35 => ⟨S1600000x1, .i32⟩
  | 36 => ⟨S1600000, .i32⟩
  | 37 => ⟨S50000, .i32⟩
  | 38 => ⟨S1650000, .i32⟩
  | 39 => ⟨S1600000x1, .i32⟩
  | 40 => ⟨S1600000, .i32⟩
  | 41 => ⟨S50000, .i32⟩
  | 42 => ⟨S1650000, .i32⟩
  | 43 => ⟨S_, .f32⟩
  | 44 => ⟨S50000, .f32⟩
  | 45 => ⟨S1650000, .f32⟩
  | 46 => ⟨S_, .f32⟩
  | 47 => ⟨S50000, .f32⟩
  | 48 => ⟨S1650000x1, .i32⟩
  | 49 => ⟨S50000, .f32⟩
  | 50 => ⟨S_, .f32⟩
  | 51 => ⟨S50000, .f32⟩
  | 52 => ⟨S50000, .i1⟩
  | 53 => ⟨S_, .f32⟩
  | 54 => ⟨S50000, .f32⟩
  | 55 => ⟨S50000, .f32⟩
  | 56 => ⟨S50000, .f32⟩
  | 57 => ⟨S_, .f32⟩
  | 58 => ⟨S_, .f32⟩
  | 59 => ⟨S50000, .f32⟩
  | 60 => ⟨S50000, .f32⟩
  | 61 => ⟨S_, .i32⟩
  | 62 => ⟨S1650000, .i32⟩
  | 63 => ⟨S1650000, .i1⟩
  | 64 => ⟨S_, .i32⟩
  | 65 => ⟨S1650000, .i32⟩
  | 66 => ⟨S1650000, .i32⟩
  | 67 => ⟨S1650000, .i32⟩
  | 68 => ⟨S1650000x1, .i32⟩
  | 69 => ⟨S1650000, .f32⟩
  | 70 => ⟨S1650000, .f32⟩
  | 71 => ⟨S_, .i32⟩
  | 72 => ⟨S1650000, .i32⟩
  | 73 => ⟨S1650000, .i1⟩
  | 74 => ⟨S_, .i32⟩
  | 75 => ⟨S1650000, .i32⟩
  | 76 => ⟨S1650000, .i32⟩
  | 77 => ⟨S1650000, .i32⟩
  | 78 => ⟨S1650000x1, .i32⟩
  | 79 => ⟨S1650000, .f32⟩
  | 80 => ⟨S1650000, .f32⟩
  | 81 => ⟨S1650000x1, .f32⟩
  | 82 => ⟨S_, .i32⟩
  | 83 => ⟨S1650000, .i32⟩
  | 84 => ⟨S1650000, .i1⟩
  | 85 => ⟨S_, .i32⟩
  | 86 => ⟨S1650000, .i32⟩
  | 87 => ⟨S1650000, .i32⟩
  | 88 => ⟨S1650000, .i32⟩
  | 89 => ⟨S1650000x1, .i32⟩
  | 90 => ⟨S1650000x128, .f32⟩
  | 91 => ⟨S1650000x128, .f32⟩
  | 92 => ⟨S1650000x128, .f32⟩
  | 93 => ⟨S_, .f32⟩
  | 94 => ⟨S50000x128, .f32⟩
  | 95 => ⟨S1650000x1, .i32⟩
  | 96 => ⟨S50000x128, .f32⟩
  | 97 => ⟨S1x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S250000x1, .i32⟩
  | 104 => ⟨S250000, .i32⟩
  | 105 => ⟨S_, .i32⟩
  | 106 => ⟨S250000, .i32⟩
  | 107 => ⟨S250000, .i1⟩
  | 108 => ⟨S_, .i32⟩
  | 109 => ⟨S250000, .i32⟩
  | 110 => ⟨S250000, .i32⟩
  | 111 => ⟨S250000, .i32⟩
  | 112 => ⟨S250000x1, .i32⟩
  | 113 => ⟨S250000x128, .f32⟩
  | 114 => ⟨S250000x1, .i32⟩
  | 115 => ⟨S250000, .i32⟩
  | 116 => ⟨S_, .i32⟩
  | 117 => ⟨S250000, .i32⟩
  | 118 => ⟨S250000, .i1⟩
  | 119 => ⟨S_, .i32⟩
  | 120 => ⟨S250000, .i32⟩
  | 121 => ⟨S250000, .i32⟩
  | 122 => ⟨S250000, .i32⟩
  | 123 => ⟨S250000x1, .i32⟩
  | 124 => ⟨S250000x128, .f32⟩
  | 125 => ⟨S250000x128, .f32⟩
  | 126 => ⟨S500000x1, .i32⟩
  | 127 => ⟨S500000, .i32⟩
  | _ => ⟨S2048x256, .f32⟩

abbrev hbmTy0_2 (i : Nat) : BufTy := match i % 128 with
  | 0 => ⟨S_, .i32⟩
  | 1 => ⟨S500000, .i32⟩
  | 2 => ⟨S500000, .i1⟩
  | 3 => ⟨S_, .i32⟩
  | 4 => ⟨S500000, .i32⟩
  | 5 => ⟨S500000, .i32⟩
  | 6 => ⟨S500000, .i32⟩
  | 7 => ⟨S500000x1, .i32⟩
  | 8 => ⟨S500000x128, .f32⟩
  | 9 => ⟨S500000x1, .i32⟩
  | 10 => ⟨S500000, .i32⟩
  | 11 => ⟨S_, .i32⟩
  | 12 => ⟨S500000, .i32⟩
  | 13 => ⟨S500000, .i1⟩
  | 14 => ⟨S_, .i32⟩
  | 15 => ⟨S500000, .i32⟩
  | 16 => ⟨S500000, .i32⟩
  | 17 => ⟨S500000, .i32⟩
  | 18 => ⟨S500000x1, .i32⟩
  | 19 => ⟨S500000x128, .f32⟩
  | 20 => ⟨S500000x128, .f32⟩
  | 21 => ⟨S500000x1, .i32⟩
  | 22 => ⟨S500000, .i32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x128, .f32⟩
  | 32 => ⟨S500000x1, .i32⟩
  | 33 => ⟨S500000, .i32⟩
  | 34 => ⟨S_, .i32⟩
  | 35 => ⟨S500000, .i32⟩
  | 36 => ⟨S500000, .i1⟩
  | 37 => ⟨S_, .i32⟩
  | 38 => ⟨S500000, .i32⟩
  | 39 => ⟨S500000, .i32⟩
  | 40 => ⟨S500000, .i32⟩
  | 41 => ⟨S500000x1, .i32⟩
  | 42 => ⟨S500000x128, .f32⟩
  | 43 => ⟨S500000x128, .f32⟩
  | 44 => ⟨S250000x1, .f32⟩
  | 45 => ⟨S1x1, .f32⟩
  | 46 => ⟨S250000x1, .f32⟩
  | 47 => ⟨S250000x1, .f32⟩
  | 48 => ⟨S250000x1, .f32⟩
  | 49 => ⟨S250000x1, .f32⟩
  | 50 => ⟨S_, .f32⟩
  | 51 => ⟨S250000x1, .f32⟩
  | 52 => ⟨S250000x1, .f32⟩
  | 53 => ⟨S_, .f32⟩
  | 54 => ⟨S250000x1, .f32⟩
  | 55 => ⟨S250000x1, .f32⟩
  | 56 => ⟨S250000, .f32⟩
  | 57 => ⟨S500000x1, .f32⟩
  | 58 => ⟨S1x1, .f32⟩
  | 59 => ⟨S500000x1, .f32⟩
  | 60 => ⟨S500000x1, .f32⟩
  | 61 => ⟨S500000x1, .f32⟩
  | 62 => ⟨S500000x1, .f32⟩
  | 63 => ⟨S_, .f32⟩
  | 64 => ⟨S500000x1, .f32⟩
  | 65 => ⟨S500000x1, .f32⟩
  | 66 => ⟨S_, .f32⟩
  | 67 => ⟨S500000x1, .f32⟩
  | 68 => ⟨S500000x1, .f32⟩
  | 69 => ⟨S500000, .f32⟩
  | 70 => ⟨S500000x1, .f32⟩
  | 71 => ⟨S1x1, .f32⟩
  | 72 => ⟨S500000x1, .f32⟩
  | 73 => ⟨S500000x1, .f32⟩
  | 74 => ⟨S500000x1, .f32⟩
  | 75 => ⟨S500000x1, .f32⟩
  | 76 => ⟨S_, .f32⟩
  | 77 => ⟨S500000x1, .f32⟩
  | 78 => ⟨S500000x1, .f32⟩
  | 79 => ⟨S_, .f32⟩
  | 80 => ⟨S500000x1, .f32⟩
  | 81 => ⟨S500000x1, .f32⟩
  | 82 => ⟨S500000, .f32⟩
  | _ => ⟨S2048x256, .f32⟩

abbrev hbmTy (i : Nat) : BufTy := match i / 128 with
  | 0 => hbmTy0_0 i
  | 1 => hbmTy0_1 i
  | 2 => hbmTy0_2 i
  | _ => ⟨S2048x256, .f32⟩

abbrev bufTy : (tb : Table) → Fin (tcTables nBuf tb) → BufTy
  | .hbm, ⟨i, _⟩ => hbmTy i
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst : Ref sig .tc := ⟨.hbm, 33, rfl⟩
abbrev main_v9 : Ref sig .tc := ⟨.hbm, 34, rfl⟩
abbrev main_v10 : Ref sig .tc := ⟨.hbm, 35, rfl⟩
abbrev main_cst_0 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_3 : Ref sig .tc := ⟨.hbm, 47, rfl⟩
abbrev main_call0_v0 : Ref sig .tc := ⟨.hbm, 48, rfl⟩
abbrev main_call0_v1 : Ref sig .tc := ⟨.hbm, 49, rfl⟩
abbrev main_v19 : Ref sig .tc := ⟨.hbm, 50, rfl⟩
abbrev main_c : Ref sig .tc := ⟨.hbm, 51, rfl⟩
abbrev main_v20 : Ref sig .tc := ⟨.hbm, 52, rfl⟩
abbrev main_v21 : Ref sig .tc := ⟨.hbm, 53, rfl⟩
abbrev main_c_4 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_c_5 : Ref sig .tc := ⟨.hbm, 61, rfl⟩
abbrev main_v28 : Ref sig .tc := ⟨.hbm, 62, rfl⟩
abbrev main_v29 : Ref sig .tc := ⟨.hbm, 63, rfl⟩
abbrev main_c_6 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_c_7 : Ref sig .tc := ⟨.hbm, 72, rfl⟩
abbrev main_v37 : Ref sig .tc := ⟨.hbm, 73, rfl⟩
abbrev main_v38 : Ref sig .tc := ⟨.hbm, 74, rfl⟩
abbrev main_c_8 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_9 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_call1_cst : Ref sig .tc := ⟨.hbm, 90, rfl⟩
abbrev main_call1_v0 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_10 : Ref sig .tc := ⟨.hbm, 102, rfl⟩
abbrev main_v62 : Ref sig .tc := ⟨.hbm, 103, rfl⟩
abbrev main_v63 : Ref sig .tc := ⟨.hbm, 104, rfl⟩
abbrev main_cst_11 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_12 : Ref sig .tc := ⟨.hbm, 109, rfl⟩
abbrev main_v67 : Ref sig .tc := ⟨.hbm, 110, rfl⟩
abbrev main_v68 : Ref sig .tc := ⟨.hbm, 111, rfl⟩
abbrev main_cst_13 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_14 : Ref sig .tc := ⟨.hbm, 116, rfl⟩
abbrev main_call2_v0 : Ref sig .tc := ⟨.hbm, 117, rfl⟩
abbrev main_call2_v1 : Ref sig .tc := ⟨.hbm, 118, rfl⟩
abbrev main_v72 : Ref sig .tc := ⟨.hbm, 119, rfl⟩
abbrev main_c_15 : Ref sig .tc := ⟨.hbm, 120, rfl⟩
abbrev main_v73 : Ref sig .tc := ⟨.hbm, 121, rfl⟩
abbrev main_v74 : Ref sig .tc := ⟨.hbm, 122, rfl⟩
abbrev main_c_16 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_c_17 : Ref sig .tc := ⟨.hbm, 130, rfl⟩
abbrev main_v81 : Ref sig .tc := ⟨.hbm, 131, rfl⟩
abbrev main_v82 : Ref sig .tc := ⟨.hbm, 132, rfl⟩
abbrev main_c_18 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_c_19 : Ref sig .tc := ⟨.hbm, 141, rfl⟩
abbrev main_v90 : Ref sig .tc := ⟨.hbm, 142, rfl⟩
abbrev main_v91 : Ref sig .tc := ⟨.hbm, 143, rfl⟩
abbrev main_c_20 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_cst_21 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_call3_cst : Ref sig .tc := ⟨.hbm, 159, rfl⟩
abbrev main_call3_v0 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_22 : Ref sig .tc := ⟨.hbm, 171, rfl⟩
abbrev main_v115 : Ref sig .tc := ⟨.hbm, 172, rfl⟩
abbrev main_v116 : Ref sig .tc := ⟨.hbm, 173, rfl⟩
abbrev main_cst_23 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_cst_24 : Ref sig .tc := ⟨.hbm, 178, rfl⟩
abbrev main_v120 : Ref sig .tc := ⟨.hbm, 179, rfl⟩
abbrev main_v121 : Ref sig .tc := ⟨.hbm, 180, rfl⟩
abbrev main_cst_25 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_cst_26 : Ref sig .tc := ⟨.hbm, 185, rfl⟩
abbrev main_call4_v0 : Ref sig .tc := ⟨.hbm, 186, rfl⟩
abbrev main_call4_v1 : Ref sig .tc := ⟨.hbm, 187, rfl⟩
abbrev main_v125 : Ref sig .tc := ⟨.hbm, 188, rfl⟩
abbrev main_c_27 : Ref sig .tc := ⟨.hbm, 189, rfl⟩
abbrev main_v126 : Ref sig .tc := ⟨.hbm, 190, rfl⟩
abbrev main_v127 : Ref sig .tc := ⟨.hbm, 191, rfl⟩
abbrev main_c_28 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_c_29 : Ref sig .tc := ⟨.hbm, 199, rfl⟩
abbrev main_v134 : Ref sig .tc := ⟨.hbm, 200, rfl⟩
abbrev main_v135 : Ref sig .tc := ⟨.hbm, 201, rfl⟩
abbrev main_c_30 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_c_31 : Ref sig .tc := ⟨.hbm, 210, rfl⟩
abbrev main_v143 : Ref sig .tc := ⟨.hbm, 211, rfl⟩
abbrev main_v144 : Ref sig .tc := ⟨.hbm, 212, rfl⟩
abbrev main_c_32 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_cst_33 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_call5_cst : Ref sig .tc := ⟨.hbm, 228, rfl⟩
abbrev main_call5_v0 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_c_34 : Ref sig .tc := ⟨.hbm, 233, rfl⟩
abbrev main_v161 : Ref sig .tc := ⟨.hbm, 234, rfl⟩
abbrev main_v162 : Ref sig .tc := ⟨.hbm, 235, rfl⟩
abbrev main_c_35 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_c_36 : Ref sig .tc := ⟨.hbm, 244, rfl⟩
abbrev main_v170 : Ref sig .tc := ⟨.hbm, 245, rfl⟩
abbrev main_v171 : Ref sig .tc := ⟨.hbm, 246, rfl⟩
abbrev main_c_37 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_c_38 : Ref sig .tc := ⟨.hbm, 256, rfl⟩
abbrev main_v180 : Ref sig .tc := ⟨.hbm, 257, rfl⟩
abbrev main_v181 : Ref sig .tc := ⟨.hbm, 258, rfl⟩
abbrev main_c_39 : Ref sig .tc := ⟨.hbm, 259, rfl⟩
abbrev main_v182 : Ref sig .tc := ⟨.hbm, 260, rfl⟩
abbrev main_v183 : Ref sig .tc := ⟨.hbm, 261, rfl⟩
abbrev main_v184 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_c_40 : Ref sig .tc := ⟨.hbm, 267, rfl⟩
abbrev main_v189 : Ref sig .tc := ⟨.hbm, 268, rfl⟩
abbrev main_v190 : Ref sig .tc := ⟨.hbm, 269, rfl⟩
abbrev main_c_41 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_c_42 : Ref sig .tc := ⟨.hbm, 279, rfl⟩
abbrev main_v199 : Ref sig .tc := ⟨.hbm, 280, rfl⟩
abbrev main_v200 : Ref sig .tc := ⟨.hbm, 281, rfl⟩
abbrev main_c_43 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_c_44 : Ref sig .tc := ⟨.hbm, 290, rfl⟩
abbrev main_v208 : Ref sig .tc := ⟨.hbm, 291, rfl⟩
abbrev main_v209 : Ref sig .tc := ⟨.hbm, 292, rfl⟩
abbrev main_c_45 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_cst_46 : Ref sig .tc := ⟨.hbm, 306, rfl⟩
abbrev main_v222 : Ref sig .tc := ⟨.hbm, 307, rfl⟩
abbrev main_v223 : Ref sig .tc := ⟨.hbm, 308, rfl⟩
abbrev main_cst_47 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_v230 : Ref sig .tc := ⟨.hbm, 316, rfl⟩
abbrev main_v231 : Ref sig .tc := ⟨.hbm, 317, rfl⟩
abbrev main_v232 : Ref sig .tc := ⟨.hbm, 318, rfl⟩
abbrev main_cst_48 : Ref sig .tc := ⟨.hbm, 319, rfl⟩
abbrev main_v233 : Ref sig .tc := ⟨.hbm, 320, rfl⟩
abbrev main_v234 : Ref sig .tc := ⟨.hbm, 321, rfl⟩
abbrev main_cst_49 : Ref sig .tc := ⟨.hbm, 322, rfl⟩
abbrev main_v235 : Ref sig .tc := ⟨.hbm, 323, rfl⟩
abbrev main_v236 : Ref sig .tc := ⟨.hbm, 324, rfl⟩
abbrev main_v237 : Ref sig .tc := ⟨.hbm, 325, rfl⟩
abbrev main_v238 : Ref sig .tc := ⟨.hbm, 326, rfl⟩
abbrev main_v239 : Ref sig .tc := ⟨.hbm, 327, rfl⟩
abbrev main_v240 : Ref sig .tc := ⟨.hbm, 328, rfl⟩
abbrev main_v241 : Ref sig .tc := ⟨.hbm, 329, rfl⟩
abbrev main_v242 : Ref sig .tc := ⟨.hbm, 330, rfl⟩
abbrev main_v243 : Ref sig .tc := ⟨.hbm, 331, rfl⟩
abbrev main_cst_50 : Ref sig .tc := ⟨.hbm, 332, rfl⟩
abbrev main_v244 : Ref sig .tc := ⟨.hbm, 333, rfl⟩
abbrev main_v245 : Ref sig .tc := ⟨.hbm, 334, rfl⟩
abbrev main_cst_51 : Ref sig .tc := ⟨.hbm, 335, rfl⟩
abbrev main_v246 : Ref sig .tc := ⟨.hbm, 336, rfl⟩
abbrev main_v247 : Ref sig .tc := ⟨.hbm, 337, rfl⟩
abbrev main_v248 : Ref sig .tc := ⟨.hbm, 338, rfl⟩

abbrev nD : Nat := 1
abbrev τ : Topo := Topo.v7x

variable {F : FTy → Type} [FloatOps F]

class Facts₀ : Prop where
  slices_S65536x2_S65536x1_0_0 : S65536x2.Slices ![0, 0] S65536x1
  shapeCasts_S65536x1_S65536 : S65536x1.ShapeCasts S65536
  concatenates_S65536_S2048_S67584_d0 : Shape.Concatenates [S65536, S2048] S67584 0
  slices_S65536x2_S65536x1_0_1 : S65536x2.Slices ![0, 1] S65536x1
  bcast_S_S2048 : S_.BroadcastsInDim S2048 (![] : Fin 0 → Fin S2048.rank)
  bcast_S67584_S67584x1_0 : S67584.BroadcastsInDim S67584x1 (![0] : Fin 1 → Fin S67584x1.rank)
  bcast_S_S67584 : S_.BroadcastsInDim S67584 (![] : Fin 0 → Fin S67584.rank)
  bcast_S67584x1_S67584x128_0_1 : S67584x1.BroadcastsInDim S67584x128 (![0, 1] : Fin 2 → Fin S67584x128.rank)
  bcast_S_S2048x128 : S_.BroadcastsInDim S2048x128 (![] : Fin 0 → Fin S2048x128.rank)
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  slices_S32768x2_S32768x1_0_0 : S32768x2.Slices ![0, 0] S32768x1
  shapeCasts_S32768x1_S32768 : S32768x1.ShapeCasts S32768
  concatenates_S32768_S1024_S33792_d0 : Shape.Concatenates [S32768, S1024] S33792 0
  slices_S32768x2_S32768x1_0_1 : S32768x2.Slices ![0, 1] S32768x1
  bcast_S_S1024 : S_.BroadcastsInDim S1024 (![] : Fin 0 → Fin S1024.rank)
  bcast_S33792_S33792x1_0 : S33792.BroadcastsInDim S33792x1 (![0] : Fin 1 → Fin S33792x1.rank)
  bcast_S_S33792 : S_.BroadcastsInDim S33792 (![] : Fin 0 → Fin S33792.rank)
  bcast_S33792x1_S33792x128_0_1 : S33792x1.BroadcastsInDim S33792x128 (![0, 1] : Fin 2 → Fin S33792x128.rank)
  bcast_S_S1024x128 : S_.BroadcastsInDim S1024x128 (![] : Fin 0 → Fin S1024x128.rank)
  bcast_S1x128_S1024x128_0_1 : S1x128.BroadcastsInDim S1024x128 (![0, 1] : Fin 2 → Fin S1024x128.rank)
  slices_S1600000x2_S1600000x1_0_0 : S1600000x2.Slices ![0, 0] S1600000x1
  shapeCasts_S1600000x1_S1600000 : S1600000x1.ShapeCasts S1600000
  concatenates_S1600000_S50000_S1650000_d0 : Shape.Concatenates [S1600000, S50000] S1650000 0
  slices_S1600000x2_S1600000x1_0_1 : S1600000x2.Slices ![0, 1] S1600000x1
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  slices_S250000x2_S250000x1_0_0 : S250000x2.Slices ![0, 0] S250000x1
  shapeCasts_S250000x1_S250000 : S250000x1.ShapeCasts S250000
  bcast_S_S250000 : S_.BroadcastsInDim S250000 (![] : Fin 0 → Fin S250000.rank)
  bcast_S250000_S250000x1_0 : S250000.BroadcastsInDim S250000x1 (![0] : Fin 1 → Fin S250000x1.rank)
  slices_S250000x2_S250000x1_0_1 : S250000x2.Slices ![0, 1] S250000x1
  slices_S500000x2_S500000x1_0_0 : S500000x2.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x2_S500000x1_0_1 : S500000x2.Slices ![0, 1] S500000x1
  bcast_S1_S1x1_1 : S1.BroadcastsInDim S1x1 (![1] : Fin 1 → Fin S1x1.rank)
  bcast_S1x1_S250000x1_0_1 : S1x1.BroadcastsInDim S250000x1 (![0, 1] : Fin 2 → Fin S250000x1.rank)
  bcast_S_S250000x1 : S_.BroadcastsInDim S250000x1 (![] : Fin 0 → Fin S250000x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  dot_S2048x256_S256x128_S2048x128_1_0_0_1_n_n_wf : DotDims.WF S2048x256 S256x128 S2048x128 [1] [0] [0] [1] [] []
  scatter_S2048_S67584x1_S67584_n_0_0_1_wf : ScatterDims.WF S2048 S67584x1 S67584 [] [0] [0] 1
  gather_S2048_S67584x1_S67584_n_0_n_n_0_1_1_wf : GatherDims.WF S2048 S67584x1 S67584 [] [0] [] [0] [] 1 ![1]
  gather_S2048x128_S67584x1_S67584x128_1_0_n_n_0_1_1128_wf : GatherDims.WF S2048x128 S67584x1 S67584x128 [1] [0] [] [0] [] 1 ![1, 128]
  scatter_S2048x128_S67584x1_S67584x128_1_0_0_1_wf : ScatterDims.WF S2048x128 S67584x1 S67584x128 [1] [0] [0] 1
  dot_S1024x256_S256x128_S1024x128_1_0_0_1_n_n_wf : DotDims.WF S1024x256 S256x128 S1024x128 [1] [0] [0] [1] [] []
  scatter_S1024_S33792x1_S33792_n_0_0_1_wf : ScatterDims.WF S1024 S33792x1 S33792 [] [0] [0] 1
  gather_S1024_S33792x1_S33792_n_0_n_n_0_1_1_wf : GatherDims.WF S1024 S33792x1 S33792 [] [0] [] [0] [] 1 ![1]
  gather_S1024x128_S33792x1_S33792x128_1_0_n_n_0_1_1128_wf : GatherDims.WF S1024x128 S33792x1 S33792x128 [1] [0] [] [0] [] 1 ![1, 128]
  scatter_S1024x128_S33792x1_S33792x128_1_0_0_1_wf : ScatterDims.WF S1024x128 S33792x1 S33792x128 [1] [0] [0] 1
  dot_S50000x256_S256x128_S50000x128_1_0_0_1_n_n_wf : DotDims.WF S50000x256 S256x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  gather_S2048x128_S250000x1_S250000x128_1_0_n_n_0_1_1128_wf : GatherDims.WF S2048x128 S250000x1 S250000x128 [1] [0] [] [0] [] 1 ![1, 128]
  gather_S1024x128_S250000x1_S250000x128_1_0_n_n_0_1_1128_wf : GatherDims.WF S1024x128 S250000x1 S250000x128 [1] [0] [] [0] [] 1 ![1, 128]
  gather_S2048x128_S500000x1_S500000x128_1_0_n_n_0_1_1128_wf : GatherDims.WF S2048x128 S500000x1 S500000x128 [1] [0] [] [0] [] 1 ![1, 128]
  gather_S50000x128_S500000x1_S500000x128_1_0_n_n_0_1_1128_wf : GatherDims.WF S50000x128 S500000x1 S500000x128 [1] [0] [] [0] [] 1 ![1, 128]
  gather_S1024x128_S500000x1_S500000x128_1_0_n_n_0_1_1128_wf : GatherDims.WF S1024x128 S500000x1 S500000x128 [1] [0] [] [0] [] 1 ![1, 128]
  dot_S250000x128_S128x1_S250000x1_1_0_0_1_n_n_wf : DotDims.WF S250000x128 S128x1 S250000x1 [1] [0] [0] [1] [] []
  dot_S500000x128_S128x1_S500000x1_1_0_0_1_n_n_wf : DotDims.WF S500000x128 S128x1 S500000x1 [1] [0] [0] [1] [] []

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def scatter_S2048_S67584x1_S67584_n_0_0_1 : ScatterDims S2048 S67584x1 S67584 where
  updateWindowDims := []
  insertedWindowDims := [0]
  scatterDimsToOperandDims := [0]
  indexVectorDim := 1
  wf := scatter_S2048_S67584x1_S67584_n_0_0_1_wf
def gather_S2048_S67584x1_S67584_n_0_n_n_0_1_1 : GatherDims S2048 S67584x1 S67584 where
  offsetDims := []
  collapsedSliceDims := [0]
  operandBatchingDims := []
  startIndicesBatchingDims := []
  startIndexMap := [0]
  indexVectorDim := 1
  sliceSizes := ![1]
  wf := gather_S2048_S67584x1_S67584_n_0_n_n_0_1_1_wf
def gather_S2048x128_S67584x1_S67584x128_1_0_n_n_0_1_1128 : GatherDims S2048x128 S67584x1 S67584x128 where
  offsetDims := [1]
  collapsedSliceDims := [0]
  operandBatchingDims := []
  startIndicesBatchingDims := []
  startIndexMap := [0]
  indexVectorDim := 1
  sliceSizes := ![1, 128]
  wf := gather_S2048x128_S67584x1_S67584x128_1_0_n_n_0_1_1128_wf
def scatter_S2048x128_S67584x1_S67584x128_1_0_0_1 : ScatterDims S2048x128 S67584x1 S67584x128 where
  updateWindowDims := [1]
  insertedWindowDims := [0]
  scatterDimsToOperandDims := [0]
  indexVectorDim := 1
  wf := scatter_S2048x128_S67584x1_S67584x128_1_0_0_1_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def scatter_S1024_S33792x1_S33792_n_0_0_1 : ScatterDims S1024 S33792x1 S33792 where
  updateWindowDims := []
  insertedWindowDims := [0]
  scatterDimsToOperandDims := [0]
  indexVectorDim := 1
  wf := scatter_S1024_S33792x1_S33792_n_0_0_1_wf
def gather_S1024_S33792x1_S33792_n_0_n_n_0_1_1 : GatherDims S1024 S33792x1 S33792 where
  offsetDims := []
  collapsedSliceDims := [0]
  operandBatchingDims := []
  startIndicesBatchingDims := []
  startIndexMap := [0]
  indexVectorDim := 1
  sliceSizes := ![1]
  wf := gather_S1024_S33792x1_S33792_n_0_n_n_0_1_1_wf
def gather_S1024x128_S33792x1_S33792x128_1_0_n_n_0_1_1128 : GatherDims S1024x128 S33792x1 S33792x128 where
  offsetDims := [1]
  collapsedSliceDims := [0]
  operandBatchingDims := []
  startIndicesBatchingDims := []
  startIndexMap := [0]
  indexVectorDim := 1
  sliceSizes := ![1, 128]
  wf := gather_S1024x128_S33792x1_S33792x128_1_0_n_n_0_1_1128_wf
def scatter_S1024x128_S33792x1_S33792x128_1_0_0_1 : ScatterDims S1024x128 S33792x1 S33792x128 where
  updateWindowDims := [1]
  insertedWindowDims := [0]
  scatterDimsToOperandDims := [0]
  indexVectorDim := 1
  wf := scatter_S1024x128_S33792x1_S33792x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def gather_S2048x128_S250000x1_S250000x128_1_0_n_n_0_1_1128 : GatherDims S2048x128 S250000x1 S250000x128 where
  offsetDims := [1]
  collapsedSliceDims := [0]
  operandBatchingDims := []
  startIndicesBatchingDims := []
  startIndexMap := [0]
  indexVectorDim := 1
  sliceSizes := ![1, 128]
  wf := gather_S2048x128_S250000x1_S250000x128_1_0_n_n_0_1_1128_wf
def gather_S1024x128_S250000x1_S250000x128_1_0_n_n_0_1_1128 : GatherDims S1024x128 S250000x1 S250000x128 where
  offsetDims := [1]
  collapsedSliceDims := [0]
  operandBatchingDims := []
  startIndicesBatchingDims := []
  startIndexMap := [0]
  indexVectorDim := 1
  sliceSizes := ![1, 128]
  wf := gather_S1024x128_S250000x1_S250000x128_1_0_n_n_0_1_1128_wf
def gather_S2048x128_S500000x1_S500000x128_1_0_n_n_0_1_1128 : GatherDims S2048x128 S500000x1 S500000x128 where
  offsetDims := [1]
  collapsedSliceDims := [0]
  operandBatchingDims := []
  startIndicesBatchingDims := []
  startIndexMap := [0]
  indexVectorDim := 1
  sliceSizes := ![1, 128]
  wf := gather_S2048x128_S500000x1_S500000x128_1_0_n_n_0_1_1128_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def gather_S1024x128_S500000x1_S500000x128_1_0_n_n_0_1_1128 : GatherDims S1024x128 S500000x1 S500000x128 where
  offsetDims := [1]
  collapsedSliceDims := [0]
  operandBatchingDims := []
  startIndicesBatchingDims := []
  startIndexMap := [0]
  indexVectorDim := 1
  sliceSizes := ![1, 128]
  wf := gather_S1024x128_S500000x1_S500000x128_1_0_n_n_0_1_1128_wf
def dot_S250000x128_S128x1_S250000x1_1_0_0_1_n_n : DotDims S250000x128 S128x1 S250000x1 where
  lhsContracting := [1]
  rhsContracting := [0]
  lhsNonContracting := [0]
  rhsNonContracting := [1]
  lhsBatch := []
  rhsBatch := []
  wf := dot_S250000x128_S128x1_S250000x1_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.Domain.lean ====
/-
  What the precondition says about the three arrays of index pairs.

  The precondition is a conjunction of one bit per input; its last three conjuncts say that every entry of
  mirna_pcg_pairs, of disease_pcg_pairs and of label_tensor is at least 0 as a signed 32-bit integer. Each is
  "compare with a broadcast 0, then reduce the bits with and over both axes", so it is all ones exactly when every
  entry's comparison is one.
-/
import proofs.«419983_j31860067402122_3_alg».proof.Defs
import proofs.«419983_j31860067402122_3_alg».proof.Proof.Gen.Pre_finite_inputs
import Idealize.ShloMosaic.Lib.ReduceAll
import Idealize.ShloMosaic.Lib.Affine
import Idealize.ShloMosaic.Lib.ValueIdx

noncomputable section

namespace Cert.Proof.Domain

open Idealize.ShloMosaic Idealize.SL.Sem

instance : Subsingleton Cert.Pre_finite_inputs.S_.Idx := ⟨fun a b => funext fun d => d.elim0⟩

/-- Under the precondition every entry of the three arrays of index pairs is non-negative. -/
theorem pairs_nonneg (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, 0 ≤ ((m ((c.tc : Thread Cert.KernelIdeal.nD Cert.KernelIdeal.τ).loc Cert.KernelIdeal.main_arg9)) i).toInt)
    ∧ (∀ i, 0 ≤ ((m ((c.tc : Thread Cert.KernelIdeal.nD Cert.KernelIdeal.τ).loc Cert.KernelIdeal.main_arg10)) i).toInt)
    ∧ (∀ i, 0 ≤ ((m ((c.tc : Thread Cert.KernelIdeal.nD Cert.KernelIdeal.τ).loc Cert.KernelIdeal.main_arg11)) i).toInt) := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  obtain ⟨h1, h11⟩ := IntOp.andi_eq_one.mp h0
  obtain ⟨h2, h10⟩ := IntOp.andi_eq_one.mp h1
  obtain ⟨-, h9⟩ := IntOp.andi_eq_one.mp h2
  refine ⟨fun i => ?_, fun i => ?_, fun i => ?_⟩
  · have := Host.reduce_andi_all _ _ _ _ _ h9 i
    exact (IntOp.cmpi_sge.mp this)
  · have := Host.reduce_andi_all _ _ _ _ _ h10 i
    exact (IntOp.cmpi_sge.mp this)
  · have := Host.reduce_andi_all _ _ _ _ _ h11 i
    exact (IntOp.cmpi_sge.mp this)

end Cert.Proof.Domain

end
-- ==== Proof.LibRowTile.lean ====
/-
  A row tile of a matrix product is the product of the row tile.

  For a plain two-dimensional contraction (left operand [rows, K] contracted on its second axis, right operand
  [K, n] on its first, no batch axes) the result element at (r, c) is the sum over k of lhs (r, k) * rhs (k, c).
  So if a tile [m, K] of a taller left operand [M, K] holds, on its row r, the taller operand's row i, then the
  tile's product at (r, c) and the whole product at (i, c) are the same sum. The two contractions are given by
  their own dimension records, whose contraction index types differ; both sums are re-indexed over Fin K.
-/
import Idealize.ShloMosaic.PureOps.Ideal.Laws
import Idealize.ShloMosaic.Lib.ValueIdx

open scoped BigOperators

namespace Cert.Lib

open Idealize.ShloMosaic Idealize.ShloMosaic.ValueIdx

/-- A coordinate of an index depends on the axis only through the axis's number. -/
theorem idx_val_congr {s : Shape} (j : s.Idx) {p q : Nat} (hp : p < s.rank) (hq : q < s.rank) (h : p = q) :
    (j ⟨p, hp⟩).val = (j ⟨q, hq⟩).val := by subst h; rfl

section Axes

variable {sl sr so : Shape} (d : DotDims sl sr so)

/-- With no batch axes and one free axis a on the left, the left operand's index on a is the result index's
    first coordinate. -/
theorem lhsIdx_val_of_free {a : Fin sl.rank} (hb : d.lhsBatch = []) (hn : d.lhsNonContracting = [a])
    (j : so.Idx) (k : d.contr.Idx) (h0 : 0 < so.rank) : (d.lhsIdx j k a).val = (j ⟨0, h0⟩).val := by
  have hnb : a ∉ d.lhsBatch := by rw [hb]; simp
  have hmem : a ∈ d.lhsNonContracting := by rw [hn]; simp
  unfold DotDims.lhsIdx
  rw [dif_neg hnb, dif_pos hmem]
  simp only [Fin.val_cast]
  exact idx_val_congr j _ _ (by simp [hb, hn])

/-- With no batch axes, one free axis on the left and one free axis a on the right, the right operand's index on
    a is the result index's second coordinate. -/
theorem rhsIdx_val_of_free {a : Fin sr.rank} {al : Fin sl.rank} (hlb : d.lhsBatch = []) (hln : d.lhsNonContracting = [al])
    (hb : d.rhsBatch = []) (hn : d.rhsNonContracting = [a])
    (j : so.Idx) (k : d.contr.Idx) (h1 : 1 < so.rank) : (d.rhsIdx j k a).val = (j ⟨1, h1⟩).val := by
  have hnb : a ∉ d.rhsBatch := by rw [hb]; simp
  have hmem : a ∈ d.rhsNonContracting := by rw [hn]; simp
  unfold DotDims.rhsIdx
  rw [dif_neg hnb, dif_pos hmem]
  simp only [Fin.val_cast]
  exact idx_val_congr j _ _ (by simp [hlb, hln, hn])

end Axes

/-- The dimension numbers of a plain product [rows, K] · [K, n]: contract the left operand's second axis with the
    right operand's first; the free axes are the left's first and the right's second; no batch axes. -/
structure IsPlain {a K n : Nat} (d : DotDims ⟨2, ![a, K]⟩ ⟨2, ![K, n]⟩ ⟨2, ![a, n]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []
  rank : d.contr.rank = 1
  size : d.contr.size ⟨0, by omega⟩ = K

section Plain

variable {a K n : Nat} {d : DotDims ⟨2, ![a, K]⟩ ⟨2, ![K, n]⟩ ⟨2, ![a, n]⟩}

/-- The left operand is read at (row of the result, k). -/
theorem IsPlain.lhsIdx_eq (h : IsPlain d) (j : (⟨2, ![a, n]⟩ : Shape).Idx) (k : Fin K) :
    d.lhsIdx j ((contrEquiv1 d K h.rank h.size).symm k) = ix2 (j 0) k := by
  funext ax; apply Fin.ext
  match ax with
  | ⟨0, _⟩ => exact lhsIdx_val_of_free d (a := (0 : Fin 2)) h.lb h.ln j _ Nat.zero_lt_two
  | ⟨1, _⟩ =>
    exact (d.lhsIdx_val_of_single (cl := (1 : Fin 2)) h.lc j _).trans (contrEquiv1_symm_val d K h.rank h.size k)

/-- The right operand is read at (k, column of the result). -/
theorem IsPlain.rhsIdx_eq (h : IsPlain d) (j : (⟨2, ![a, n]⟩ : Shape).Idx) (k : Fin K) :
    d.rhsIdx j ((contrEquiv1 d K h.rank h.size).symm k) = ix2 k (j 1) := by
  funext ax; apply Fin.ext
  match ax with
  | ⟨0, _⟩ =>
    exact (d.rhsIdx_val_of_single (cr := (0 : Fin 2)) h.rc j _).trans (contrEquiv1_symm_val d K h.rank h.size k)
  | ⟨1, _⟩ => exact rhsIdx_val_of_free d (a := (1 : Fin 2)) (al := (0 : Fin 2)) h.lb h.ln h.rb h.rn j _ Nat.one_lt_two

/-- A plain product's contraction sum, over the contracted coordinate itself. -/
theorem IsPlain.sum_eq (h : IsPlain d) (l : (⟨2, ![a, K]⟩ : Shape).Idx → EReal) (r : (⟨2, ![K, n]⟩ : Shape).Idx → EReal)
    (j : (⟨2, ![a, n]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K h.rank h.size).symm]
  exact Finset.sum_congr rfl fun k _ => congrArg₂ (· * ·) (congrArg l (h.lhsIdx_eq j k)) (congrArg r (h.rhsIdx_eq j k))

end Plain

/-- A ROW TILE OF A PRODUCT IS THE PRODUCT OF THE ROW TILE: if row (y 0) of the tile lt is row (i 0) of the whole
    left operand l, and y, i name the same column, the two contraction sums are equal. -/
theorem sum_rowTile {m M K n : Nat}
    {dT : DotDims ⟨2, ![m, K]⟩ ⟨2, ![K, n]⟩ ⟨2, ![m, n]⟩} {dW : DotDims ⟨2, ![M, K]⟩ ⟨2, ![K, n]⟩ ⟨2, ![M, n]⟩}
    (hT : IsPlain dT) (hW : IsPlain dW)
    (lt : (⟨2, ![m, K]⟩ : Shape).Idx → EReal) (l : (⟨2, ![M, K]⟩ : Shape).Idx → EReal) (r : (⟨2, ![K, n]⟩ : Shape).Idx → EReal)
    (y : (⟨2, ![m, n]⟩ : Shape).Idx) (i : (⟨2, ![M, n]⟩ : Shape).Idx)
    (hrow : ∀ k : Fin K, lt (ix2 (y 0) k) = l (ix2 (i 0) k)) (hcol : y 1 = i 1) :
    ∑ k : dT.contr.Idx, lt (dT.lhsIdx y k) * r (dT.rhsIdx y k) = ∑ k : dW.contr.Idx, l (dW.lhsIdx i k) * r (dW.rhsIdx i k) := by
  rw [hT.sum_eq lt r y, hW.sum_eq l r i]
  exact Finset.sum_congr rfl fun k _ => by rw [hrow k, hcol]

end Cert.Lib
-- ==== Proof.XwProd.lean ====
/-
  The product of two matrices over the extended reals, entry by entry: entry (r, c) is the sum over k of
  left (r, k) * right (k, c). This is what each matrix-product region of the kernel is shown to leave in its output.
-/
import Idealize.ShloMosaic.PureOps.Ideal.Laws
import Idealize.ShloMosaic.Lib.ValueIdx

set_option maxRecDepth 16384

noncomputable section

open scoped BigOperators

namespace Cert.KernelIdeal.Xw

open Idealize.ShloMosaic
open Idealize.ShloMosaic.ValueIdx

/-- The product of an [a, K] array with a [K, n] array over the extended reals, entry by entry. -/
def prod (a K n : Nat) (x : (⟨2, ![a, K]⟩ : Shape).Idx → EReal) (w : (⟨2, ![K, n]⟩ : Shape).Idx → EReal) :
    (⟨2, ![a, n]⟩ : Shape).Idx → EReal := fun j => ∑ k : Fin K, x (ix2 (j 0) k) * w (ix2 k (j 1))

/-- The origin of a rank-2 block. -/
theorem hz : (![0, 0] : Fin 2 → Nat) = fun _ => 0 := funext fun a => by fin_cases a <;> rfl

end Cert.KernelIdeal.Xw

end
-- ==== Proof.XwRegion0.lean ====
/-
  What the matrix-product region mirna_emb · Wm (row tiles of 2048 rows) leaves in its output array.

  The body loads a block of 2048 rows of the left matrix and the whole right matrix, rounds both to bf16 (the
  identity over the extended reals), and stores their product into a zero accumulator. A block of the output is
  therefore the product of a row tile, and a row tile's product is the whole product on those rows; the blocks
  cover the array, so it ends as the whole product.
-/
import proofs.«419983_j31860067402122_3_alg».proof.Proof.Gen.KernelIdeal.Frame
import proofs.«419983_j31860067402122_3_alg».proof.Proof.LibRowTile
import proofs.«419983_j31860067402122_3_alg».proof.Proof.XwProd
import Idealize.ShloMosaic.Lib.Pipeline.Value

set_option maxRecDepth 16384

noncomputable section

open scoped BigOperators

namespace Cert.KernelIdeal.Xw

open Cert.KernelIdeal Cert.KernelIdeal.Gen Idealize.ShloMosaic Idealize.ShloMosaic.TcCoe Idealize.SL.Sem
open Idealize.ShloMosaic.ValueIdx
open Idealize.ShloMosaic.Pipeline (Dat)

theorem plain0 : Cert.Lib.IsPlain dot_S2048x256_S256x128_S2048x128_1_0_0_1_n_n := ⟨rfl, rfl, rfl, rfl, rfl, rfl, rfl, rfl⟩

/-- The body's stored value is the product of its two loaded blocks. -/
theorem pay0 (x0 : Vec Ideal S2048x256 .f32) (x1 : Vec Ideal S256x128 .f32) :
    k0_pay1 (F := Ideal) x0 x1 = prod 2048 256 128 x0 x1 := by
  funext j
  unfold k0_pay1
  refine (Ideal.matmul_constant_zero_apply dot_S2048x256_S256x128_S2048x128_1_0_0_1_n_n none _ _ j).trans ?_
  exact plain0.sum_eq x0 x1 j

section
variable (V : (c : Dev nD) → (b : Ref sig .tc) → Buf (Elt Ideal) ((c : Thread nD τ).loc b))

/-- The printed index maps over the grid: the left operand's and the output's blocks move together down the rows,
    and nothing moves along the columns or in the right operand. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the two arrays as the region finds them. -/
theorem flushed0 (c : Dev nD) (t : Fin cfg0.N) :
    (dat0 V c).flushed 2 t
      = ((cfg0.win 2).blk t).view.read (Elt Ideal) (prod 2048 256 128 (V c main_arg0) (V c main_arg12)) := by
  show (cfg0.win 2).cut (grid0.coords t) ((dat0 V c).after 2 t) = _
  rw [after0_2]
  unfold out0_2
  rw [View.canon_unit_zero hz]
  simp only [View.ld_unit_zero (S := S2048x256) hz, View.ld_unit_zero (S := S256x128) hz]
  rw [pay0]
  obtain ⟨e0, e1, e2, e3, e4, e5⟩ := idx_facts0 t
  funext j
  show prod 2048 256 128 (iblk0 V c 0 t) (iblk0 V c 1 t) j
    = prod 2048 256 128 (V c main_arg0) (V c main_arg12) (((cfg0.win 2).blk t).view.emb j)
  unfold prod
  refine Finset.sum_congr rfl fun k _ => ?_
  have hl : iblk0 V c 0 t (ix2 (j 0) k) = V c main_arg0 (ix2 ((((cfg0.win 2).blk t).view.emb j) 0) k) := by
    show V c main_arg0 (((cfg0.win 0).blk t).view.emb (ix2 (j 0) k)) = _
    refine congrArg _ ?_
    funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 256 + 1 * k.val = k.val; omega
  have hr : iblk0 V c 1 t (ix2 k (j 1)) = V c main_arg12 (ix2 k ((((cfg0.win 2).blk t).view.emb j) 1)) := by
    show V c main_arg12 (((cfg0.win 1).blk t).view.emb (ix2 k (j 1))) = _
    refine congrArg _ ?_
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  rw [hl, hr]

/-- An index of the output array is in point t's block iff each coordinate is in the block's range on its axis. -/
theorem mem_blk0 (t : Fin cfg0.N) (i : S2048x128.Idx) :
    i ∈ ((cfg0.win 2).blk t).view.set ↔ ∀ a : Fin 2, win0_2.index t a * S2048x128.size a ≤ (i a).val
      ∧ (i a).val < win0_2.index t a * S2048x128.size a + S2048x128.size a := by
  show i ∈ ((View.whole main_v0).slice (win0_2.rect t)).set ↔ _
  rw [View.set_slice_whole, Rect.mem_set_unit]
  exact Iff.rfl

/-- Row r of the output lies in the block of point r / 2048. -/
theorem cover0 (i : S2048x128.Idx) :
    ∃ t : Fin cfg0.N, (cfg0.win 2).flush t = true ∧ i ∈ ((cfg0.win 2).blk t).view.set := by
  have hi0 : (i 0).val < 2048 := (i 0).isLt
  have hi1 : (i 1).val < 128 := (i 1).isLt
  have hN : cfg0.N = 1 := N_0
  have ht : (i 0).val / 2048 < cfg0.N := by rw [hN]; omega
  obtain ⟨e0, e1, e2, e3, e4, e5⟩ := idx_facts0 ⟨(i 0).val / 2048, ht⟩
  have e4' : win0_2.index ⟨(i 0).val / 2048, ht⟩ (0 : Fin 2) = (i 0).val / 2048 := e4
  refine ⟨⟨(i 0).val / 2048, ht⟩, flush0_2 _, ?_⟩
  rw [mem_blk0]
  intro a
  match a with
  | ⟨0, _⟩ =>
    show win0_2.index ⟨(i 0).val / 2048, ht⟩ (0 : Fin 2) * 2048 ≤ (i 0).val
      ∧ (i 0).val < win0_2.index ⟨(i 0).val / 2048, ht⟩ (0 : Fin 2) * 2048 + 2048
    omega
  | ⟨1, _⟩ =>
    show win0_2.index ⟨(i 0).val / 2048, ht⟩ (1 : Fin 2) * 128 ≤ (i 1).val
      ∧ (i 1).val < win0_2.index ⟨(i 0).val / 2048, ht⟩ (1 : Fin 2) * 128 + 128
    omega

/-- The output array after the region: the whole product of the two arrays as the region finds them. -/
theorem final0 (c : Dev nD) :
    (dat0 V c).arrAt 2 cfg0.N = prod 2048 256 128 (V c main_arg0) (V c main_arg12) :=
  (dat0 V c).arrAt_eq_of_cover 2 _ (fun t _ => flushed0 V c t) (cover0)

end

end Cert.KernelIdeal.Xw

end
-- ==== Proof.XwRegion1.lean ====
/-
  What the matrix-product region disease_emb · Wd (row tiles of 1024 rows) leaves in its output array.

  The body loads a block of 1024 rows of the left matrix and the whole right matrix, rounds both to bf16 (the
  identity over the extended reals), and stores their product into a zero accumulator. A block of the output is
  therefore the product of a row tile, and a row tile's product is the whole product on those rows; the blocks
  cover the array, so it ends as the whole product.
-/
import proofs.«419983_j31860067402122_3_alg».proof.Proof.Gen.KernelIdeal.Frame
import proofs.«419983_j31860067402122_3_alg».proof.Proof.LibRowTile
import proofs.«419983_j31860067402122_3_alg».proof.Proof.XwProd
import Idealize.ShloMosaic.Lib.Pipeline.Value

set_option maxRecDepth 16384

noncomputable section

open scoped BigOperators

namespace Cert.KernelIdeal.Xw

open Cert.KernelIdeal Cert.KernelIdeal.Gen Idealize.ShloMosaic Idealize.ShloMosaic.TcCoe Idealize.SL.Sem
open Idealize.ShloMosaic.ValueIdx
open Idealize.ShloMosaic.Pipeline (Dat)

theorem plain1 : Cert.Lib.IsPlain dot_S1024x256_S256x128_S1024x128_1_0_0_1_n_n := ⟨rfl, rfl, rfl, rfl, rfl, rfl, rfl, rfl⟩

/-- The body's stored value is the product of its two loaded blocks. -/
theorem pay1 (x0 : Vec Ideal S1024x256 .f32) (x1 : Vec Ideal S256x128 .f32) :
    k1_pay1 (F := Ideal) x0 x1 = prod 1024 256 128 x0 x1 := by
  funext j
  unfold k1_pay1
  refine (Ideal.matmul_constant_zero_apply dot_S1024x256_S256x128_S1024x128_1_0_0_1_n_n none _ _ j).trans ?_
  exact plain1.sum_eq x0 x1 j

section
variable (V : (c : Dev nD) → (b : Ref sig .tc) → Buf (Elt Ideal) ((c : Thread nD τ).loc b))

/-- The printed index maps over the grid: the left operand's and the output's blocks move together down the rows,
    and nothing moves along the columns or in the right operand. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product of the two arrays as the region finds them. -/
theorem flushed1 (c : Dev nD) (t : Fin cfg1.N) :
    (dat1 V c).flushed 2 t
      = ((cfg1.win 2).blk t).view.read (Elt Ideal) (prod 1024 256 128 (V c main_arg1) (V c main_arg14)) := by
  show (cfg1.win 2).cut (grid1.coords t) ((dat1 V c).after 2 t) = _
  rw [after1_2]
  unfold out1_2
  rw [View.canon_unit_zero hz]
  simp only [View.ld_unit_zero (S := S1024x256) hz, View.ld_unit_zero (S := S256x128) hz]
  rw [pay1]
  obtain ⟨e0, e1, e2, e3, e4, e5⟩ := idx_facts1 t
  funext j
  show prod 1024 256 128 (iblk1 V c 0 t) (iblk1 V c 1 t) j
    = prod 1024 256 128 (V c main_arg1) (V c main_arg14) (((cfg1.win 2).blk t).view.emb j)
  unfold prod
  refine Finset.sum_congr rfl fun k _ => ?_
  have hl : iblk1 V c 0 t (ix2 (j 0) k) = V c main_arg1 (ix2 ((((cfg1.win 2).blk t).view.emb j) 0) k) := by
    show V c main_arg1 (((cfg1.win 0).blk t).view.emb (ix2 (j 0) k)) = _
    refine congrArg _ ?_
    funext a; apply Fin.ext
    match a with
    | ⟨0, _⟩ => show win1_0.index t (0 : Fin 2) * 1024 + 1 * (j 0).val = win1_2.index t (0 : Fin 2) * 1024 + 1 * (j 0).val; omega
    | ⟨1, _⟩ => show win1_0.index t (1 : Fin 2) * 256 + 1 * k.val = k.val; omega
  have hr : iblk1 V c 1 t (ix2 k (j 1)) = V c main_arg14 (ix2 k ((((cfg1.win 2).blk t).view.emb j) 1)) := by
    show V c main_arg14 (((cfg1.win 1).blk t).view.emb (ix2 k (j 1))) = _
    refine congrArg _ ?_
    funext a; apply Fin.ext
    match a with
    | ⟨0, _⟩ => show win1_1.index t (0 : Fin 2) * 256 + 1 * k.val = k.val; omega
    | ⟨1, _⟩ => show win1_1.index t (1 : Fin 2) * 128 + 1 * (j 1).val = win1_2.index t (1 : Fin 2) * 128 + 1 * (j 1).val; omega
  rw [hl, hr]

/-- An index of the output array is in point t's block iff each coordinate is in the block's range on its axis. -/
theorem mem_blk1 (t : Fin cfg1.N) (i : S1024x128.Idx) :
    i ∈ ((cfg1.win 2).blk t).view.set ↔ ∀ a : Fin 2, win1_2.index t a * S1024x128.size a ≤ (i a).val
      ∧ (i a).val < win1_2.index t a * S1024x128.size a + S1024x128.size a := by
  show i ∈ ((View.whole main_v1).slice (win1_2.rect t)).set ↔ _
  rw [View.set_slice_whole, Rect.mem_set_unit]
  exact Iff.rfl

/-- Row r of the output lies in the block of point r / 1024. -/
theorem cover1 (i : S1024x128.Idx) :
    ∃ t : Fin cfg1.N, (cfg1.win 2).flush t = true ∧ i ∈ ((cfg1.win 2).blk t).view.set := by
  have hi0 : (i 0).val < 1024 := (i 0).isLt
  have hi1 : (i 1).val < 128 := (i 1).isLt
  have hN : cfg1.N = 1 := N_1
  have ht : (i 0).val / 1024 < cfg1.N := by rw [hN]; omega
  obtain ⟨e0, e1, e2, e3, e4, e5⟩ := idx_facts1 ⟨(i 0).val / 1024, ht⟩
  have e4' : win1_2.index ⟨(i 0).val / 1024, ht⟩ (0 : Fin 2) = (i 0).val / 1024 := e4
  refine ⟨⟨(i 0).val / 1024, ht⟩, flush1_2 _, ?_⟩
  rw [mem_blk1]
  intro a
  match a with
  | ⟨0, _⟩ =>
    show win1_2.index ⟨(i 0).val / 1024, ht⟩ (0 : Fin 2) * 1024 ≤ (i 0).val
      ∧ (i 0).val < win1_2.index ⟨(i 0).val / 1024, ht⟩ (0 : Fin 2) * 1024 + 1024
    omega
  | ⟨1, _⟩ =>
    show win1_2.index ⟨(i 0).val / 1024, ht⟩ (1 : Fin 2) * 128 ≤ (i 1).val
      ∧ (i 1).val < win1_2.index ⟨(i 0).val / 1024, ht⟩ (1 : Fin 2) * 128 + 128
    omega

/-- The output array after the region: the whole product of the two arrays as the region finds them. -/
theorem final1 (c : Dev nD) :
    (dat1 V c).arrAt 2 cfg1.N = prod 1024 256 128 (V c main_arg1) (V c main_arg14) :=
  (dat1 V c).arrAt_eq_of_cover 2 _ (fun t _ => flushed1 V c t) (cover1)

end

end Cert.KernelIdeal.Xw

end
-- ==== Proof.XwRegion2.lean ====
/-
  What the matrix-product region pcg_emb · Wp (row tiles of 5000 rows) leaves in its output array.

  The body loads a block of 5000 rows of the left matrix and the whole right matrix, rounds both to bf16 (the
  identity over the extended reals), and stores their product into a zero accumulator. A block of the output is
  therefore the product of a row tile, and a row tile's product is the whole product on those rows; the blocks
  cover the array, so it ends as the whole product.
-/
import proofs.«419983_j31860067402122_3_alg».proof.Proof.Gen.KernelIdeal.Frame
import proofs.«419983_j31860067402122_3_alg».proof.Proof.LibRowTile
import proofs.«419983_j31860067402122_3_alg».proof.Proof.XwProd
import Idealize.ShloMosaic.Lib.Pipeline.Value

set_option maxRecDepth 16384

noncomputable section

open scoped BigOperators

namespace Cert.KernelIdeal.Xw

open Cert.KernelIdeal Cert.KernelIdeal.Gen Idealize.ShloMosaic Idealize.ShloMosaic.TcCoe Idealize.SL.Sem
open Idealize.ShloMosaic.ValueIdx
open Idealize.ShloMosaic.Pipeline (Dat)

theorem plain2 : Cert.Lib.IsPlain dot_S5000x256_S256x128_S5000x128_1_0_0_1_n_n := ⟨rfl, rfl, rfl, rfl, rfl, rfl, rfl, rfl⟩

/-- The body's stored value is the product of its two loaded blocks. -/
theorem pay2 (x0 : Vec Ideal S5000x256 .f32) (x1 : Vec Ideal S256x128 .f32) :
    k2_pay1 (F := Ideal) x0 x1 = prod 5000 256 128 x0 x1 := by
  funext j
  unfold k2_pay1
  refine (Ideal.matmul_constant_zero_apply dot_S5000x256_S256x128_S5000x128_1_0_0_1_n_n none _ _ j).trans ?_
  exact plain2.sum_eq x0 x1 j

section
variable (V : (c : Dev nD) → (b : Ref sig .tc) → Buf (Elt Ideal) ((c : Thread nD τ).loc b))

/-- The printed index maps over the grid: the left operand's and the output's blocks move together down the rows,
    and nothing moves along the columns or in the right operand. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the two arrays as the region finds them. -/
theorem flushed2 (c : Dev nD) (t : Fin cfg2.N) :
    (dat2 V c).flushed 2 t
      = ((cfg2.win 2).blk t).view.read (Elt Ideal) (prod 50000 256 128 (V c main_arg2) (V c main_arg16)) := by
  show (cfg2.win 2).cut (grid2.coords t) ((dat2 V c).after 2 t) = _
  rw [after2_2]
  unfold out2_2
  rw [View.canon_unit_zero hz]
  simp only [View.ld_unit_zero (S := S5000x256) hz, View.ld_unit_zero (S := S256x128) hz]
  rw [pay2]
  obtain ⟨e0, e1, e2, e3, e4, e5⟩ := idx_facts2 t
  funext j
  show prod 5000 256 128 (iblk2 V c 0 t) (iblk2 V c 1 t) j
    = prod 50000 256 128 (V c main_arg2) (V c main_arg16) (((cfg2.win 2).blk t).view.emb j)
  unfold prod
  refine Finset.sum_congr rfl fun k _ => ?_
  have hl : iblk2 V c 0 t (ix2 (j 0) k) = V c main_arg2 (ix2 ((((cfg2.win 2).blk t).view.emb j) 0) k) := by
    show V c main_arg2 (((cfg2.win 0).blk t).view.emb (ix2 (j 0) k)) = _
    refine congrArg _ ?_
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 256 + 1 * k.val = k.val; omega
  have hr : iblk2 V c 1 t (ix2 k (j 1)) = V c main_arg16 (ix2 k ((((cfg2.win 2).blk t).view.emb j) 1)) := by
    show V c main_arg16 (((cfg2.win 1).blk t).view.emb (ix2 k (j 1))) = _
    refine congrArg _ ?_
    funext a; apply Fin.ext
    match a with
    | ⟨0, _⟩ => show win2_1.index t (0 : Fin 2) * 256 + 1 * k.val = k.val; omega
    | ⟨1, _⟩ => show win2_1.index t (1 : Fin 2) * 128 + 1 * (j 1).val = win2_2.index t (1 : Fin 2) * 128 + 1 * (j 1).val; omega
  rw [hl, hr]

/-- An index of the output array is in point t's block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v2).slice (win2_2.rect t)).set ↔ _
  rw [View.set_slice_whole, Rect.mem_set_unit]
  exact Iff.rfl

/-- Row r of the output lies in the block of point r / 5000. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  have ht : (i 0).val / 5000 < cfg2.N := by rw [hN]; omega
  obtain ⟨e0, e1, e2, e3, e4, e5⟩ := idx_facts2 ⟨(i 0).val / 5000, ht⟩
  have e4' : win2_2.index ⟨(i 0).val / 5000, ht⟩ (0 : Fin 2) = (i 0).val / 5000 := e4
  refine ⟨⟨(i 0).val / 5000, ht⟩, flush2_2 _, ?_⟩
  rw [mem_blk2]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    omega

/-- The output array after the region: the whole product of the two arrays as the region finds them. -/
theorem final2 (c : Dev nD) :
    (dat2 V c).arrAt 2 cfg2.N = prod 50000 256 128 (V c main_arg2) (V c main_arg16) :=
  (dat2 V c).arrAt_eq_of_cover 2 _ (fun t _ => flushed2 V c t) (cover2)

end

end Cert.KernelIdeal.Xw

end
-- ==== Proof.XwValue.lean ====
/-
  The three matrix-product outputs as the host operations after the regions find them: after the third region,
  the first region's output array still holds mirna_emb · Wm, the second's disease_emb · Wd, and the third's holds
  pcg_emb · Wp, each as the whole product over the extended reals of the argument arrays as launched.
-/
import proofs.«419983_j31860067402122_3_alg».proof.Proof.XwRegion0
import proofs.«419983_j31860067402122_3_alg».proof.Proof.XwRegion1
import proofs.«419983_j31860067402122_3_alg».proof.Proof.XwRegion2

set_option maxRecDepth 16384

noncomputable section

open scoped BigOperators

namespace Cert.KernelIdeal.Xw

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- After the three regions the first region's output array holds mirna_emb · Wm. -/
theorem xw_m (c : Dev nD) : W3 m ρ c (Proc.devRef .tc main_v0)
    = prod 2048 256 128 (m ((c : Thread nD τ).loc main_arg0)) (m ((c : Thread nD τ).loc main_arg12)) :=
  (W3_of_ne m ρ c main_v0 (by decide)).trans ((W2_of_ne m ρ c main_v0 (by decide)).trans
    ((W1_arr m ρ c 2).trans (final0 (V0 m ρ) c)))

/-- After the three regions the second region's output array holds disease_emb · Wd. -/
theorem xw_d (c : Dev nD) : W3 m ρ c (Proc.devRef .tc main_v1)
    = prod 1024 256 128 (m ((c : Thread nD τ).loc main_arg1)) (m ((c : Thread nD τ).loc main_arg14)) := by
  refine (W3_of_ne m ρ c main_v1 (by decide)).trans ((W2_arr m ρ c 2).trans ((final1 (V1 m ρ) c).trans ?_))
  rw [show V1 m ρ c main_arg1 = m ((c : Thread nD τ).loc main_arg1) from W1_of_ne m ρ c main_arg1 (by decide),
    show V1 m ρ c main_arg14 = m ((c : Thread nD τ).loc main_arg14) from W1_of_ne m ρ c main_arg14 (by decide)]

/-- After the three regions the third region's output array holds pcg_emb · Wp. -/
theorem xw_p (c : Dev nD) : W3 m ρ c (Proc.devRef .tc main_v2)
    = prod 50000 256 128 (m ((c : Thread nD τ).loc main_arg2)) (m ((c : Thread nD τ).loc main_arg16)) := by
  refine (W3_arr m ρ c 2).trans ((final2 (V2 m ρ) c).trans ?_)
  rw [show V2 m ρ c main_arg2 = m ((c : Thread nD τ).loc main_arg2) from
      (W2_of_ne m ρ c main_arg2 (by decide)).trans (W1_of_ne m ρ c main_arg2 (by decide)),
    show V2 m ρ c main_arg16 = m ((c : Thread nD τ).loc main_arg16) from
      (W2_of_ne m ρ c main_arg16 (by decide)).trans (W1_of_ne m ρ c main_arg16 (by decide))]

end Cert.KernelIdeal.Xw

end
-- ==== Proof.Layers.lean ====
/-
  The three graph-convolution layers: the kernel's host operations after the regions compute, from each region's
  output xw, the same function relu (segment_sum (norm · xw[row]) + b) as the reference computes from its own
  product x · W — operation for operation (self loops appended, degrees by a scatter-add, the symmetric
  normalisation dis[row] · w · dis[col], the gather of rows, the scatter-add over columns, the bias, the maximum
  with 0). So each layer's result buffer is the reference's stage at the same arguments as soon as the region's
  output is the reference's product; nothing about the numbers is used.
-/
import proofs.«419983_j31860067402122_3_alg».proof.Proof.Gen.KernelIdeal.Frame
import proofs.«419983_j31860067402122_3_alg».proof.Proof.RefStages

set_option maxRecDepth 16384

noncomputable section

namespace Cert.KernelIdeal.Tail

open Cert.KernelIdeal Cert.KernelIdeal.Gen Idealize.ShloMosaic Idealize.ShloMosaic.TcCoe Idealize.SL.Sem
open Idealize.ShloMosaic.StableHlo

/-- The rewriting loop that reads an operation's result at its own buffer and skips it at any other, for what a
    simp pass leaves inside a concatenate's list of pieces. -/
macro "after_results_rest" : tactic =>
  `(tactic| repeat (first
       | rw [nullary_result] | rw [unary_result] | rw [binary_result] | rw [ternary_result] | rw [quaternary_result]
       | rw [reshape_result]
       | (rw [nullary_result_ne]; rotate_left; decide)
       | (rw [unary_result_ne]; rotate_left; decide)
       | (rw [binary_result_ne]; rotate_left; decide)
       | (rw [ternary_result_ne]; rotate_left; decide)
       | (rw [quaternary_result_ne]; rotate_left; decide)
       | (rw [reshape_result_ne]; rotate_left; decide)))

variable {F : FTy → Type} [FloatOps F]
variable (m : (ℓ : Loc nD τ sig) → Buf (Elt F) ℓ) (ρ : Dev nD → PrngReg)

/-- A buffer that is no window's array of any region is as launched when the host operations begin. -/
theorem W3_launch (c : Dev nD) (b : Ref sig .tc) (h0 : ∀ w, Pipeline.arrRef spec0 w ≠ b)
    (h1 : ∀ w, Pipeline.arrRef spec1 w ≠ b) (h2 : ∀ w, Pipeline.arrRef spec2 w ≠ b) :
    W3 m ρ c (Proc.devRef .tc b) = m ((c : Thread nD τ).loc b) :=
  (W3_of_ne m ρ c b h2).trans ((W2_of_ne m ρ c b h1).trans (W1_of_ne m ρ c b h0))

set_option maxHeartbeats 2000000 in
/-- The mirna layer. -/
theorem layer_m (c : Dev nD)
    (h0 : W3 m ρ c (Proc.devRef .tc main_v0)
      = Cert.ReferenceIdeal.ReadP.val_main_v0 (F := F) (m ((c : Thread nD τ).loc main_arg0)) (m ((c : Thread nD τ).loc main_arg12))) :
    W7 m ρ c (Proc.devRef .tc main_v54)
      = Cert.ReferenceIdeal.ReadP.val_main_v52 (F := F) (m ((c : Thread nD τ).loc main_arg0)) (m ((c : Thread nD τ).loc main_arg3))
          (m ((c : Thread nD τ).loc main_arg4)) (m ((c : Thread nD τ).loc main_arg12)) (m ((c : Thread nD τ).loc main_arg13)) := by
  have e3 := W3_launch m ρ c main_arg3 (by decide) (by decide) (by decide)
  have e4 := W3_launch m ρ c main_arg4 (by decide) (by decide) (by decide)
  have e13 := W3_launch m ρ c main_arg13 (by decide) (by decide) (by decide)
  show StableHlo.after hostOps3_3 (StableHlo.after hostOps3_2 (StableHlo.after hostOps3_1 (StableHlo.after hostOps3 (W3 m ρ c))))
    (Proc.devRef .tc main_v54) = _
  generalize W3 m ρ c = V at h0 e3 e4 e13 ⊢
  simp only [hostOps3_3, hostOps3_2, hostOps3_1, hostOps3]
  after_results_simp
  after_results_rest
  simp only [TRef.ofBuf, TRef.toBuf, cast_eq]
  rw [h0, e3, e4, e13]
  rfl

set_option maxHeartbeats 4000000 in
/-- The disease layer. -/
theorem layer_d (c : Dev nD)
    (h1 : W3 m ρ c (Proc.devRef .tc main_v1)
      = Cert.ReferenceIdeal.ReadP.val_main_v53 (F := F) (m ((c : Thread nD τ).loc main_arg1)) (m ((c : Thread nD τ).loc main_arg14))) :
    W11 m ρ c (Proc.devRef .tc main_v106)
      = Cert.ReferenceIdeal.ReadP.val_main_v105 (F := F) (m ((c : Thread nD τ).loc main_arg1)) (m ((c : Thread nD τ).loc main_arg5))
          (m ((c : Thread nD τ).loc main_arg6)) (m ((c : Thread nD τ).loc main_arg14)) (m ((c : Thread nD τ).loc main_arg15)) := by
  have e5 := W3_launch m ρ c main_arg5 (by decide) (by decide) (by decide)
  have e6 := W3_launch m ρ c main_arg6 (by decide) (by decide) (by decide)
  have e15 := W3_launch m ρ c main_arg15 (by decide) (by decide) (by decide)
  show StableHlo.after hostOps3_7 (StableHlo.after hostOps3_6 (StableHlo.after hostOps3_5 (StableHlo.after hostOps3_4
    (StableHlo.after hostOps3_3 (StableHlo.after hostOps3_2 (StableHlo.after hostOps3_1 (StableHlo.after hostOps3 (W3 m ρ c))))))))
    (Proc.devRef .tc main_v106) = _
  generalize W3 m ρ c = V at h1 e5 e6 e15 ⊢
  simp only [hostOps3_7, hostOps3_6, hostOps3_5, hostOps3_4, hostOps3_3, hostOps3_2, hostOps3_1, hostOps3]
  after_results_simp
  after_results_rest
  simp only [TRef.ofBuf, TRef.toBuf, cast_eq]
  rw [h1, e5, e6, e15]
  rfl

set_option maxHeartbeats 8000000 in
/-- The pcg layer. -/
theorem layer_p (c : Dev nD)
    (h2 : W3 m ρ c (Proc.devRef .tc main_v2)
      = Cert.ReferenceIdeal.ReadP.val_main_v106 (F := F) (m ((c : Thread nD τ).loc main_arg2)) (m ((c : Thread nD τ).loc main_arg16))) :
    W15 m ρ c (Proc.devRef .tc main_v158)
      = Cert.ReferenceIdeal.ReadP.val_main_v158 (F := F) (m ((c : Thread nD τ).loc main_arg2)) (m ((c : Thread nD τ).loc main_arg7))
          (m ((c : Thread nD τ).loc main_arg8)) (m ((c : Thread nD τ).loc main_arg16)) (m ((c : Thread nD τ).loc main_arg17)) := by
  have e7 := W3_launch m ρ c main_arg7 (by decide) (by decide) (by decide)
  have e8 := W3_launch m ρ c main_arg8 (by decide) (by decide) (by decide)
  have e17 := W3_launch m ρ c main_arg17 (by decide) (by decide) (by decide)
  show StableHlo.after hostOps3_11 (StableHlo.after hostOps3_10 (StableHlo.after hostOps3_9 (StableHlo.after hostOps3_8
    (StableHlo.after hostOps3_7 (StableHlo.after hostOps3_6 (StableHlo.after hostOps3_5 (StableHlo.after hostOps3_4
    (StableHlo.after hostOps3_3 (StableHlo.after hostOps3_2 (StableHlo.after hostOps3_1 (StableHlo.after hostOps3 (W3 m ρ c))))))))))))
    (Proc.devRef .tc main_v158) = _
  generalize W3 m ρ c = V at h2 e7 e8 e17 ⊢
  simp only [hostOps3_11, hostOps3_10, hostOps3_9, hostOps3_8, hostOps3_7, hostOps3_6, hostOps3_5, hostOps3_4, hostOps3_3,
    hostOps3_2, hostOps3_1, hostOps3]
  after_results_simp
  after_results_rest
  simp only [TRef.ofBuf, TRef.toBuf, cast_eq]
  rw [h2, e7, e8, e17]
  rfl

end Cert.KernelIdeal.Tail

end
-- ==== Proof.Carry.lean ====
/-
  Bookkeeping between the stages: a buffer that later host operations do not write keeps its contents.
  The first two layers' results are still in place when the third layer has been computed, and so are the argument
  arrays the pair heads read.
-/
import proofs.«419983_j31860067402122_3_alg».proof.Proof.Layers

set_option maxRecDepth 16384

noncomputable section

namespace Cert.KernelIdeal.Carry

open Cert.KernelIdeal Cert.KernelIdeal.Gen Idealize.ShloMosaic Idealize.ShloMosaic.TcCoe Idealize.SL.Sem
open Idealize.ShloMosaic.StableHlo

/-- Closes a goal "an argument array that no region stages holds, once all three layers have been computed, what
    it held at launch": none of the host operations of the three layers writes it, and no region touches it. -/
macro "launch_at_W15 " m:term:max ρ:term:max c:term:max : tactic =>
  `(tactic| (
    refine Eq.trans ?_ (Tail.W3_launch $m $ρ $c _ (by decide) (by decide) (by decide))
    show StableHlo.after hostOps3_11 (StableHlo.after hostOps3_10 (StableHlo.after hostOps3_9 (StableHlo.after hostOps3_8
      (StableHlo.after hostOps3_7 (StableHlo.after hostOps3_6 (StableHlo.after hostOps3_5 (StableHlo.after hostOps3_4
      (StableHlo.after hostOps3_3 (StableHlo.after hostOps3_2 (StableHlo.after hostOps3_1 (StableHlo.after hostOps3
      (W3 $m $ρ $c)))))))))))) _ = _
    generalize W3 $m $ρ $c = V
    simp only [hostOps3_11, hostOps3_10, hostOps3_9, hostOps3_8, hostOps3_7, hostOps3_6, hostOps3_5, hostOps3_4,
      hostOps3_3, hostOps3_2, hostOps3_1, hostOps3]
    after_results_simp))

variable {F : FTy → Type} [FloatOps F]
variable (m : (ℓ : Loc nD τ sig) → Buf (Elt F) ℓ) (ρ : Dev nD → PrngReg)

set_option maxHeartbeats 4000000 in
/-- The mirna layer's result is untouched by the operations of the other two layers. -/
theorem W15_v54 (c : Dev nD) : W15 m ρ c (Proc.devRef .tc main_v54) = W7 m ρ c (Proc.devRef .tc main_v54) := by
  show StableHlo.after hostOps3_11 (StableHlo.after hostOps3_10 (StableHlo.after hostOps3_9 (StableHlo.after hostOps3_8
    (StableHlo.after hostOps3_7 (StableHlo.after hostOps3_6 (StableHlo.after hostOps3_5 (StableHlo.after hostOps3_4
    (W7 m ρ c)))))))) (Proc.devRef .tc main_v54) = _
  generalize W7 m ρ c = V
  simp only [hostOps3_11, hostOps3_10, hostOps3_9, hostOps3_8, hostOps3_7, hostOps3_6, hostOps3_5, hostOps3_4]
  after_results_simp

set_option maxHeartbeats 4000000 in
/-- The disease layer's result is untouched by the operations of the third layer. -/
theorem W15_v106 (c : Dev nD) : W15 m ρ c (Proc.devRef .tc main_v106) = W11 m ρ c (Proc.devRef .tc main_v106) := by
  show StableHlo.after hostOps3_11 (StableHlo.after hostOps3_10 (StableHlo.after hostOps3_9 (StableHlo.after hostOps3_8
    (W11 m ρ c)))) (Proc.devRef .tc main_v106) = _
  generalize W11 m ρ c = V
  simp only [hostOps3_11, hostOps3_10, hostOps3_9, hostOps3_8]
  after_results_simp

set_option maxHeartbeats 8000000 in
/-- The association head's index pairs, for one: as launched when the three layers have been computed. -/
example (c : Dev nD) : W15 m ρ c (Proc.devRef .tc main_arg11) = m ((c : Thread nD τ).loc main_arg11) := by
  launch_at_W15 m ρ c

end Cert.KernelIdeal.Carry

end
-- ==== Proof.LibPairHead.lean ====
/-
  Two facts about a pairwise scoring head, at the exact-arithmetic instance.

  1. Index normalisation. jnp's x[idx] first replaces a negative index i by i + n; on an array of non-negative
     indices that replacement is the identity.

  2. Two spellings of one score. For gathered rows A, B of shape [P, 128], a weight column w of shape [128, 1] and
     a bias b of shape [1]:
       sigmoid (sum over k of (A * B)[p, k] * w[k, 0] + b[0])
     written as an elementwise product with the broadcast weight row followed by a sum over the last axis, over
     [P]; and written as the matrix product (A * B) · w plus the broadcast bias over [P, 1], then reshaped to [P].
     Both are the same number at every p: the row sum starts from 0 and adds exactly the terms of the matrix
     product's contraction, and everything after the sum is applied entry by entry.
     The sigmoid is the printed 1 / (1 + exp (-x)).
-/
import Idealize.ShloMosaic.PureOps.Ideal.Laws
import Idealize.ShloMosaic.Lib.ValueIdx
import Idealize.ShloMosaic.Lib.IdealHost
import Idealize.ShloMosaic.Lib.Pipeline.Value
import Idealize.ShloMosaic.Lib.Affine
import proofs.«419983_j31860067402122_3_alg».proof.Proof.LibRowTile

open scoped BigOperators

namespace Cert.Lib

open Idealize.ShloMosaic Idealize.ShloMosaic.ValueIdx

/-- jnp's replacement of a negative index i by i + n is the identity on an array of non-negative indices. -/
theorem select_wrap_eq {s : Shape} (x y : IVec s 32) (hb : (⟨0, ![]⟩ : Shape).BroadcastsInDim s ![])
    (h : ∀ i, 0 ≤ (x i).toInt) :
    select (cmpi .slt x (broadcastInDim s ![] hb (constantI ⟨0, ![]⟩ 32 0#32))) (addi x y) x = x := by
  funext i
  rw [select_apply]
  have hc : cmpi .slt x (broadcastInDim s ![] hb (constantI ⟨0, ![]⟩ 32 0#32)) i = 0#1 := by
    apply eq_zero_of_ne_one
    show ¬ IntOp.cmpi .slt (x i) ((broadcastInDim s ![] hb (constantI ⟨0, ![]⟩ 32 0#32)) i) = 1#1
    rw [broadcastInDim_scalar_apply, IntOp.cmpi_slt]
    have := h i
    show ¬ (x i).toInt < (0#32 : BitVec 32).toInt
    rw [show (0#32 : BitVec 32).toInt = 0 from by decide]
    omega
  rw [hc, select_zero]

/-- The index over the [P]-index p with k put on the summed last axis is (p, k). -/
theorem lift_last {P K : Nat} (h : (⟨2, ![P, K]⟩ : Shape).Reduces [(1 : Fin 2)] ⟨1, ![P]⟩) (p : Fin P) (k : Fin K) :
    h.lift (ix1 p) k = ix2 p k := by
  funext c; apply Fin.ext
  show h.liftVal (ix1 p) k.val c = (ix2 p k c).val
  unfold Shape.Reduces.liftVal
  match c with
  | ⟨0, _⟩ => simp <;> rfl
  | ⟨1, _⟩ => simp <;> rfl

/-- The printed logistic 1 / (1 + exp (-x)) is applied entry by entry: equal entries in, equal entries out. -/
theorem logistic_congr {F : FTy → Type} [FloatOps F] {s t : Shape} {φ : FTy} (C X : FVec F s φ) (C' Y : FVec F t φ)
    (i : s.Idx) (j : t.Idx) (hC : C i = C' j) (hX : X i = Y j) :
    Host.divf C (addf C (Host.exp (Host.negf X))) i = Host.divf C' (addf C' (Host.exp (Host.negf Y))) j := by
  show FloatOps.hostDivf (C i) (FloatOps.addf (C i) (FloatOps.hostUnary .exp (FloatOps.hostNegf (X i))))
    = FloatOps.hostDivf (C' j) (FloatOps.addf (C' j) (FloatOps.hostUnary .exp (FloatOps.hostNegf (Y j))))
  rw [hC, hX]

/-- The two spellings of a pair head's score agree at every pair. -/
theorem pair_head_eq {P : Nat}
    (A B : FVec Ideal ⟨2, ![P, 128]⟩ .f32) (w : FVec Ideal ⟨2, ![128, 1]⟩ .f32) (b : FVec Ideal ⟨1, ![1]⟩ .f32)
    (c1 : FVec Ideal ⟨0, ![]⟩ .f32)
    (hsw : (⟨2, ![128, 1]⟩ : Shape).ShapeCasts ⟨1, ![128]⟩)
    (hb1 : (⟨1, ![128]⟩ : Shape).BroadcastsInDim ⟨2, ![1, 128]⟩ ![1])
    (hb2 : (⟨2, ![1, 128]⟩ : Shape).BroadcastsInDim ⟨2, ![P, 128]⟩ ![0, 1])
    (hred : (⟨2, ![P, 128]⟩ : Shape).ReducesTo [(1 : Fin 2)] ⟨1, ![P]⟩)
    (hred' : (⟨2, ![P, 128]⟩ : Shape).Reduces [(1 : Fin 2)] ⟨1, ![P]⟩)
    (hu : 0 < (⟨0, ![]⟩ : Shape).numel)
    (hsb : (⟨1, ![1]⟩ : Shape).ShapeCasts ⟨0, ![]⟩)
    (hbP : (⟨0, ![]⟩ : Shape).BroadcastsInDim ⟨1, ![P]⟩ ![])
    (d : DotDims ⟨2, ![P, 128]⟩ ⟨2, ![128, 1]⟩ ⟨2, ![P, 1]⟩) (hd : IsPlain d)
    (hr1 : (⟨1, ![1]⟩ : Shape).BroadcastsInDim ⟨2, ![1, 1]⟩ ![1])
    (hr2 : (⟨2, ![1, 1]⟩ : Shape).BroadcastsInDim ⟨2, ![P, 1]⟩ ![0, 1])
    (hbP1 : (⟨0, ![]⟩ : Shape).BroadcastsInDim ⟨2, ![P, 1]⟩ ![])
    (hsc : (⟨2, ![P, 1]⟩ : Shape).ShapeCasts ⟨1, ![P]⟩) :
    Host.divf (broadcastInDim ⟨1, ![P]⟩ ![] hbP c1)
      (addf (broadcastInDim ⟨1, ![P]⟩ ![] hbP c1)
        (Host.exp (Host.negf (addf
          (Host.reduceAdd
            (mulf (mulf A B) (broadcastInDim ⟨2, ![P, 128]⟩ ![0, 1] hb2
              (broadcastInDim ⟨2, ![1, 128]⟩ ![1] hb1 (shapeCast ⟨1, ![128]⟩ w hsw))))
            (constant ⟨0, ![]⟩ .f32 0x00000000#32) hred hu)
          (broadcastInDim ⟨1, ![P]⟩ ![] hbP (shapeCast ⟨0, ![]⟩ b hsb))))))
    = shapeCast ⟨1, ![P]⟩
        (Host.divf (broadcastInDim ⟨2, ![P, 1]⟩ ![] hbP1 c1)
          (addf (broadcastInDim ⟨2, ![P, 1]⟩ ![] hbP1 c1)
            (Host.exp (Host.negf (addf (Host.dotGeneral d none (mulf A B) w)
              (broadcastInDim ⟨2, ![P, 1]⟩ ![0, 1] hr2 (broadcastInDim ⟨2, ![1, 1]⟩ ![1] hr1 b))))))) hsc := by
  funext i
  obtain ⟨p, rfl⟩ : ∃ p : Fin P, i = ix1 p := ⟨i 0, eq_ix1 i⟩
  -- the reshape [P, 1] -> [P] reads entry (p, 0)
  rw [shapeCast_apply _ hsc (ix1 p) (ix2 p (0 : Fin 1)) (by
    rw [Shape.rowMajor_val_two, Shape.rowMajor_val_one]
    show p.val * 1 + 0 = p.val
    omega)]
  refine logistic_congr _ _ _ _ (ix1 p) (ix2 p (0 : Fin 1)) ?_ ?_
  · rw [broadcastInDim_scalar_apply, broadcastInDim_scalar_apply]
  · -- the scores before the logistic
    rw [addf_apply, addf_apply]
    congr 1
    · -- the sum
      rw [hostReduceAdd_apply, Ideal.hostReduceAdd_single hred hred', constant_apply, Ideal.ofBits_zero_f32, zero_add]
      simp only [Host.dotGeneral]
      rw [Ideal.dotGeneral_apply, hd.sum_eq]
      refine Finset.sum_congr rfl fun (k : Fin 128) _ => ?_
      rw [lift_last hred' p k]
      show (A (ix2 p k) * B (ix2 p k)) * _ = (A (ix2 p k) * B (ix2 p k)) * w (ix2 k (0 : Fin 1))
      congr 1
      rw [broadcastInDim_apply ![0, 1] hb2 _ (ix2 p k) (ix2 (0 : Fin 1) k) (fun a => by
        match a with
        | ⟨0, _⟩ => rfl
        | ⟨1, _⟩ => rfl)]
      rw [broadcastInDim_apply ![1] hb1 _ (ix2 (0 : Fin 1) k) (ix1 k) (fun a => by
        match a with
        | ⟨0, _⟩ => rfl)]
      exact shapeCast_apply w hsw (ix1 k) (ix2 k (0 : Fin 1)) (by
        rw [Shape.rowMajor_val_two, Shape.rowMajor_val_one]
        show k.val * 1 + 0 = k.val
        omega)
    · -- the bias
      rw [broadcastInDim_scalar_apply]
      rw [broadcastInDim_apply ![0, 1] hr2 _ (ix2 p (0 : Fin 1)) (ix2 (0 : Fin 1) (0 : Fin 1)) (fun a => by
        match a with
        | ⟨0, _⟩ => rfl
        | ⟨1, _⟩ => rfl)]
      rw [broadcastInDim_apply ![1] hr1 _ (ix2 (0 : Fin 1) (0 : Fin 1)) (ix1 (0 : Fin 1)) (fun a => by
        match a with
        | ⟨0, _⟩ => rfl)]
      exact shapeCast_apply b hsb ix0 (ix1 (0 : Fin 1)) (by
        rw [Shape.rowMajor_val_one]
        rfl)

/-- Reading a table's rows through a round trip to a narrower float format is reading the table: both format
    changes are the identity at this instance. -/
theorem gather_round_trip {s si t : Shape} (g : GatherDims s si t) (T : FVec Ideal s .f32) (J : IVec si 32)
    (h1 : FTy.bf16.bits < FTy.f32.bits) :
    (extf .f32 (Host.gather g (truncf .bf16 T h1) J) h1 : FVec Ideal t .f32) = Host.gather g T J := rfl

section Kernel

variable {F : FTy → Type} [FloatOps F]

/-- A pair head as the kernel spells it: rows of two tables (through bf16 and back) at the two columns of an array of
    index pairs, multiplied entry by entry and by the weight row, summed over the 128 columns, plus the bias, then
    the printed logistic. -/
def pairHeadK {P R1 R2 : Nat}
    (g1 : GatherDims ⟨2, ![R1, 128]⟩ ⟨2, ![P, 1]⟩ ⟨2, ![P, 128]⟩) (g2 : GatherDims ⟨2, ![R2, 128]⟩ ⟨2, ![P, 1]⟩ ⟨2, ![P, 128]⟩)
    (hlt : FTy.bf16.bits < FTy.f32.bits)
    (hs0 : (⟨2, ![P, 2]⟩ : Shape).Slices ![0, 0] ⟨2, ![P, 1]⟩) (hs1 : (⟨2, ![P, 2]⟩ : Shape).Slices ![0, 1] ⟨2, ![P, 1]⟩)
    (hsc : (⟨2, ![P, 1]⟩ : Shape).ShapeCasts ⟨1, ![P]⟩)
    (hbI : (⟨1, ![P]⟩ : Shape).BroadcastsInDim ⟨2, ![P, 1]⟩ ![0])
    (hsw : (⟨2, ![128, 1]⟩ : Shape).ShapeCasts ⟨1, ![128]⟩)
    (hb1 : (⟨1, ![128]⟩ : Shape).BroadcastsInDim ⟨2, ![1, 128]⟩ ![1])
    (hb2 : (⟨2, ![1, 128]⟩ : Shape).BroadcastsInDim ⟨2, ![P, 128]⟩ ![0, 1])
    (hred : (⟨2, ![P, 128]⟩ : Shape).ReducesTo [(1 : Fin 2)] ⟨1, ![P]⟩)
    (hu : 0 < (⟨0, ![]⟩ : Shape).numel)
    (hsb : (⟨1, ![1]⟩ : Shape).ShapeCasts ⟨0, ![]⟩)
    (hbP : (⟨0, ![]⟩ : Shape).BroadcastsInDim ⟨1, ![P]⟩ ![])
    (T1 : FVec F ⟨2, ![R1, 128]⟩ .f32) (T2 : FVec F ⟨2, ![R2, 128]⟩ .f32) (I : IVec ⟨2, ![P, 2]⟩ 32)
    (w : FVec F ⟨2, ![128, 1]⟩ .f32) (b : FVec F ⟨1, ![1]⟩ .f32) : FVec F ⟨1, ![P]⟩ .f32 :=
  Host.divf (broadcastInDim ⟨1, ![P]⟩ ![] hbP (constant ⟨0, ![]⟩ .f32 0x3F800000#32))
    (addf (broadcastInDim ⟨1, ![P]⟩ ![] hbP (constant ⟨0, ![]⟩ .f32 0x3F800000#32))
      (Host.exp (Host.negf (addf
        (Host.reduceAdd
          (mulf
            (mulf
              (extf .f32 (Host.gather g1 (truncf .bf16 T1 hlt)
                (broadcastInDim ⟨2, ![P, 1]⟩ ![0] hbI (shapeCast ⟨1, ![P]⟩ (extractStridedSlice ⟨2, ![P, 1]⟩ ![0, 0] I hs0) hsc))) hlt)
              (extf .f32 (Host.gather g2 (truncf .bf16 T2 hlt)
                (broadcastInDim ⟨2, ![P, 1]⟩ ![0] hbI (shapeCast ⟨1, ![P]⟩ (extractStridedSlice ⟨2, ![P, 1]⟩ ![0, 1] I hs1) hsc))) hlt))
            (broadcastInDim ⟨2, ![P, 128]⟩ ![0, 1] hb2 (broadcastInDim ⟨2, ![1, 128]⟩ ![1] hb1 (shapeCast ⟨1, ![128]⟩ w hsw))))
          (constant ⟨0, ![]⟩ .f32 0x00000000#32) hred hu)
        (broadcastInDim ⟨1, ![P]⟩ ![] hbP (shapeCast ⟨0, ![]⟩ b hsb))))))

end Kernel

/-- Every entry of a column of an array of non-negative pairs is non-negative. -/
theorem col_nonneg {P : Nat} (x : IVec ⟨2, ![P, 2]⟩ 32) (off : Fin 2 → Nat) (h1 : (⟨2, ![P, 2]⟩ : Shape).Slices off ⟨2, ![P, 1]⟩)
    (h2 : (⟨2, ![P, 1]⟩ : Shape).ShapeCasts ⟨1, ![P]⟩) (hx : ∀ i, 0 ≤ (x i).toInt) (i : (⟨1, ![P]⟩ : Shape).Idx) :
    0 ≤ ((shapeCast ⟨1, ![P]⟩ (extractStridedSlice ⟨2, ![P, 1]⟩ off x h1) h2) i).toInt := by
  unfold shapeCast extractStridedSlice
  exact hx _

/-- The kernel's pair head is the reference's: the same rows (the reference's replacement of negative indices does
    nothing on non-negative pairs; the bf16 round trip is the identity), and the same score in its two spellings. -/
theorem pairHeadK_eq {P R1 R2 : Nat}
    (g1 : GatherDims ⟨2, ![R1, 128]⟩ ⟨2, ![P, 1]⟩ ⟨2, ![P, 128]⟩) (g2 : GatherDims ⟨2, ![R2, 128]⟩ ⟨2, ![P, 1]⟩ ⟨2, ![P, 128]⟩)
    (hlt : FTy.bf16.bits < FTy.f32.bits)
    (hs0 : (⟨2, ![P, 2]⟩ : Shape).Slices ![0, 0] ⟨2, ![P, 1]⟩) (hs1 : (⟨2, ![P, 2]⟩ : Shape).Slices ![0, 1] ⟨2, ![P, 1]⟩)
    (hsc : (⟨2, ![P, 1]⟩ : Shape).ShapeCasts ⟨1, ![P]⟩)
    (hbI : (⟨1, ![P]⟩ : Shape).BroadcastsInDim ⟨2, ![P, 1]⟩ ![0])
    (hsw : (⟨2, ![128, 1]⟩ : Shape).ShapeCasts ⟨1, ![128]⟩)
    (hb1 : (⟨1, ![128]⟩ : Shape).BroadcastsInDim ⟨2, ![1, 128]⟩ ![1])
    (hb2 : (⟨2, ![1, 128]⟩ : Shape).BroadcastsInDim ⟨2, ![P, 128]⟩ ![0, 1])
    (hred : (⟨2, ![P, 128]⟩ : Shape).ReducesTo [(1 : Fin 2)] ⟨1, ![P]⟩)
    (hred' : (⟨2, ![P, 128]⟩ : Shape).Reduces [(1 : Fin 2)] ⟨1, ![P]⟩)
    (hu : 0 < (⟨0, ![]⟩ : Shape).numel)
    (hsb : (⟨1, ![1]⟩ : Shape).ShapeCasts ⟨0, ![]⟩)
    (hbP : (⟨0, ![]⟩ : Shape).BroadcastsInDim ⟨1, ![P]⟩ ![])
    (d : DotDims ⟨2, ![P, 128]⟩ ⟨2, ![128, 1]⟩ ⟨2, ![P, 1]⟩) (hd : IsPlain d)
    (hr1 : (⟨1, ![1]⟩ : Shape).BroadcastsInDim ⟨2, ![1, 1]⟩ ![1])
    (hr2 : (⟨2, ![1, 1]⟩ : Shape).BroadcastsInDim ⟨2, ![P, 1]⟩ ![0, 1])
    (hbP1 : (⟨0, ![]⟩ : Shape).BroadcastsInDim ⟨2, ![P, 1]⟩ ![])
    (hsc' : (⟨2, ![P, 1]⟩ : Shape).ShapeCasts ⟨1, ![P]⟩)
    (n1 n2 : BitVec 32)
    (T1 : FVec Ideal ⟨2, ![R1, 128]⟩ .f32) (T2 : FVec Ideal ⟨2, ![R2, 128]⟩ .f32) (I : IVec ⟨2, ![P, 2]⟩ 32)
    (w : FVec Ideal ⟨2, ![128, 1]⟩ .f32) (b : FVec Ideal ⟨1, ![1]⟩ .f32) (hI : ∀ i, 0 ≤ (I i).toInt) :
    pairHeadK (F := Ideal) g1 g2 hlt hs0 hs1 hsc hbI hsw hb1 hb2 hred hu hsb hbP T1 T2 I w b
    = shapeCast ⟨1, ![P]⟩
        (Host.divf (broadcastInDim ⟨2, ![P, 1]⟩ ![] hbP1 (constant ⟨0, ![]⟩ .f32 0x3F800000#32))
          (addf (broadcastInDim ⟨2, ![P, 1]⟩ ![] hbP1 (constant ⟨0, ![]⟩ .f32 0x3F800000#32))
            (Host.exp (Host.negf (addf
              (Host.dotGeneral d none
                (mulf
                  (Host.gather g1 T1 (broadcastInDim ⟨2, ![P, 1]⟩ ![0] hbI
                    (select
                      (cmpi .slt (shapeCast ⟨1, ![P]⟩ (extractStridedSlice ⟨2, ![P, 1]⟩ ![0, 0] I hs0) hsc)
                        (broadcastInDim ⟨1, ![P]⟩ ![] hbP (constantI ⟨0, ![]⟩ 32 0#32)))
                      (addi (shapeCast ⟨1, ![P]⟩ (extractStridedSlice ⟨2, ![P, 1]⟩ ![0, 0] I hs0) hsc)
                        (broadcastInDim ⟨1, ![P]⟩ ![] hbP (constantI ⟨0, ![]⟩ 32 n1)))
                      (shapeCast ⟨1, ![P]⟩ (extractStridedSlice ⟨2, ![P, 1]⟩ ![0, 0] I hs0) hsc))))
                  (Host.gather g2 T2 (broadcastInDim ⟨2, ![P, 1]⟩ ![0] hbI
                    (select
                      (cmpi .slt (shapeCast ⟨1, ![P]⟩ (extractStridedSlice ⟨2, ![P, 1]⟩ ![0, 1] I hs1) hsc)
                        (broadcastInDim ⟨1, ![P]⟩ ![] hbP (constantI ⟨0, ![]⟩ 32 0#32)))
                      (addi (shapeCast ⟨1, ![P]⟩ (extractStridedSlice ⟨2, ![P, 1]⟩ ![0, 1] I hs1) hsc)
                        (broadcastInDim ⟨1, ![P]⟩ ![] hbP (constantI ⟨0, ![]⟩ 32 n2)))
                      (shapeCast ⟨1, ![P]⟩ (extractStridedSlice ⟨2, ![P, 1]⟩ ![0, 1] I hs1) hsc)))))
                w)
              (broadcastInDim ⟨2, ![P, 1]⟩ ![0, 1] hr2 (broadcastInDim ⟨2, ![1, 1]⟩ ![1] hr1 b))))))) hsc' := by
  rw [select_wrap_eq _ _ hbP (col_nonneg I ![0, 0] hs0 hsc hI), select_wrap_eq _ _ hbP (col_nonneg I ![0, 1] hs1 hsc hI)]
  unfold pairHeadK
  rw [gather_round_trip, gather_round_trip]
  exact pair_head_eq _ _ w b _ hsw hb1 hb2 hred hred' hu hsb hbP d hd hr1 hr2 hbP1 hsc'

end Cert.Lib
-- ==== Proof.HeadsCommon.lean ====
/-
  What the three pair heads share: reading a head's result buffer off the host operations that follow the three
  graph-convolution layers, as a term over the contents found when the layers have been computed.
-/
import proofs.«419983_j31860067402122_3_alg».proof.Proof.Layers
import proofs.«419983_j31860067402122_3_alg».proof.Proof.LibPairHead

set_option maxRecDepth 16384

noncomputable section

namespace Cert.KernelIdeal.Heads

open Cert.KernelIdeal Cert.KernelIdeal.Gen Idealize.ShloMosaic Idealize.ShloMosaic.TcCoe Idealize.SL.Sem
open Idealize.ShloMosaic.StableHlo

/-- Lays a head's result buffer out as the host operations' term over the contents found when the three layers have
    been computed (named V), the typed references of the called gathers removed. -/
macro "read_head " r:term " over " m:term:max ρ:term:max c:term:max : tactic =>
  `(tactic| (
    show StableHlo.after hostOps3_24 (StableHlo.after hostOps3_23 (StableHlo.after hostOps3_22 (StableHlo.after hostOps3_21
      (StableHlo.after hostOps3_20 (StableHlo.after hostOps3_19 (StableHlo.after hostOps3_18 (StableHlo.after hostOps3_17
      (StableHlo.after hostOps3_16 (StableHlo.after hostOps3_15 (StableHlo.after hostOps3_14 (StableHlo.after hostOps3_13
      (StableHlo.after hostOps3_12 (W15 $m $ρ $c))))))))))))) (Proc.devRef .tc $r) = _
    generalize W15 $m $ρ $c = V
    simp only [hostOps3_24, hostOps3_23, hostOps3_22, hostOps3_21, hostOps3_20, hostOps3_19, hostOps3_18, hostOps3_17,
      hostOps3_16, hostOps3_15, hostOps3_14, hostOps3_13, hostOps3_12]
    after_results_simp
    simp only [TRef.ofBuf, TRef.toBuf, cast_eq]))

end Cert.KernelIdeal.Heads

end
-- ==== Proof.HeadAssoc.lean ====
/-
  The association head (mirna with disease): the kernel takes rows of two hidden tables (rounded to bf16 and back: the identity here) at a pair's
  two indices, multiplies them entry by entry, multiplies by the weight row, sums over the 128 columns, adds the bias
  and applies the logistic; the reference takes the same rows after replacing a negative index i by i + n,
  multiplies them, takes the matrix product with the weight column, adds the bias, applies the logistic and
  reshapes [P, 1] to [P]. Under the precondition every pair index is non-negative, so the index replacement does
  nothing and both read the same rows; the two spellings of the score then agree at every pair.
-/
import proofs.«419983_j31860067402122_3_alg».proof.Proof.HeadsCommon
import proofs.«419983_j31860067402122_3_alg».proof.Proof.RefStages

set_option maxRecDepth 16384

noncomputable section

namespace Cert.KernelIdeal.Heads

open Cert.KernelIdeal Cert.KernelIdeal.Gen Idealize.ShloMosaic Idealize.ShloMosaic.TcCoe Idealize.SL.Sem
open Idealize.ShloMosaic.StableHlo

section Read
variable {F : FTy → Type} [FloatOps F]
variable (m : (ℓ : Loc nD τ sig) → Buf (Elt F) ℓ) (ρ : Dev nD → PrngReg)

set_option maxHeartbeats 8000000 in
/-- The head's result buffer, at any instance, is the kernel's spelling of a pair head over the two hidden tables, the
    index pairs, the weight column and the bias found when the three layers have been computed. -/
theorem kernel_assoc (c : Dev nD) :
    W28 m ρ c (Proc.devRef .tc main_v184)
      = Cert.Lib.pairHeadK gather_S2048x128_S250000x1_S250000x128_1_0_n_n_0_1_1128
          gather_S1024x128_S250000x1_S250000x128_1_0_n_n_0_1_1128 bitsLt_bf16_f32
          slices_S250000x2_S250000x1_0_0 slices_S250000x2_S250000x1_0_1 shapeCasts_S250000x1_S250000 bcast_S250000_S250000x1_0
          shapeCasts_S128x1_S128 bcast_S128_S1x128_1 bcast_S1x128_S250000x128_0_1 reducesTo_S250000x128_S250000_d1 h_S_
          shapeCasts_S1_S_ bcast_S_S250000
          (W15 m ρ c (Proc.devRef .tc main_v54)) (W15 m ρ c (Proc.devRef .tc main_v106)) (W15 m ρ c (Proc.devRef .tc main_arg11))
          (W15 m ρ c (Proc.devRef .tc main_arg18)) (W15 m ρ c (Proc.devRef .tc main_arg19)) := by
  read_head main_v184 over m ρ c
  rfl

end Read

variable (m : (ℓ : Loc nD τ sig) → Buf (Elt Ideal) ℓ) (ρ : Dev nD → PrngReg)

set_option maxHeartbeats 8000000 in
/-- At the exact-arithmetic instance the head's result is the reference's last stage. -/
theorem head_assoc (c : Dev nD)
    (hm : W15 m ρ c (Proc.devRef .tc main_v54) = Cert.ReferenceIdeal.ReadP.val_main_v52 (F := Ideal) (m ((c : Thread nD τ).loc main_arg0)) (m ((c : Thread nD τ).loc main_arg3)) (m ((c : Thread nD τ).loc main_arg4)) (m ((c : Thread nD τ).loc main_arg12)) (m ((c : Thread nD τ).loc main_arg13)))
    (hd : W15 m ρ c (Proc.devRef .tc main_v106) = Cert.ReferenceIdeal.ReadP.val_main_v105 (F := Ideal) (m ((c : Thread nD τ).loc main_arg1)) (m ((c : Thread nD τ).loc main_arg5)) (m ((c : Thread nD τ).loc main_arg6)) (m ((c : Thread nD τ).loc main_arg14)) (m ((c : Thread nD τ).loc main_arg15)))
    (ei : W15 m ρ c (Proc.devRef .tc main_arg11) = (m ((c : Thread nD τ).loc main_arg11)))
    (ew : W15 m ρ c (Proc.devRef .tc main_arg18) = (m ((c : Thread nD τ).loc main_arg18)))
    (eb : W15 m ρ c (Proc.devRef .tc main_arg19) = (m ((c : Thread nD τ).loc main_arg19)))
    (hnn : ∀ i, 0 ≤ ((m ((c : Thread nD τ).loc main_arg11)) i).toInt) :
    W28 m ρ c (Proc.devRef .tc main_v184)
      = Cert.ReferenceIdeal.ReadP.val_main_v226 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg18)) (m ((c : Thread nD τ).loc main_arg19)) := by
  rw [kernel_assoc m ρ c, hm, hd, ei, ew, eb]
  unfold Cert.ReferenceIdeal.ReadP.val_main_v226 Cert.ReferenceIdeal.ReadP.val_main_v225 Cert.ReferenceIdeal.ReadP.val_main_v224 Cert.ReferenceIdeal.ReadP.val_main_v223 Cert.ReferenceIdeal.ReadP.val_main_v222 Cert.ReferenceIdeal.ReadP.val_main_v221 Cert.ReferenceIdeal.ReadP.val_main_v220 Cert.ReferenceIdeal.ReadP.val_main_v219 Cert.ReferenceIdeal.ReadP.val_main_v218 Cert.ReferenceIdeal.ReadP.val_main_v217 Cert.ReferenceIdeal.ReadP.val_main_v216 Cert.ReferenceIdeal.ReadP.val_main_v177 Cert.ReferenceIdeal.ReadP.val_main_v167 Cert.ReferenceIdeal.ReadP.val_main_v176 Cert.ReferenceIdeal.ReadP.val_main_v166 Cert.ReferenceIdeal.ReadP.val_main_v175 Cert.ReferenceIdeal.ReadP.val_main_cst_46 Cert.ReferenceIdeal.ReadP.val_main_cst_47 Cert.ReferenceIdeal.ReadP.val_main_v165 Cert.ReferenceIdeal.ReadP.val_main_v162 Cert.ReferenceIdeal.ReadP.val_main_v164 Cert.ReferenceIdeal.ReadP.val_main_v161 Cert.ReferenceIdeal.ReadP.val_main_c_34 Cert.ReferenceIdeal.ReadP.val_main_v163 Cert.ReferenceIdeal.ReadP.val_main_c_35 Cert.ReferenceIdeal.ReadP.val_main_v160 Cert.ReferenceIdeal.ReadP.val_main_v159 Cert.ReferenceIdeal.ReadP.val_main_v174 Cert.ReferenceIdeal.ReadP.val_main_v171 Cert.ReferenceIdeal.ReadP.val_main_v173 Cert.ReferenceIdeal.ReadP.val_main_v170 Cert.ReferenceIdeal.ReadP.val_main_c_36 Cert.ReferenceIdeal.ReadP.val_main_v172 Cert.ReferenceIdeal.ReadP.val_main_c_37 Cert.ReferenceIdeal.ReadP.val_main_v169 Cert.ReferenceIdeal.ReadP.val_main_v168
  -- the two hidden tables are the same terms on both sides: name them, so that nothing below opens them
  generalize Cert.ReferenceIdeal.ReadP.val_main_v52 (F := Ideal) (m ((c : Thread nD τ).loc main_arg0)) (m ((c : Thread nD τ).loc main_arg3)) (m ((c : Thread nD τ).loc main_arg4)) (m ((c : Thread nD τ).loc main_arg12)) (m ((c : Thread nD τ).loc main_arg13)) = T1
  generalize Cert.ReferenceIdeal.ReadP.val_main_v105 (F := Ideal) (m ((c : Thread nD τ).loc main_arg1)) (m ((c : Thread nD τ).loc main_arg5)) (m ((c : Thread nD τ).loc main_arg6)) (m ((c : Thread nD τ).loc main_arg14)) (m ((c : Thread nD τ).loc main_arg15)) = T2
  exact Cert.Lib.pairHeadK_eq _ _ _ _ _ _ _ _ _ _ _ (by decide) _ _ _ _ ⟨rfl, rfl, rfl, rfl, rfl, rfl, rfl, rfl⟩ _ _ _ _
    _ _ T1 T2 _ _ _ hnn

end Cert.KernelIdeal.Heads

end
-- ==== Proof.HeadMp.lean ====
/-
  The mirna–pcg head: the kernel takes rows of two hidden tables (rounded to bf16 and back: the identity here) at a pair's
  two indices, multiplies them entry by entry, multiplies by the weight row, sums over the 128 columns, adds the bias
  and applies the logistic; the reference takes the same rows after replacing a negative index i by i + n,
  multiplies them, takes the matrix product with the weight column, adds the bias, applies the logistic and
  reshapes [P, 1] to [P]. Under the precondition every pair index is non-negative, so the index replacement does
  nothing and both read the same rows; the two spellings of the score then agree at every pair.
-/
import proofs.«419983_j31860067402122_3_alg».proof.Proof.HeadsCommon
import proofs.«419983_j31860067402122_3_alg».proof.Proof.RefStages

set_option maxRecDepth 16384

noncomputable section

namespace Cert.KernelIdeal.Heads

open Cert.KernelIdeal Cert.KernelIdeal.Gen Idealize.ShloMosaic Idealize.ShloMosaic.TcCoe Idealize.SL.Sem
open Idealize.ShloMosaic.StableHlo

section Read
variable {F : FTy → Type} [FloatOps F]
variable (m : (ℓ : Loc nD τ sig) → Buf (Elt F) ℓ) (ρ : Dev nD → PrngReg)

set_option maxHeartbeats 8000000 in
/-- The head's result buffer, at any instance, is the kernel's spelling of a pair head over the two hidden tables, the
    index pairs, the weight column and the bias found when the three layers have been computed. -/
theorem kernel_mp (c : Dev nD) :
    W28 m ρ c (Proc.devRef .tc main_v207)
      = Cert.Lib.pairHeadK gather_S2048x128_S500000x1_S500000x128_1_0_n_n_0_1_1128
          gather_S50000x128_S500000x1_S500000x128_1_0_n_n_0_1_1128 bitsLt_bf16_f32
          slices_S500000x2_S500000x1_0_0 slices_S500000x2_S500000x1_0_1 shapeCasts_S500000x1_S500000 bcast_S500000_S500000x1_0
          shapeCasts_S128x1_S128 bcast_S128_S1x128_1 bcast_S1x128_S500000x128_0_1 reducesTo_S500000x128_S500000_d1 h_S_
          shapeCasts_S1_S_ bcast_S_S500000
          (W15 m ρ c (Proc.devRef .tc main_v54)) (W15 m ρ c (Proc.devRef .tc main_v158)) (W15 m ρ c (Proc.devRef .tc main_arg9))
          (W15 m ρ c (Proc.devRef .tc main_arg20)) (W15 m ρ c (Proc.devRef .tc main_arg21)) := by
  read_head main_v207 over m ρ c
  rfl

end Read

variable (m : (ℓ : Loc nD τ sig) → Buf (Elt Ideal) ℓ) (ρ : Dev nD → PrngReg)

set_option maxHeartbeats 8000000 in
/-- At the exact-arithmetic instance the head's result is the reference's last stage. -/
theorem head_mp (c : Dev nD)
    (hm : W15 m ρ c (Proc.devRef .tc main_v54) = Cert.ReferenceIdeal.ReadP.val_main_v52 (F := Ideal) (m ((c : Thread nD τ).loc main_arg0)) (m ((c : Thread nD τ).loc main_arg3)) (m ((c : Thread nD τ).loc main_arg4)) (m ((c : Thread nD τ).loc main_arg12)) (m ((c : Thread nD τ).loc main_arg13)))
    (hp : W15 m ρ c (Proc.devRef .tc main_v158) = Cert.ReferenceIdeal.ReadP.val_main_v158 (F := Ideal) (m ((c : Thread nD τ).loc main_arg2)) (m ((c : Thread nD τ).loc main_arg7)) (m ((c : Thread nD τ).loc main_arg8)) (m ((c : Thread nD τ).loc main_arg16)) (m ((c : Thread nD τ).loc main_arg17)))
    (ei : W15 m ρ c (Proc.devRef .tc main_arg9) = (m ((c : Thread nD τ).loc main_arg9)))
    (ew : W15 m ρ c (Proc.devRef .tc main_arg20) = (m ((c : Thread nD τ).loc main_arg20)))
    (eb : W15 m ρ c (Proc.devRef .tc main_arg21) = (m ((c : Thread nD τ).loc main_arg21)))
    (hnn : ∀ i, 0 ≤ ((m ((c : Thread nD τ).loc main_arg9)) i).toInt) :
    W28 m ρ c (Proc.devRef .tc main_v207)
      = Cert.ReferenceIdeal.ReadP.val_main_v237 (F := Ideal) (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg12)) (m ((c : Thread nD τ).loc main_arg13)) (m ((c : Thread nD τ).loc main_arg16)) (m ((c : Thread nD τ).loc main_arg17)) (m ((c : Thread nD τ).loc main_arg20)) (m ((c : Thread nD τ).loc main_arg21)) := by
  rw [kernel_mp m ρ c, hm, hp, ei, ew, eb]
  unfold Cert.ReferenceIdeal.ReadP.val_main_v237 Cert.ReferenceIdeal.ReadP.val_main_v236 Cert.ReferenceIdeal.ReadP.val_main_v235 Cert.ReferenceIdeal.ReadP.val_main_v234 Cert.ReferenceIdeal.ReadP.val_main_v233 Cert.ReferenceIdeal.ReadP.val_main_v232 Cert.ReferenceIdeal.ReadP.val_main_v231 Cert.ReferenceIdeal.ReadP.val_main_v230 Cert.ReferenceIdeal.ReadP.val_main_v229 Cert.ReferenceIdeal.ReadP.val_main_v228 Cert.ReferenceIdeal.ReadP.val_main_v227 Cert.ReferenceIdeal.ReadP.val_main_v196 Cert.ReferenceIdeal.ReadP.val_main_v186 Cert.ReferenceIdeal.ReadP.val_main_v195 Cert.ReferenceIdeal.ReadP.val_main_v185 Cert.ReferenceIdeal.ReadP.val_main_v194 Cert.ReferenceIdeal.ReadP.val_main_cst_48 Cert.ReferenceIdeal.ReadP.val_main_cst_49 Cert.ReferenceIdeal.ReadP.val_main_v184 Cert.ReferenceIdeal.ReadP.val_main_v181 Cert.ReferenceIdeal.ReadP.val_main_v183 Cert.ReferenceIdeal.ReadP.val_main_v180 Cert.ReferenceIdeal.ReadP.val_main_c_38 Cert.ReferenceIdeal.ReadP.val_main_v182 Cert.ReferenceIdeal.ReadP.val_main_c_39 Cert.ReferenceIdeal.ReadP.val_main_v179 Cert.ReferenceIdeal.ReadP.val_main_v178 Cert.ReferenceIdeal.ReadP.val_main_v193 Cert.ReferenceIdeal.ReadP.val_main_v190 Cert.ReferenceIdeal.ReadP.val_main_v192 Cert.ReferenceIdeal.ReadP.val_main_v189 Cert.ReferenceIdeal.ReadP.val_main_c_40 Cert.ReferenceIdeal.ReadP.val_main_v191 Cert.ReferenceIdeal.ReadP.val_main_c_41 Cert.ReferenceIdeal.ReadP.val_main_v188 Cert.ReferenceIdeal.ReadP.val_main_v187
  -- the two hidden tables are the same terms on both sides: name them, so that nothing below opens them
  generalize Cert.ReferenceIdeal.ReadP.val_main_v52 (F := Ideal) (m ((c : Thread nD τ).loc main_arg0)) (m ((c : Thread nD τ).loc main_arg3)) (m ((c : Thread nD τ).loc main_arg4)) (m ((c : Thread nD τ).loc main_arg12)) (m ((c : Thread nD τ).loc main_arg13)) = T1
  generalize Cert.ReferenceIdeal.ReadP.val_main_v158 (F := Ideal) (m ((c : Thread nD τ).loc main_arg2)) (m ((c : Thread nD τ).loc main_arg7)) (m ((c : Thread nD τ).loc main_arg8)) (m ((c : Thread nD τ).loc main_arg16)) (m ((c : Thread nD τ).loc main_arg17)) = T2
  exact Cert.Lib.pairHeadK_eq _ _ _ _ _ _ _ _ _ _ _ (by decide) _ _ _ _ ⟨rfl, rfl, rfl, rfl, rfl, rfl, rfl, rfl⟩ _ _ _ _
    _ _ T1 T2 _ _ _ hnn

end Cert.KernelIdeal.Heads

end
-- ==== Proof.HeadDp.lean ====
/-
  The disease–pcg head: the kernel takes rows of two hidden tables (rounded to bf16 and back: the identity here) at a pair's
  two indices, multiplies them entry by entry, multiplies by the weight row, sums over the 128 columns, adds the bias
  and applies the logistic; the reference takes the same rows after replacing a negative index i by i + n,
  multiplies them, takes the matrix product with the weight column, adds the bias, applies the logistic and
  reshapes [P, 1] to [P]. Under the precondition every pair index is non-negative, so the index replacement does
  nothing and both read the same rows; the two spellings of the score then agree at every pair.
-/
import proofs.«419983_j31860067402122_3_alg».proof.Proof.HeadsCommon
import proofs.«419983_j31860067402122_3_alg».proof.Proof.RefStages

set_option maxRecDepth 16384

noncomputable section

namespace Cert.KernelIdeal.Heads

open Cert.KernelIdeal Cert.KernelIdeal.Gen Idealize.ShloMosaic Idealize.ShloMosaic.TcCoe Idealize.SL.Sem
open Idealize.ShloMosaic.StableHlo

section Read
variable {F : FTy → Type} [FloatOps F]
variable (m : (ℓ : Loc nD τ sig) → Buf (Elt F) ℓ) (ρ : Dev nD → PrngReg)

set_option maxHeartbeats 8000000 in
/-- The head's result buffer, at any instance, is the kernel's spelling of a pair head over the two hidden tables, the
    index pairs, the weight column and the bias found when the three layers have been computed. -/
theorem kernel_dp (c : Dev nD) :
    W28 m ρ c (Proc.devRef .tc main_v230)
      = Cert.Lib.pairHeadK gather_S1024x128_S500000x1_S500000x128_1_0_n_n_0_1_1128
          gather_S50000x128_S500000x1_S500000x128_1_0_n_n_0_1_1128 bitsLt_bf16_f32
          slices_S500000x2_S500000x1_0_0 slices_S500000x2_S500000x1_0_1 shapeCasts_S500000x1_S500000 bcast_S500000_S500000x1_0
          shapeCasts_S128x1_S128 bcast_S128_S1x128_1 bcast_S1x128_S500000x128_0_1 reducesTo_S500000x128_S500000_d1 h_S_
          shapeCasts_S1_S_ bcast_S_S500000
          (W15 m ρ c (Proc.devRef .tc main_v106)) (W15 m ρ c (Proc.devRef .tc main_v158)) (W15 m ρ c (Proc.devRef .tc main_arg10))
          (W15 m ρ c (Proc.devRef .tc main_arg22)) (W15 m ρ c (Proc.devRef .tc main_arg23)) := by
  read_head main_v230 over m ρ c
  rfl

end Read

variable (m : (ℓ : Loc nD τ sig) → Buf (Elt Ideal) ℓ) (ρ : Dev nD → PrngReg)

set_option maxHeartbeats 8000000 in
/-- At the exact-arithmetic instance the head's result is the reference's last stage. -/
theorem head_dp (c : Dev nD)
    (hd : W15 m ρ c (Proc.devRef .tc main_v106) = Cert.ReferenceIdeal.ReadP.val_main_v105 (F := Ideal) (m ((c : Thread nD τ).loc main_arg1)) (m ((c : Thread nD τ).loc main_arg5)) (m ((c : Thread nD τ).loc main_arg6)) (m ((c : Thread nD τ).loc main_arg14)) (m ((c : Thread nD τ).loc main_arg15)))
    (hp : W15 m ρ c (Proc.devRef .tc main_v158) = Cert.ReferenceIdeal.ReadP.val_main_v158 (F := Ideal) (m ((c : Thread nD τ).loc main_arg2)) (m ((c : Thread nD τ).loc main_arg7)) (m ((c : Thread nD τ).loc main_arg8)) (m ((c : Thread nD τ).loc main_arg16)) (m ((c : Thread nD τ).loc main_arg17)))
    (ei : W15 m ρ c (Proc.devRef .tc main_arg10) = (m ((c : Thread nD τ).loc main_arg10)))
    (ew : W15 m ρ c (Proc.devRef .tc main_arg22) = (m ((c : Thread nD τ).loc main_arg22)))
    (eb : W15 m ρ c (Proc.devRef .tc main_arg23) = (m ((c : Thread nD τ).loc main_arg23)))
    (hnn : ∀ i, 0 ≤ ((m ((c : Thread nD τ).loc main_arg10)) i).toInt) :
    W28 m ρ c (Proc.devRef .tc main_v230)
      = Cert.ReferenceIdeal.ReadP.val_main_v248 (F := Ideal) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg14)) (m ((c : Thread nD τ).loc main_arg15)) (m ((c : Thread nD τ).loc main_arg16)) (m ((c : Thread nD τ).loc main_arg17)) (m ((c : Thread nD τ).loc main_arg22)) (m ((c : Thread nD τ).loc main_arg23)) := by
  rw [kernel_dp m ρ c, hd, hp, ei, ew, eb]
  unfold Cert.ReferenceIdeal.ReadP.val_main_v248 Cert.ReferenceIdeal.ReadP.val_main_v247 Cert.ReferenceIdeal.ReadP.val_main_v246 Cert.ReferenceIdeal.ReadP.val_main_v245 Cert.ReferenceIdeal.ReadP.val_main_v244 Cert.ReferenceIdeal.ReadP.val_main_v243 Cert.ReferenceIdeal.ReadP.val_main_v242 Cert.ReferenceIdeal.ReadP.val_main_v241 Cert.ReferenceIdeal.ReadP.val_main_v240 Cert.ReferenceIdeal.ReadP.val_main_v239 Cert.ReferenceIdeal.ReadP.val_main_v238 Cert.ReferenceIdeal.ReadP.val_main_v215 Cert.ReferenceIdeal.ReadP.val_main_v205 Cert.ReferenceIdeal.ReadP.val_main_v214 Cert.ReferenceIdeal.ReadP.val_main_v204 Cert.ReferenceIdeal.ReadP.val_main_v213 Cert.ReferenceIdeal.ReadP.val_main_cst_50 Cert.ReferenceIdeal.ReadP.val_main_cst_51 Cert.ReferenceIdeal.ReadP.val_main_v203 Cert.ReferenceIdeal.ReadP.val_main_v200 Cert.ReferenceIdeal.ReadP.val_main_v202 Cert.ReferenceIdeal.ReadP.val_main_v199 Cert.ReferenceIdeal.ReadP.val_main_c_42 Cert.ReferenceIdeal.ReadP.val_main_v201 Cert.ReferenceIdeal.ReadP.val_main_c_43 Cert.ReferenceIdeal.ReadP.val_main_v198 Cert.ReferenceIdeal.ReadP.val_main_v197 Cert.ReferenceIdeal.ReadP.val_main_v212 Cert.ReferenceIdeal.ReadP.val_main_v209 Cert.ReferenceIdeal.ReadP.val_main_v211 Cert.ReferenceIdeal.ReadP.val_main_v208 Cert.ReferenceIdeal.ReadP.val_main_c_44 Cert.ReferenceIdeal.ReadP.val_main_v210 Cert.ReferenceIdeal.ReadP.val_main_c_45 Cert.ReferenceIdeal.ReadP.val_main_v207 Cert.ReferenceIdeal.ReadP.val_main_v206
  -- the two hidden tables are the same terms on both sides: name them, so that nothing below opens them
  generalize Cert.ReferenceIdeal.ReadP.val_main_v105 (F := Ideal) (m ((c : Thread nD τ).loc main_arg1)) (m ((c : Thread nD τ).loc main_arg5)) (m ((c : Thread nD τ).loc main_arg6)) (m ((c : Thread nD τ).loc main_arg14)) (m ((c : Thread nD τ).loc main_arg15)) = T1
  generalize Cert.ReferenceIdeal.ReadP.val_main_v158 (F := Ideal) (m ((c : Thread nD τ).loc main_arg2)) (m ((c : Thread nD τ).loc main_arg7)) (m ((c : Thread nD τ).loc main_arg8)) (m ((c : Thread nD τ).loc main_arg16)) (m ((c : Thread nD τ).loc main_arg17)) = T2
  exact Cert.Lib.pairHeadK_eq _ _ _ _ _ _ _ _ _ _ _ (by decide) _ _ _ _ ⟨rfl, rfl, rfl, rfl, rfl, rfl, rfl, rfl⟩ _ _ _ _
    _ _ T1 T2 _ _ _ hnn

end Cert.KernelIdeal.Heads

end
-- ==== Proof.Results.lean ====
/-
  The kernel's three results as the reference's stage functions of the launch memory.

  Each region's output is the whole matrix product (the regions' value), which is what the reference's own product
  stage computes; so each graph-convolution layer's result is the reference's layer stage, those results are still
  in place when the heads read them, and each head's score is the reference's last stage — under the precondition's
  non-negative pair indices.
-/
import proofs.«419983_j31860067402122_3_alg».proof.Proof.XwValue
import proofs.«419983_j31860067402122_3_alg».proof.Proof.Carry
import proofs.«419983_j31860067402122_3_alg».proof.Proof.HeadAssoc
import proofs.«419983_j31860067402122_3_alg».proof.Proof.HeadMp
import proofs.«419983_j31860067402122_3_alg».proof.Proof.HeadDp

set_option maxRecDepth 16384

noncomputable section

open scoped BigOperators

namespace Cert.KernelIdeal.Results

open Cert.KernelIdeal Cert.KernelIdeal.Gen Idealize.ShloMosaic Idealize.ShloMosaic.TcCoe Idealize.SL.Sem
open Idealize.ShloMosaic.StableHlo Cert.KernelIdeal.Carry

/-- The reference's product mirna_emb · Wm is the whole product, entry by entry. -/
theorem ref_xw_m (x0 : (⟨Cert.ReferenceIdeal.S2048x256, .f32⟩ : BufTy).Contents (Elt Ideal))
    (x12 : (⟨Cert.ReferenceIdeal.S256x128, .f32⟩ : BufTy).Contents (Elt Ideal)) :
    Cert.ReferenceIdeal.ReadP.val_main_v0 (F := Ideal) x0 x12 = Xw.prod 2048 256 128 x0 x12 := by
  funext i
  rw [Cert.ReferenceIdeal.ReadP.val_main_v0_apply]
  unfold Xw.prod
  refine Finset.sum_congr rfl fun k _ => ?_
  exact congrArg₂ (· * ·)
    (congrArg x0 (funext fun a => Fin.ext (by match a with | ⟨0, _⟩ => rfl | ⟨1, _⟩ => rfl)))
    (congrArg x12 (funext fun a => Fin.ext (by match a with | ⟨0, _⟩ => rfl | ⟨1, _⟩ => rfl)))

/-- The reference's product disease_emb · Wd is the whole product, entry by entry. -/
theorem ref_xw_d (x1 : (⟨Cert.ReferenceIdeal.S1024x256, .f32⟩ : BufTy).Contents (Elt Ideal))
    (x14 : (⟨Cert.ReferenceIdeal.S256x128, .f32⟩ : BufTy).Contents (Elt Ideal)) :
    Cert.ReferenceIdeal.ReadP.val_main_v53 (F := Ideal) x1 x14 = Xw.prod 1024 256 128 x1 x14 := by
  funext i
  rw [Cert.ReferenceIdeal.ReadP.val_main_v53_apply]
  unfold Xw.prod
  refine Finset.sum_congr rfl fun k _ => ?_
  exact congrArg₂ (· * ·)
    (congrArg x1 (funext fun a => Fin.ext (by match a with | ⟨0, _⟩ => rfl | ⟨1, _⟩ => rfl)))
    (congrArg x14 (funext fun a => Fin.ext (by match a with | ⟨0, _⟩ => rfl | ⟨1, _⟩ => rfl)))

/-- The reference's product pcg_emb · Wp is the whole product, entry by entry. -/
theorem ref_xw_p (x2 : (⟨Cert.ReferenceIdeal.S50000x256, .f32⟩ : BufTy).Contents (Elt Ideal))
    (x16 : (⟨Cert.ReferenceIdeal.S256x128, .f32⟩ : BufTy).Contents (Elt Ideal)) :
    Cert.ReferenceIdeal.ReadP.val_main_v106 (F := Ideal) x2 x16 = Xw.prod 50000 256 128 x2 x16 := by
  funext i
  rw [Cert.ReferenceIdeal.ReadP.val_main_v106_apply]
  unfold Xw.prod
  refine Finset.sum_congr rfl fun k _ => ?_
  exact congrArg₂ (· * ·)
    (congrArg x2 (funext fun a => Fin.ext (by match a with | ⟨0, _⟩ => rfl | ⟨1, _⟩ => rfl)))
    (congrArg x16 (funext fun a => Fin.ext (by match a with | ⟨0, _⟩ => rfl | ⟨1, _⟩ => rfl)))

variable (m : (ℓ : Loc nD τ sig) → Buf (Elt Ideal) ℓ) (ρ : Dev nD → PrngReg)

/-- The mirna hidden table, when the heads read it. -/
theorem mhid (c : Dev nD) : W15 m ρ c (Proc.devRef .tc main_v54)
    = Cert.ReferenceIdeal.ReadP.val_main_v52 (F := Ideal) (m ((c : Thread nD τ).loc main_arg0)) (m ((c : Thread nD τ).loc main_arg3)) (m ((c : Thread nD τ).loc main_arg4)) (m ((c : Thread nD τ).loc main_arg12)) (m ((c : Thread nD τ).loc main_arg13)) :=
  (W15_v54 m ρ c).trans (Tail.layer_m m ρ c ((Xw.xw_m m ρ c).trans (ref_xw_m _ _).symm))

/-- The disease hidden table, when the heads read it. -/
theorem dhid (c : Dev nD) : W15 m ρ c (Proc.devRef .tc main_v106)
    = Cert.ReferenceIdeal.ReadP.val_main_v105 (F := Ideal) (m ((c : Thread nD τ).loc main_arg1)) (m ((c : Thread nD τ).loc main_arg5)) (m ((c : Thread nD τ).loc main_arg6)) (m ((c : Thread nD τ).loc main_arg14)) (m ((c : Thread nD τ).loc main_arg15)) :=
  (W15_v106 m ρ c).trans (Tail.layer_d m ρ c ((Xw.xw_d m ρ c).trans (ref_xw_d _ _).symm))

/-- The pcg hidden table, when the heads read it. -/
theorem phid (c : Dev nD) : W15 m ρ c (Proc.devRef .tc main_v158)
    = Cert.ReferenceIdeal.ReadP.val_main_v158 (F := Ideal) (m ((c : Thread nD τ).loc main_arg2)) (m ((c : Thread nD τ).loc main_arg7)) (m ((c : Thread nD τ).loc main_arg8)) (m ((c : Thread nD τ).loc main_arg16)) (m ((c : Thread nD τ).loc main_arg17)) :=
  Tail.layer_p m ρ c ((Xw.xw_p m ρ c).trans (ref_xw_p _ _).symm)

set_option maxHeartbeats 8000000 in
/-- The association scores. -/
theorem out0 (c : Dev nD) (hnn : ∀ i, 0 ≤ ((m ((c : Thread nD τ).loc main_arg11)) i).toInt) :
    W28 m ρ c (Proc.devRef .tc main_v184)
      = Cert.ReferenceIdeal.ReadP.val_main_v226 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg18)) (m ((c : Thread nD τ).loc main_arg19)) :=
  Heads.head_assoc m ρ c (mhid m ρ c) (dhid m ρ c) (by launch_at_W15 m ρ c) (by launch_at_W15 m ρ c) (by launch_at_W15 m ρ c) hnn

set_option maxHeartbeats 8000000 in
/-- The mirna–pcg scores. -/
theorem out1 (c : Dev nD) (hnn : ∀ i, 0 ≤ ((m ((c : Thread nD τ).loc main_arg9)) i).toInt) :
    W28 m ρ c (Proc.devRef .tc main_v207)
      = Cert.ReferenceIdeal.ReadP.val_main_v237 (F := Ideal) (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg12)) (m ((c : Thread nD τ).loc main_arg13)) (m ((c : Thread nD τ).loc main_arg16)) (m ((c : Thread nD τ).loc main_arg17)) (m ((c : Thread nD τ).loc main_arg20)) (m ((c : Thread nD τ).loc main_arg21)) :=
  Heads.head_mp m ρ c (mhid m ρ c) (phid m ρ c) (by launch_at_W15 m ρ c) (by launch_at_W15 m ρ c) (by launch_at_W15 m ρ c) hnn

set_option maxHeartbeats 8000000 in
/-- The disease–pcg scores. -/
theorem out2 (c : Dev nD) (hnn : ∀ i, 0 ≤ ((m ((c : Thread nD τ).loc main_arg10)) i).toInt) :
    W28 m ρ c (Proc.devRef .tc main_v230)
      = Cert.ReferenceIdeal.ReadP.val_main_v248 (F := Ideal) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg14)) (m ((c : Thread nD τ).loc main_arg15)) (m ((c : Thread nD τ).loc main_arg16)) (m ((c : Thread nD τ).loc main_arg17)) (m ((c : Thread nD τ).loc main_arg22)) (m ((c : Thread nD τ).loc main_arg23)) :=
  Heads.head_dp m ρ c (dhid m ρ c) (phid m ρ c) (by launch_at_W15 m ρ c) (by launch_at_W15 m ρ c) (by launch_at_W15 m ρ c) hnn

end Cert.KernelIdeal.Results

end
-- ==== Proof.lean ====
/-
  The certificate: the pallas kernel (three matrix-product regions followed by graph-convolution layers and pair
  heads on the host) against its jnp reference, over the extended reals.

  Frames. The kernel's two frames are the generated ones; the reference's is its run with the results dropped.
  Idealization. The ideal pass changed nothing it has to account for: the ledger is empty.
  Values. At the exact-arithmetic instance the kernel's three result buffers hold, at the end of every execution,
  the fold of its segments over the launch memory (the kernel's run). That fold is, stage by stage, the reference's
  own computation: each region leaves the whole matrix product, which is the reference's product; each layer is
  then the same chain of operations on both sides; and each head's score is the same sum, the reference's
  replacement of negative indices doing nothing because the precondition makes every pair index non-negative.
  The reference's run ends with its results at its own stage functions of its arguments, which agree with the
  kernel's arguments.
-/
import proofs.«419983_j31860067402122_3_alg».proof.Defs
import proofs.«419983_j31860067402122_3_alg».proof.Proof.Gen.Kernel
import proofs.«419983_j31860067402122_3_alg».proof.Proof.Gen.Kernel.Frame
import proofs.«419983_j31860067402122_3_alg».proof.Proof.Gen.KernelIdeal
import proofs.«419983_j31860067402122_3_alg».proof.Proof.Gen.KernelIdeal.Frame
import proofs.«419983_j31860067402122_3_alg».proof.Proof.Gen.ReferenceIdeal
import proofs.«419983_j31860067402122_3_alg».proof.Proof.Gen.Pre_finite_inputs
import proofs.«419983_j31860067402122_3_alg».proof.Proof.KernelRun
import proofs.«419983_j31860067402122_3_alg».proof.Proof.RefRun
import proofs.«419983_j31860067402122_3_alg».proof.Proof.RefReadEq
import proofs.«419983_j31860067402122_3_alg».proof.Proof.Domain
import proofs.«419983_j31860067402122_3_alg».proof.Proof.Results
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its three results dropped. -/
theorem frame_referenceIdeal : Cert.frame_ReferenceIdeal := fun m ρ _ =>
  (θ_run Cert.ReferenceIdeal.defs _ _).mono (fun _ h c => (h c).2.2.2) (Cert.ReferenceIdeal.ValueP.run (F := Ideal) m ρ)

/-- The ideal pass's ledger is empty. -/
theorem preserves : Cert.preserves_Kernel_KernelIdeal := trivial

set_option maxHeartbeats 4000000 in
/-- Both programs end with the same three arrays of scores. -/
theorem algebraic : Cert.algebraic_KernelIdeal_ReferenceIdeal := by
  intro m ρ m' ρ' hpre hagree
  refine ⟨fun c => Cert.KernelIdeal.Gen.W28 m ρ c (Proc.devRef .tc Cert.KernelIdeal.main_v184),
    fun c => Cert.KernelIdeal.Gen.W28 m ρ c (Proc.devRef .tc Cert.KernelIdeal.main_v207),
    fun c => Cert.KernelIdeal.Gen.W28 m ρ c (Proc.devRef .tc Cert.KernelIdeal.main_v230),
    Cert.KernelIdeal.ValueRun.run (F := Ideal) m ρ, ?_⟩
  refine (θ_run Cert.ReferenceIdeal.defs _ _).mono (fun r h c => ?_) (Cert.ReferenceIdeal.ValueP.run (F := Ideal) m' ρ')
  obtain ⟨h0, h1, h2, hargs⟩ := h c
  obtain ⟨n9, n10, n11⟩ := Cert.Proof.Domain.pairs_nonneg m hpre c
  obtain ⟨a0, a1, a2, a3, a4, a5, a6, a7, a8, a9, a10, a11, a12, a13, a14, a15, a16, a17, a18, a19, a20, a21, a22, a23⟩ := hagree c
  refine ⟨h0.trans ?_, h1.trans ?_, h2.trans ?_, hargs⟩
  · rw [Cert.ReferenceIdeal.ReadP.val_main_v226_eq, a0, a1, a3, a4, a5, a6, a11, a12, a13, a14, a15, a18, a19]
    exact (Cert.KernelIdeal.Results.out0 m ρ c n11).symm
  · rw [Cert.ReferenceIdeal.ReadP.val_main_v237_eq, a0, a2, a3, a4, a7, a8, a9, a12, a13, a16, a17, a20, a21]
    exact (Cert.KernelIdeal.Results.out1 m ρ c n9).symm
  · rw [Cert.ReferenceIdeal.ReadP.val_main_v248_eq, a1, a2, a5, a6, a7, a8, a10, a14, a15, a16, a17, a22, a23]
    exact (Cert.KernelIdeal.Results.out2 m ρ c n10).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
